-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S81920 : Shape := ⟨1, ![81920]⟩
abbrev S2x163840 : Shape := ⟨2, ![2, 163840]⟩
abbrev S50000x256 : Shape := ⟨2, ![50000, 256]⟩
abbrev S2x256x256 : Shape := ⟨3, ![2, 256, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩
abbrev S1x163840 : Shape := ⟨2, ![1, 163840]⟩
abbrev S163840 : Shape := ⟨1, ![163840]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S256x512 : S_.BroadcastsInDim S256x512 (![] : Fin 0 → Fin S256x512.rank)
  reducesTo_S256x512_S_d0_1 : S256x512.ReducesTo [0, 1] S_
  bcast_S_S81920 : S_.BroadcastsInDim S81920 (![] : Fin 0 → Fin S81920.rank)
  reducesTo_S81920_S_d0 : S81920.ReducesTo [0] S_
  slices_S2x163840_S1x163840_0_0 : S2x163840.Slices ![0, 0] S1x163840
  shapeCasts_S1x163840_S163840 : S1x163840.ShapeCasts S163840
  bcast_S_S163840 : S_.BroadcastsInDim S163840 (![] : Fin 0 → Fin S163840.rank)
  reducesTo_S163840_S_d0 : S163840.ReducesTo [0] S_

variable [Facts]

def fn_part5 {F : FTy → Type} [FloatOps F] (main_arg2 : IVec S81920 32) (main_v75 : IVec S_ 1) (main_v85 : IVec S_ 1) : IVec S_ 1 :=
  let main_v86 : IVec S_ 1 := andi main_v75 main_v85
  let main_c_32 : IVec S_ 32 := constantI S_ 32 4294963200#32
  let main_v87 : IVec S81920 32 := broadcastInDim S81920 ![] bcast_S_S81920 main_c_32
  let main_v88 : IVec S81920 1 := cmpi .sge main_arg2 main_v87
  let main_c_33 : IVec S_ 32 := constantI S_ 32 4096#32
  let main_v89 : IVec S81920 32 := broadcastInDim S81920 ![] bcast_S_S81920 main_c_33
  let main_v90 : IVec S81920 1 := cmpi .slt main_arg2 main_v89
  let main_v91 : IVec S81920 1 := andi main_v88 main_v90
  let main_c_34 : IVec S_ 1 := constantI S_ 1 1#1
  let main_v92 : IVec S_ 1 := (fun x v => Host.reduce IntOp.andi x v reducesTo_S81920_S_d0 h_S_) main_v91 main_c_34
  let main_v93 : IVec S_ 1 := andi main_v86 main_v92
  main_v93

def fn_part4 {F : FTy → Type} [FloatOps F] (main_arg0 : IVec S81920 32) (main_arg1 : IVec S2x163840 32) (main_arg2 : IVec S81920 32) (main_v63 : IVec S_ 1) (main_v67 : IVec S_ 1) : IVec S_ 1 :=
  let main_v68 : IVec S_ 1 := andi main_v63 main_v67
  let main_c_26 : IVec S_ 32 := constantI S_ 32 4294917297#32
  let main_v69 : IVec S81920 32 := broadcastInDim S81920 ![] bcast_S_S81920 main_c_26
  let main_v70 : IVec S81920 1 := cmpi .sge main_arg0 main_v69
  let main_c_27 : IVec S_ 32 := constantI S_ 32 50000#32
  let main_v71 : IVec S81920 32 := broadcastInDim S81920 ![] bcast_S_S81920 main_c_27
  let main_v72 : IVec S81920 1 := cmpi .sle main_arg0 main_v71
  let main_v73 : IVec S81920 1 := andi main_v70 main_v72
  let main_c_28 : IVec S_ 1 := constantI S_ 1 1#1
  let main_v74 : IVec S_ 1 := (fun x v => Host.reduce IntOp.andi x v reducesTo_S81920_S_d0 h_S_) main_v73 main_c_28
  let main_v75 : IVec S_ 1 := andi main_v68 main_v74
  let main_v76 : IVec S1x163840 32 := (extractStridedSlice S1x163840 ![0, 0] · slices_S2x163840_S1x163840_0_0) main_arg1
  let main_v77 : IVec S163840 32 := shapeCast S163840 main_v76 shapeCasts_S1x163840_S163840
  let main_c_29 : IVec S_ 32 := constantI S_ 32 4294885376#32
  let main_v78 : IVec S163840 32 := broadcastInDim S163840 ![] bcast_S_S163840 main_c_29
  let main_v79 : IVec S163840 1 := cmpi .sge main_v77 main_v78
  let main_v80 : IVec S1x163840 32 := (extractStridedSlice S1x163840 ![0, 0] · slices_S2x163840_S1x163840_0_0) main_arg1
  let main_v81 : IVec S163840 32 := shapeCast S163840 main_v80 shapeCasts_S1x163840_S163840
  let main_c_30 : IVec S_ 32 := constantI S_ 32 81920#32
  let main_v82 : IVec S163840 32 := broadcastInDim S163840 ![] bcast_S_S163840 main_c_30
  let main_v83 : IVec S163840 1 := cmpi .slt main_v81 main_v82
  let main_v84 : IVec S163840 1 := andi main_v79 main_v83
  let main_c_31 : IVec S_ 1 := constantI S_ 1 1#1
  let main_v85 : IVec S_ 1 := (fun x v => Host.reduce IntOp.andi x v reducesTo_S163840_S_d0 h_S_) main_v84 main_c_31
  fn_part5 (F := F) main_arg2 main_v75 main_v85

def fn_part3 {F : FTy → Type} [FloatOps F] (main_arg0 : IVec S81920 32) (main_arg1 : IVec S2x163840 32) (main_arg2 : IVec S81920 32) (main_arg14 : FVec F S1 .f32) (main_arg15 : FVec F S256x512 .f32) (main_arg16 : FVec F S256 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S256x512 .f32 := Host.absf main_arg15
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg0 main_arg1 main_arg2 main_v63 main_v67

def fn_part2 {F : FTy → Type} [FloatOps F] (main_arg0 : IVec S81920 32) (main_arg1 : IVec S2x163840 32) (main_arg2 : IVec S81920 32) (main_arg10 : FVec F S256 .f32) (main_arg11 : FVec F S256x256 .f32) (main_arg12 : FVec F S256 .f32) (main_arg13 : FVec F S1x256 .f32) (main_arg14 : FVec F S1 .f32) (main_arg15 : FVec F S256x512 .f32) (main_arg16 : FVec F S256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg13
  let main_cst_18 : FVec F S_ .f32 := constant S_ .f32 0x7F800000#32
  let main_v50 : FVec F S1x256 .f32 := broadcastInDim S1x256 ![] bcast_S_S1x256 main_cst_18
  fn_part3 (F := F) main_arg0 main_arg1 main_arg2 main_arg14 main_arg15 main_arg16 main_v48 main_v49 main_v50

def fn_part1 {F : FTy → Type} [FloatOps F] (main_arg0 : IVec S81920 32) (main_arg1 : IVec S2x163840 32) (main_arg2 : IVec S81920 32) (main_arg7 : FVec F S768 .f32) (main_arg8 : FVec F S768 .f32) (main_arg9 : FVec F S256x256 .f32) (main_arg10 : FVec F S256 .f32) (main_arg11 : FVec F S256x256 .f32) (main_arg12 : FVec F S256 .f32) (main_arg13 : FVec F S1x256 .f32) (main_arg14 : FVec F S1 .f32) (main_arg15 : FVec F S256x512 .f32) (main_arg16 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg7
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg8
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg0 main_arg1 main_arg2 main_arg10 main_arg11 main_arg12 main_arg13 main_arg14 main_arg15 main_arg16 main_v33

def fn {F : FTy → Type} [FloatOps F] (main_arg0 : IVec S81920 32) (main_arg1 : IVec S2x163840 32) (main_arg2 : IVec S81920 32) (main_arg3 : FVec F S50000x256 .f32) (main_arg4 : FVec F S2x256x256 .f32) (main_arg5 : FVec F S768x256 .f32) (main_arg6 : FVec F S768x256 .f32) (main_arg7 : FVec F S768 .f32) (main_arg8 : FVec F S768 .f32) (main_arg9 : FVec F S256x256 .f32) (main_arg10 : FVec F S256 .f32) (main_arg11 : FVec F S256x256 .f32) (main_arg12 : FVec F S256 .f32) (main_arg13 : FVec F S1x256 .f32) (main_arg14 : FVec F S1 .f32) (main_arg15 : FVec F S256x512 .f32) (main_arg16 : FVec F S256 .f32) : IVec S_ 1 :=
  let main_v0 : FVec F S50000x256 .f32 := Host.absf main_arg3
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x256x256 .f32 := Host.absf main_arg4
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S768x256 .f32 := Host.absf main_arg5
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg6
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg0 main_arg1 main_arg2 main_arg7 main_arg8 main_arg9 main_arg10 main_arg11 main_arg12 main_arg13 main_arg14 main_arg15 main_arg16 main_v13 main_v16
-- ==== Kernel.lean ====
abbrev S81920 : Shape := ⟨1, ![81920]⟩
abbrev S2x163840 : Shape := ⟨2, ![2, 163840]⟩
abbrev S50000x256 : Shape := ⟨2, ![50000, 256]⟩
abbrev S2x256x256 : Shape := ⟨3, ![2, 256, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩
abbrev S81920x1 : Shape := ⟨2, ![81920, 1]⟩
abbrev S1x1 : Shape := ⟨2, ![1, 1]⟩
abbrev S81920x256 : Shape := ⟨2, ![81920, 256]⟩
abbrev S1x163840 : Shape := ⟨2, ![1, 163840]⟩
abbrev S163840 : Shape := ⟨1, ![163840]⟩
abbrev S1x768 : Shape := ⟨2, ![1, 768]⟩
abbrev S1x256x256 : Shape := ⟨3, ![1, 256, 256]⟩
abbrev S1024x256 : Shape := ⟨2, ![1024, 256]⟩
abbrev S163840x1 : Shape := ⟨2, ![163840, 1]⟩
abbrev S163840x256 : Shape := ⟨2, ![163840, 256]⟩
abbrev S1024x768 : Shape := ⟨2, ![1024, 768]⟩
abbrev S4096 : Shape := ⟨1, ![4096]⟩
abbrev S4096x1 : Shape := ⟨2, ![4096, 1]⟩
abbrev S4096x256 : Shape := ⟨2, ![4096, 256]⟩
abbrev S1024 : Shape := ⟨1, ![1024]⟩
abbrev S1024x1 : Shape := ⟨2, ![1024, 1]⟩
abbrev S4096x512 : Shape := ⟨2, ![4096, 512]⟩
abbrev S50176x256 : Shape := ⟨2, ![50176, 256]⟩
abbrev S4096x50176 : Shape := ⟨2, ![4096, 50176]⟩
abbrev S512x256 : Shape := ⟨2, ![512, 256]⟩
abbrev S4096x50000 : Shape := ⟨2, ![4096, 50000]⟩

abbrev nBuf : Space → Nat
  | .hbm => 219
  | .vmem => 51
  | .smem => 0
  | _ => 0

abbrev hbmTy0_0 (i : Nat) : BufTy := match i % 128 with
  | 0 => ⟨S81920, .i32⟩
  | 1 => ⟨S2x163840, .i32⟩
  | 2 => ⟨S81920, .i32⟩
  | 3 => ⟨S50000x256, .f32⟩
  | 4 => ⟨S2x256x256, .f32⟩
  | 5 => ⟨S768x256, .f32⟩
  | 6 => ⟨S768x256, .f32⟩
  | 7 => ⟨S768, .f32⟩
  | 8 => ⟨S768, .f32⟩
  | 9 => ⟨S256x256, .f32⟩
  | 10 => ⟨S256, .f32⟩
  | 11 => ⟨S256x256, .f32⟩
  | 12 => ⟨S256, .f32⟩
  | 13 => ⟨S1x256, .f32⟩
  | 14 => ⟨S1, .f32⟩
  | 15 => ⟨S256x512, .f32⟩
  | 16 => ⟨S256, .f32⟩
  | 17 => ⟨S_, .i32⟩
  | 18 => ⟨S81920, .i32⟩
  | 19 => ⟨S81920, .i32⟩
  | 20 => ⟨S_, .i32⟩
  | 21 => ⟨S81920, .i32⟩
  | 22 => ⟨S81920, .i1⟩
  | 23 => ⟨S_, .i32⟩
  | 24 => ⟨S81920, .i32⟩
  | 25 => ⟨S81920, .i32⟩
  | 26 => ⟨S81920, .i32⟩
  | 27 => ⟨S81920x1, .i32⟩
  | 28 => ⟨S1, .i32⟩
  | 29 => ⟨S_, .i32⟩
  | 30 => ⟨S81920x1, .i32⟩
  | 31 => ⟨S81920x1, .i1⟩
  | 32 => ⟨S1x1, .i32⟩
  | 33 => ⟨S81920x1, .i32⟩
  | 34 => ⟨S81920x1, .i1⟩
  | 35 => ⟨S81920x1, .i1⟩
  | 36 => ⟨S_, .i1⟩
  | 37 => ⟨S81920, .i1⟩
  | 38 => ⟨S81920x256, .f32⟩
  | 39 => ⟨S81920x256, .i1⟩
  | 40 => ⟨S_, .f32⟩
  | 41 => ⟨S81920x256, .f32⟩
  | 42 => ⟨S81920x256, .f32⟩
  | 43 => ⟨S1x163840, .i32⟩
  | 44 => ⟨S163840, .i32⟩
  | 45 => ⟨S1x163840, .i32⟩
  | 46 => ⟨S163840, .i32⟩
  | 47 => ⟨S768x256, .bf16⟩
  | 48 => ⟨S768x256, .bf16⟩
  | 49 => ⟨S1x768, .f32⟩
  | 50 => ⟨S1x768, .f32⟩
  | 51 => ⟨S1x256x256, .f32⟩
  | 52 => ⟨S256x256, .f32⟩
  | 53 => ⟨S256x256, .bf16⟩
  | 54 => ⟨S81920x256, .f32⟩
  | 55 => ⟨S_, .i32⟩
  | 56 => ⟨S163840, .i32⟩
  | 57 => ⟨S163840, .i1⟩
  | 58 => ⟨S_, .i32⟩
  | 59 => ⟨S163840, .i32⟩
  | 60 => ⟨S163840, .i32⟩
  | 61 => ⟨S163840, .i32⟩
  | 62 => ⟨S163840x1, .i32⟩
  | 63 => ⟨S1, .i32⟩
  | 64 => ⟨S_, .i32⟩
  | 65 => ⟨S163840x1, .i32⟩
  | 66 => ⟨S163840x1, .i1⟩
  | 67 => ⟨S1x1, .i32⟩
  | 68 => ⟨S163840x1, .i32⟩
  | 69 => ⟨S163840x1, .i1⟩
  | 70 => ⟨S163840x1, .i1⟩
  | 71 => ⟨S_, .i1⟩
  | 72 => ⟨S163840, .i1⟩
  | 73 => ⟨S163840x256, .f32⟩
  | 74 => ⟨S163840x256, .i1⟩
  | 75 => ⟨S_, .f32⟩
  | 76 => ⟨S163840x256, .f32⟩
  | 77 => ⟨S163840x256, .f32⟩
  | 78 => ⟨S_, .f32⟩
  | 79 => ⟨S81920x256, .f32⟩
  | 80 => ⟨S_, .i32⟩
  | 81 => ⟨S163840, .i32⟩
  | 82 => ⟨S163840, .i1⟩
  | 83 => ⟨S_, .i32⟩
  | 84 => ⟨S163840, .i32⟩
  | 85 => ⟨S163840, .i32⟩
  | 86 => ⟨S163840, .i32⟩
  | 87 => ⟨S163840x1, .i32⟩
  | 88 => ⟨S81920x256, .f32⟩
  | 89 => ⟨S81920x256, .f32⟩
  | 90 => ⟨S1x256x256, .f32⟩
  | 91 => ⟨S256x256, .f32⟩
  | 92 => ⟨S256x256, .bf16⟩
  | 93 => ⟨S81920x256, .f32⟩
  | 94 => ⟨S_, .i32⟩
  | 95 => ⟨S163840, .i32⟩
  | 96 => ⟨S163840, .i1⟩
  | 97 => ⟨S_, .i32⟩
  | 98 => ⟨S163840, .i32⟩
  | 99 => ⟨S163840, .i32⟩
  | 100 => ⟨S163840, .i32⟩
  | 101 => ⟨S163840x1, .i32⟩
  | 102 => ⟨S1, .i32⟩
  | 103 => ⟨S_, .i32⟩
  | 104 => ⟨S163840x1, .i32⟩
  | 105 => ⟨S163840x1, .i1⟩
  | 106 => ⟨S1x1, .i32⟩
  | 107 => ⟨S163840x1, .i32⟩
  | 108 => ⟨S163840x1, .i1⟩
  | 109 => ⟨S163840x1, .i1⟩
  | 110 => ⟨S_, .i1⟩
  | 111 => ⟨S163840, .i1⟩
  | 112 => ⟨S163840x256, .f32⟩
  | 113 => ⟨S163840x256, .i1⟩
  | 114 => ⟨S_, .f32⟩
  | 115 => ⟨S163840x256, .f32⟩
  | 116 => ⟨S163840x256, .f32⟩
  | 117 => ⟨S_, .f32⟩
  | 118 => ⟨S81920x256, .f32⟩
  | 119 => ⟨S_, .i32⟩
  | 120 => ⟨S163840, .i32⟩
  | 121 => ⟨S163840, .i1⟩
  | 122 => ⟨S_, .i32⟩
  | 123 => ⟨S163840, .i32⟩
  | 124 => ⟨S163840, .i32⟩
  | 125 => ⟨S163840, .i32⟩
  | 126 => ⟨S163840x1, .i32⟩
  | 127 => ⟨S81920x256, .f32⟩
  | _ => ⟨S81920, .i32⟩

abbrev hbmTy0_1 (i : Nat) : BufTy := match i % 128 with
  | 0 => ⟨S81920x256, .f32⟩
  | 1 => ⟨S_, .i32⟩
  | 2 => ⟨S4096, .i32⟩
  | 3 => ⟨S_, .i32⟩
  | 4 => ⟨S_, .i32⟩
  | 5 => ⟨S81920, .i32⟩
  | 6 => ⟨S81920, .i32⟩
  | 7 => ⟨S_, .i32⟩
  | 8 => ⟨S81920, .i32⟩
  | 9 => ⟨S81920, .i1⟩
  | 10 => ⟨S_, .i32⟩
  | 11 => ⟨S81920, .i32⟩
  | 12 => ⟨S81920, .i32⟩
  | 13 => ⟨S81920, .i32⟩
  | 14 => ⟨S81920x1, .i32⟩
  | 15 => ⟨S_, .i32⟩
  | 16 => ⟨S81920, .i32⟩
  | 17 => ⟨S4096, .i32⟩
  | 18 => ⟨S_, .i32⟩
  | 19 => ⟨S_, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S1, .i32⟩
  | 33 => ⟨S_, .i32⟩
  | 34 => ⟨S4096x1, .i32⟩
  | 35 => ⟨S4096x1, .i1⟩
  | 36 => ⟨S1x1, .i32⟩
  | 37 => ⟨S4096x1, .i32⟩
  | 38 => ⟨S4096x1, .i1⟩
  | 39 => ⟨S4096x1, .i1⟩
  | 40 => ⟨S_, .i1⟩
  | 41 => ⟨S4096, .i1⟩
  | 42 => ⟨S4096x256, .f32⟩
  | 43 => ⟨S4096x256, .i1⟩
  | 44 => ⟨S_, .f32⟩
  | 45 => ⟨S4096x256, .f32⟩
  | 46 => ⟨S4096x256, .f32⟩
  | 47 => ⟨S_, .i32⟩
  | 48 => ⟨S81920, .i32⟩
  | 49 => ⟨S81920, .i1⟩
  | 50 => ⟨S_, .i32⟩
  | 51 => ⟨S81920, .i32⟩
  | 52 => ⟨S81920, .i32⟩
  | 53 => ⟨S81920, .i32⟩
  | 54 => ⟨S81920x1, .i32⟩
  | 55 => ⟨S1, .i32⟩
  | 56 => ⟨S_, .i32⟩
  | 57 => ⟨S81920x1, .i32⟩
  | 58 => ⟨S81920x1, .i1⟩
  | 59 => ⟨S1x1, .i32⟩
  | 60 => ⟨S81920x1, .i32⟩
  | 61 => ⟨S81920x1, .i1⟩
  | 62 => ⟨S81920x1, .i1⟩
  | 63 => ⟨S_, .i1⟩
  | 64 => ⟨S81920, .i1⟩
  | 65 => ⟨S81920x256, .f32⟩
  | 66 => ⟨S81920x256, .i1⟩
  | 67 => ⟨S_, .f32⟩
  | 68 => ⟨S81920x256, .f32⟩
  | 69 => ⟨S81920x256, .f32⟩
  | 70 => ⟨S256x256, .bf16⟩
  | 71 => ⟨S256x256, .bf16⟩
  | 72 => ⟨S1x256, .f32⟩
  | 73 => ⟨S1x256, .f32⟩
  | 74 => ⟨S1x1, .f32⟩
  | 75 => ⟨S81920x256, .f32⟩
  | 76 => ⟨S_, .f32⟩
  | 77 => ⟨S4096x256, .f32⟩
  | 78 => ⟨S81920x1, .i32⟩
  | 79 => ⟨S4096x256, .f32⟩
  | 80 => ⟨S4096x512, .f32⟩
  | 81 => ⟨S256x512, .bf16⟩
  | 82 => ⟨S1x256, .f32⟩
  | 83 => ⟨S4096x256, .f32⟩
  | 84 => ⟨S50000x256, .bf16⟩
  | 85 => ⟨S_, .i32⟩
  | 86 => ⟨S_, .bf16⟩
  | 87 => ⟨S50176x256, .bf16⟩
  | 88 => ⟨S4096x256, .bf16⟩
  | 89 => ⟨S4096x50176, .f32⟩
  | 90 => ⟨S4096x50000, .f32⟩
  | _ => ⟨S81920, .i32⟩

abbrev hbmTy (i : Nat) : BufTy := match i / 128 with
  | 0 => hbmTy0_0 i
  | 1 => hbmTy0_1 i
  | _ => ⟨S81920, .i32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S768x256, .bf16⟩
  | .local _ .vmem, ⟨10, _⟩ => ⟨S768x256, .bf16⟩
  | .local _ .vmem, ⟨11, _⟩ => ⟨S1x768, .f32⟩
  | .local _ .vmem, ⟨12, _⟩ => ⟨S1x768, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S256x256, .bf16⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S768x256, .bf16⟩
  | .local _ .vmem, ⟨25, _⟩ => ⟨S768x256, .bf16⟩
  | .local _ .vmem, ⟨26, _⟩ => ⟨S1x768, .f32⟩
  | .local _ .vmem, ⟨27, _⟩ => ⟨S1x768, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S256x256, .bf16⟩
  | .local _ .vmem, ⟨35, _⟩ => ⟨S1x256, .f32⟩
  | .local _ .vmem, ⟨36, _⟩ => ⟨S256x256, .bf16⟩
  | .local _ .vmem, ⟨37, _⟩ => ⟨S1x256, .f32⟩
  | .local _ .vmem, ⟨38, _⟩ => ⟨S1x256, .f32⟩
  | .local _ .vmem, ⟨39, _⟩ => ⟨S1x1, .f32⟩
  | .local _ .vmem, ⟨40, _⟩ => ⟨S1024x256, .f32⟩
  | .local _ .vmem, ⟨41, _⟩ => ⟨S1024x256, .f32⟩
  | .local _ .vmem, ⟨42, _⟩ => ⟨S4096x512, .f32⟩
  | .local _ .vmem, ⟨43, _⟩ => ⟨S256x512, .bf16⟩
  | .local _ .vmem, ⟨44, _⟩ => ⟨S1x256, .f32⟩
  | .local _ .vmem, ⟨45, _⟩ => ⟨S4096x256, .f32⟩
  | .local _ .vmem, ⟨46, _⟩ => ⟨S4096x256, .bf16⟩
  | .local _ .vmem, ⟨47, _⟩ => ⟨S512x256, .bf16⟩
  | .local _ .vmem, ⟨48, _⟩ => ⟨S512x256, .bf16⟩
  | .local _ .vmem, ⟨49, _⟩ => ⟨S4096x512, .f32⟩
  | .local _ .vmem, ⟨50, _⟩ => ⟨S4096x512, .f32⟩
  | _, _ => ⟨S81920, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v15 : Ref sig .tc := ⟨.hbm, 77, rfl⟩
abbrev main_cst : Ref sig .tc := ⟨.hbm, 78, rfl⟩
abbrev main_v16 : Ref sig .tc := ⟨.hbm, 79, rfl⟩
abbrev main_c_0 : Ref sig .tc := ⟨.hbm, 80, rfl⟩
abbrev main_v17 : Ref sig .tc := ⟨.hbm, 81, rfl⟩
abbrev main_v18 : Ref sig .tc := ⟨.hbm, 82, rfl⟩
abbrev main_c_1 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v29 : Ref sig .tc := ⟨.hbm, 116, rfl⟩
abbrev main_cst_2 : Ref sig .tc := ⟨.hbm, 117, rfl⟩
abbrev main_v30 : Ref sig .tc := ⟨.hbm, 118, rfl⟩
abbrev main_c_3 : Ref sig .tc := ⟨.hbm, 119, rfl⟩
abbrev main_v31 : Ref sig .tc := ⟨.hbm, 120, rfl⟩
abbrev main_v32 : Ref sig .tc := ⟨.hbm, 121, rfl⟩
abbrev main_c_4 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_c_5 : Ref sig .tc := ⟨.hbm, 129, rfl⟩
abbrev main_v39 : Ref sig .tc := ⟨.hbm, 130, rfl⟩
abbrev main_c_6 : Ref sig .tc := ⟨.hbm, 131, rfl⟩
abbrev main_call3_v0 : Ref sig .tc := ⟨.hbm, 132, rfl⟩
abbrev main_call3_v1 : Ref sig .tc := ⟨.hbm, 133, rfl⟩
abbrev main_v40 : Ref sig .tc := ⟨.hbm, 134, rfl⟩
abbrev main_c_7 : Ref sig .tc := ⟨.hbm, 135, rfl⟩
abbrev main_v41 : Ref sig .tc := ⟨.hbm, 136, rfl⟩
abbrev main_v42 : Ref sig .tc := ⟨.hbm, 137, rfl⟩
abbrev main_c_8 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_c_9 : Ref sig .tc := ⟨.hbm, 143, rfl⟩
abbrev main_v47 : Ref sig .tc := ⟨.hbm, 144, rfl⟩
abbrev main_v48 : Ref sig .tc := ⟨.hbm, 145, rfl⟩
abbrev main_call4_call0_c : Ref sig .tc := ⟨.hbm, 146, rfl⟩
abbrev main_call4_call0_v0 : Ref sig .tc := ⟨.hbm, 147, rfl⟩
abbrev main_v49 : Ref sig .tc := ⟨.hbm, 148, rfl⟩
abbrev main_c_10 : Ref sig .tc := ⟨.hbm, 149, rfl⟩
abbrev main_v50 : Ref sig .tc := ⟨.hbm, 150, rfl⟩
abbrev main_v51 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v52 : Ref sig .tc := ⟨.hbm, 174, rfl⟩
abbrev main_call6_c : Ref sig .tc := ⟨.hbm, 175, rfl⟩
abbrev main_call6_v0 : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_c_1 : Ref sig .tc := ⟨.hbm, 183, rfl⟩
abbrev main_call6_c_2 : Ref sig .tc := ⟨.hbm, 184, rfl⟩
abbrev main_call6_v6 : Ref sig .tc := ⟨.hbm, 185, rfl⟩
abbrev main_call6_v7 : Ref sig .tc := ⟨.hbm, 186, rfl⟩
abbrev main_call6_v8 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_3 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_call6_cst : Ref sig .tc := ⟨.hbm, 195, rfl⟩
abbrev main_call6_v15 : Ref sig .tc := ⟨.hbm, 196, rfl⟩
abbrev main_v53 : Ref sig .tc := ⟨.hbm, 197, rfl⟩
abbrev main_v54 : Ref sig .tc := ⟨.hbm, 198, rfl⟩
abbrev main_v55 : Ref sig .tc := ⟨.hbm, 199, rfl⟩
abbrev main_v56 : Ref sig .tc := ⟨.hbm, 200, rfl⟩
abbrev main_v57 : Ref sig .tc := ⟨.hbm, 201, rfl⟩
abbrev main_v58 : Ref sig .tc := ⟨.hbm, 202, rfl⟩
abbrev main_v59 : Ref sig .tc := ⟨.hbm, 203, rfl⟩
abbrev main_cst_11 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_v63 : Ref sig .tc := ⟨.hbm, 208, rfl⟩
abbrev main_v64 : Ref sig .tc := ⟨.hbm, 209, rfl⟩
abbrev main_v65 : Ref sig .tc := ⟨.hbm, 210, rfl⟩
abbrev main_v66 : Ref sig .tc := ⟨.hbm, 211, rfl⟩
abbrev main_v67 : Ref sig .tc := ⟨.hbm, 212, rfl⟩
abbrev main_c_12 : Ref sig .tc := ⟨.hbm, 213, rfl⟩
abbrev main_call7_v0 : Ref sig .tc := ⟨.hbm, 214, rfl⟩
abbrev main_v68 : Ref sig .tc := ⟨.hbm, 215, rfl⟩
abbrev main_v69 : Ref sig .tc := ⟨.hbm, 216, rfl⟩
abbrev main_v70 : Ref sig .tc := ⟨.hbm, 217, rfl⟩
abbrev main_v71 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg8_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc6_stg0_0 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem8_1 : DmaSem sig := 41
abbrev cc5_sem0_0 : DmaSem sig := 42
abbrev cc5_sem1_0 : DmaSem sig := 43
abbrev cc5_sem2_0 : DmaSem sig := 44
abbrev cc5_sem3_0 : DmaSem sig := 45
abbrev cc6_sem0_0 : DmaSem sig := 46
abbrev cc6_sem1_0 : DmaSem sig := 47
abbrev cc6_sem1_1 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S768x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1024x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4096x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![98], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S4096x256 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S512x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S_S81920 : S_.BroadcastsInDim S81920 (![] : Fin 0 → Fin S81920.rank)
  bcast_S81920_S81920x1_0 : S81920.BroadcastsInDim S81920x1 (![0] : Fin 1 → Fin S81920x1.rank)
  bcast_S_S81920x1 : S_.BroadcastsInDim S81920x1 (![] : Fin 0 → Fin S81920x1.rank)
  bcast_S1_S1x1_1 : S1.BroadcastsInDim S1x1 (![1] : Fin 1 → Fin S1x1.rank)
  bcast_S1x1_S81920x1_0_1 : S1x1.BroadcastsInDim S81920x1 (![0, 1] : Fin 2 → Fin S81920x1.rank)
  reducesTo_S81920x1_S81920_d1 : S81920x1.ReducesTo [1] S81920
  h_S_ : 0 < S_.numel
  bcast_S81920_S81920x256_0 : S81920.BroadcastsInDim S81920x256 (![0] : Fin 1 → Fin S81920x256.rank)
  bcast_S_S81920x256 : S_.BroadcastsInDim S81920x256 (![] : Fin 0 → Fin S81920x256.rank)
  slices_S2x163840_S1x163840_0_0 : S2x163840.Slices ![0, 0] S1x163840
  shapeCasts_S1x163840_S163840 : S1x163840.ShapeCasts S163840
  slices_S2x163840_S1x163840_1_0 : S2x163840.Slices ![1, 0] S1x163840
  bitsLt_bf16_f32 : FTy.bits .bf16 < FTy.bits .f32
  shapeCasts_S768_S1x768 : S768.ShapeCasts S1x768
  slices_S2x256x256_S1x256x256_0_0_0 : S2x256x256.Slices ![0, 0, 0] S1x256x256
  shapeCasts_S1x256x256_S256x256 : S1x256x256.ShapeCasts S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S163840 : S_.BroadcastsInDim S163840 (![] : Fin 0 → Fin S163840.rank)
  bcast_S163840_S163840x1_0 : S163840.BroadcastsInDim S163840x1 (![0] : Fin 1 → Fin S163840x1.rank)
  bcast_S_S163840x1 : S_.BroadcastsInDim S163840x1 (![] : Fin 0 → Fin S163840x1.rank)
  bcast_S1x1_S163840x1_0_1 : S1x1.BroadcastsInDim S163840x1 (![0, 1] : Fin 2 → Fin S163840x1.rank)
  reducesTo_S163840x1_S163840_d1 : S163840x1.ReducesTo [1] S163840
  bcast_S163840_S163840x256_0 : S163840.BroadcastsInDim S163840x256 (![0] : Fin 1 → Fin S163840x256.rank)
  bcast_S_S163840x256 : S_.BroadcastsInDim S163840x256 (![] : Fin 0 → Fin S163840x256.rank)
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S2x256x256_S1x256x256_1_0_0 : S2x256x256.Slices ![1, 0, 0] S1x256x256
  bcast_S_S4096 : S_.BroadcastsInDim S4096 (![] : Fin 0 → Fin S4096.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x256_0 : S4096.BroadcastsInDim S4096x256 (![0] : Fin 1 → Fin S4096x256.rank)
  bcast_S_S4096x256 : S_.BroadcastsInDim S4096x256 (![] : Fin 0 → Fin S4096x256.rank)
  shapeCasts_S256_S1x256 : S256.ShapeCasts S1x256
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  broadcasts_S1024x1_S1024x256 : S1024x1.Broadcasts S1024x256
  concatenates_S4096x256_S4096x256_S4096x512_d1 : Shape.Concatenates [S4096x256, S4096x256] S4096x512 1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  pads_S50000x256_S50176x256_01760_000 : S50000x256.Pads (![0, 0] : Fin 2 → Nat) ![176, 0] ![0, 0] S50176x256
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S4096x50176_S4096x50000_0_0 : S4096x50176.Slices ![0, 0] S4096x50000
  gather_S50000x256_S81920x1_S81920x256_1_0_n_n_0_1_1256_wf : GatherDims.WF S50000x256 S81920x1 S81920x256 [1] [0] [] [0] [] 1 ![1, 256]
  dot_S1024x256_S256x256_S1024x256_1_0_0_1_n_n_wf : DotDims.WF S1024x256 S256x256 S1024x256 [1] [0] [0] [1] [] []
  gather_S81920x256_S163840x1_S163840x256_1_0_n_n_0_1_1256_wf : GatherDims.WF S81920x256 S163840x1 S163840x256 [1] [0] [] [0] [] 1 ![1, 256]
  scatter_S81920x256_S163840x1_S163840x256_1_0_0_1_wf : ScatterDims.WF S81920x256 S163840x1 S163840x256 [1] [0] [0] 1
  dot_S1024x256_S768x256_S1024x768_1_1_0_0_n_n_wf : DotDims.WF S1024x256 S768x256 S1024x768 [1] [1] [0] [0] [] []
  scatter_S4096_S81920x1_S81920_n_0_0_1_wf : ScatterDims.WF S4096 S81920x1 S81920 [] [0] [0] 1
  gather_S81920x256_S4096x1_S4096x256_1_0_n_n_0_1_1256_wf : GatherDims.WF S81920x256 S4096x1 S4096x256 [1] [0] [] [0] [] 1 ![1, 256]
  gather_S4096x256_S81920x1_S81920x256_1_0_n_n_0_1_1256_wf : GatherDims.WF S4096x256 S81920x1 S81920x256 [1] [0] [] [0] [] 1 ![1, 256]
  dot_S1024x256_S256x256_S1024x256_1_1_0_0_n_n_wf : DotDims.WF S1024x256 S256x256 S1024x256 [1] [1] [0] [0] [] []
  scatter_S4096x256_S81920x1_S81920x256_1_0_0_1_wf : ScatterDims.WF S4096x256 S81920x1 S81920x256 [1] [0] [0] 1
  dot_S4096x512_S256x512_S4096x256_1_1_0_0_n_n_wf : DotDims.WF S4096x512 S256x512 S4096x256 [1] [1] [0] [0] [] []
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S81920x256.size a
  hwx0_0 : ∀ i : grid0.Coords, EltTy.bits .f32 = 32 ∨ (Rect.block (s := S81920x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S81920x256.size a
  hwx0_2 : ∀ i : grid0.Coords, EltTy.bits .f32 = 32 ∨ (Rect.block (s := S81920x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S81920x256.size a
  hwx1_0 : ∀ i : grid1.Coords, EltTy.bits .f32 = 32 ∨ (Rect.block (s := S81920x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S81920x256.size a
  hwx1_1 : ∀ i : grid1.Coords, EltTy.bits .f32 = 32 ∨ (Rect.block (s := S81920x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x256.size a ≤ S768x256.size a
  hwx1_2 : ∀ i : grid1.Coords, EltTy.bits .bf16 = 32 ∨ (Rect.block (s := S768x256) S768x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x256.size a ≤ S768x256.size a
  hwx1_3 : ∀ i : grid1.Coords, EltTy.bits .bf16 = 32 ∨ (Rect.block (s := S768x256) S768x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S81920x256.size a
  hwx1_6 : ∀ i : grid1.Coords, EltTy.bits .f32 = 32 ∨ (Rect.block (s := S81920x256) S1024x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S81920x256.size a
  hwx2_0 : ∀ i : grid2.Coords, EltTy.bits .f32 = 32 ∨ (Rect.block (s := S81920x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S81920x256.size a
  hwx2_2 : ∀ i : grid2.Coords, EltTy.bits .f32 = 32 ∨ (Rect.block (s := S81920x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S81920x256.size a
  hwx3_0 : ∀ i : grid3.Coords, EltTy.bits .f32 = 32 ∨ (Rect.block (s := S81920x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S81920x256.size a
  hwx3_1 : ∀ i : grid3.Coords, EltTy.bits .f32 = 32 ∨ (Rect.block (s := S81920x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S768x256.size a ≤ S768x256.size a
  hwx3_2 : ∀ i : grid3.Coords, EltTy.bits .bf16 = 32 ∨ (Rect.block (s := S768x256) S768x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S768x256.size a ≤ S768x256.size a
  hwx3_3 : ∀ i : grid3.Coords, EltTy.bits .bf16 = 32 ∨ (Rect.block (s := S768x256) S768x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x768.size a ≤ S1x768.size a
  hwx3_4 : ∀ i : grid3.Coords, EltTy.bits .f32 = 32 ∨ (Rect.block (s := S1x768) S1x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x768.size a ≤ S1x768.size a
  hwx3_5 : ∀ i : grid3.Coords, EltTy.bits .f32 = 32 ∨ (Rect.block (s := S1x768) S1x768.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x256.size a ≤ S81920x256.size a
  hwx3_6 : ∀ i : grid3.Coords, EltTy.bits .f32 = 32 ∨ (Rect.block (s := S81920x256) S1024x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S81920x256.size a
  hwx4_0 : ∀ i : grid4.Coords, EltTy.bits .f32 = 32 ∨ (Rect.block (s := S81920x256) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S81920x256.size a
  hwx4_1 : ∀ i : grid4.Coords, EltTy.bits .f32 = 32 ∨ (Rect.block (s := S81920x256) S1024x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .bf16 = 32 ∨ (Rect.block (s := S256x256) S256x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x256.size a ≤ S81920x256.size a
  hwx4_8 : ∀ i : grid4.Coords, EltTy.bits .f32 = 32 ∨ (Rect.block (s := S81920x256) S1024x256.size (cc4_transform_8 i) (hinb4_8 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x512.size a ≤ S4096x512.size a
  hwx5_0 : ∀ i : grid5.Coords, EltTy.bits .f32 = 32 ∨ (Rect.block (s := S4096x512) S4096x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x512.size a ≤ S256x512.size a
  hwx5_1 : ∀ i : grid5.Coords, EltTy.bits .bf16 = 32 ∨ (Rect.block (s := S256x512) S256x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4096x256.size a ≤ S4096x256.size a
  hwx5_3 : ∀ i : grid5.Coords, EltTy.bits .f32 = 32 ∨ (Rect.block (s := S4096x256) S4096x256.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x256.size a ≤ S4096x256.size a
  hwx6_0 : ∀ i : grid6.Coords, EltTy.bits .bf16 = 32 ∨ (Rect.block (s := S4096x256) S4096x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S50176x256.size a
  hwx6_1 : ∀ i : grid6.Coords, EltTy.bits .bf16 = 32 ∨ (Rect.block (s := S50176x256) S512x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x512.size a ≤ S4096x50176.size a
  hwx6_2 : ∀ i : grid6.Coords, EltTy.bits .f32 = 32 ∨ (Rect.block (s := S4096x50176) S4096x512.size (cc6_transform_2 i) (hinb6_2 i)).WholeWords (EltTy.packing .f32)

variable [Facts₀]

def gather_S50000x256_S81920x1_S81920x256_1_0_n_n_0_1_1256 : GatherDims S50000x256 S81920x1 S81920x256 where
  offsetDims := [1]
  collapsedSliceDims := [0]
  operandBatchingDims := []
  startIndicesBatchingDims := []
  startIndexMap := [0]
  indexVectorDim := 1
  sliceSizes := ![1, 256]
  wf := gather_S50000x256_S81920x1_S81920x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S81920x256_S163840x1_S163840x256_1_0_n_n_0_1_1256 : GatherDims S81920x256 S163840x1 S163840x256 where
  offsetDims := [1]
  collapsedSliceDims := [0]
  operandBatchingDims := []
  startIndicesBatchingDims := []
  startIndexMap := [0]
  indexVectorDim := 1
  sliceSizes := ![1, 256]
  wf := gather_S81920x256_S163840x1_S163840x256_1_0_n_n_0_1_1256_wf
def scatter_S81920x256_S163840x1_S163840x256_1_0_0_1 : ScatterDims S81920x256 S163840x1 S163840x256 where
  updateWindowDims := [1]
  insertedWindowDims := [0]
  scatterDimsToOperandDims := [0]
  indexVectorDim := 1
  wf := scatter_S81920x256_S163840x1_S163840x256_1_0_0_1_wf
def dot_S1024x256_S768x256_S1024x768_1_1_0_0_n_n : DotDims S1024x256 S768x256 S1024x768 where
  lhsContracting := [1]
  rhsContracting := [1]
  lhsNonContracting := [0]
  rhsNonContracting := [0]
  lhsBatch := []
  rhsBatch := []
  wf := dot_S1024x256_S768x256_S1024x768_1_1_0_0_n_n_wf
def scatter_S4096_S81920x1_S81920_n_0_0_1 : ScatterDims S4096 S81920x1 S81920 where
  updateWindowDims := []
  insertedWindowDims := [0]
  scatterDimsToOperandDims := [0]
  indexVectorDim := 1
  wf := scatter_S4096_S81920x1_S81920_n_0_0_1_wf
def gather_S81920x256_S4096x1_S4096x256_1_0_n_n_0_1_1256 : GatherDims S81920x256 S4096x1 S4096x256 where
  offsetDims := [1]
  collapsedSliceDims := [0]
  operandBatchingDims := []
  startIndicesBatchingDims := []
  startIndexMap := [0]
  indexVectorDim := 1
  sliceSizes := ![1, 256]
  wf := gather_S81920x256_S4096x1_S4096x256_1_0_n_n_0_1_1256_wf
def gather_S4096x256_S81920x1_S81920x256_1_0_n_n_0_1_1256 : GatherDims S4096x256 S81920x1 S81920x256 where
  offsetDims := [1]
  collapsedSliceDims := [0]
  operandBatchingDims := []
  startIndicesBatchingDims := []
  startIndexMap := [0]
  indexVectorDim := 1
  sliceSizes := ![1, 256]
  wf := gather_S4096x256_S81920x1_S81920x256_1_0_n_n_0_1_1256_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def scatter_S4096x256_S81920x1_S81920x256_1_0_0_1 : ScatterDims S4096x256 S81920x1 S81920x256 where
  updateWindowDims := [1]
  insertedWindowDims := [0]
  scatterDimsToOperandDims := [0]
  indexVectorDim := 1
  wf := scatter_S4096x256_S81920x1_S81920x256_1_0_0_1_wf
def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf
def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S768x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S768x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S768x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S768x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v10) S1x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S1024x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v38) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg13) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v58) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v59) S1024x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v63) S4096x512.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v64) S256x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S4096x256.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v69) S4096x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v68) S512x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v70) S4096x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S81920 : Shape := ⟨1, ![81920]⟩
abbrev S2x163840 : Shape := ⟨2, ![2, 163840]⟩
abbrev S50000x256 : Shape := ⟨2, ![50000, 256]⟩
abbrev S2x256x256 : Shape := ⟨3, ![2, 256, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩
abbrev S81920x1 : Shape := ⟨2, ![81920, 1]⟩
abbrev S81920x256 : Shape := ⟨2, ![81920, 256]⟩
abbrev S1x163840 : Shape := ⟨2, ![1, 163840]⟩
abbrev S163840 : Shape := ⟨1, ![163840]⟩
abbrev S1x256x256 : Shape := ⟨3, ![1, 256, 256]⟩
abbrev S163840x1 : Shape := ⟨2, ![163840, 1]⟩
abbrev S163840x256 : Shape := ⟨2, ![163840, 256]⟩
abbrev S256x768 : Shape := ⟨2, ![256, 768]⟩
abbrev S81920x768 : Shape := ⟨2, ![81920, 768]⟩
abbrev S1x768 : Shape := ⟨2, ![1, 768]⟩
abbrev S4096 : Shape := ⟨1, ![4096]⟩
abbrev S4096x1 : Shape := ⟨2, ![4096, 1]⟩
abbrev S4096x256 : Shape := ⟨2, ![4096, 256]⟩
abbrev S256x1 : Shape := ⟨2, ![256, 1]⟩
abbrev S1x1 : Shape := ⟨2, ![1, 1]⟩
abbrev S4096x512 : Shape := ⟨2, ![4096, 512]⟩
abbrev S512x256 : Shape := ⟨2, ![512, 256]⟩
abbrev S256x50000 : Shape := ⟨2, ![256, 50000]⟩
abbrev S4096x50000 : Shape := ⟨2, ![4096, 50000]⟩

abbrev nBuf : Space → Nat
  | .hbm => 244
  | .vmem => 0
  | .smem => 0
  | _ => 0

abbrev hbmTy0_0 (i : Nat) : BufTy := match i % 128 with
  | 0 => ⟨S81920, .i32⟩
  | 1 => ⟨S2x163840, .i32⟩
  | 2 => ⟨S81920, .i32⟩
  | 3 => ⟨S50000x256, .f32⟩
  | 4 => ⟨S2x256x256, .f32⟩
  | 5 => ⟨S768x256, .f32⟩
  | 6 => ⟨S768x256, .f32⟩
  | 7 => ⟨S768, .f32⟩
  | 8 => ⟨S768, .f32⟩
  | 9 => ⟨S256x256, .f32⟩
  | 10 => ⟨S256, .f32⟩
  | 11 => ⟨S256x256, .f32⟩
  | 12 => ⟨S256, .f32⟩
  | 13 => ⟨S1x256, .f32⟩
  | 14 => ⟨S1, .f32⟩
  | 15 => ⟨S256x512, .f32⟩
  | 16 => ⟨S256, .f32⟩
  | 17 => ⟨S_, .i32⟩
  | 18 => ⟨S81920, .i32⟩
  | 19 => ⟨S81920, .i32⟩
  | 20 => ⟨S_, .i32⟩
  | 21 => ⟨S81920, .i32⟩
  | 22 => ⟨S81920, .i1⟩
  | 23 => ⟨S_, .i32⟩
  | 24 => ⟨S81920, .i32⟩
  | 25 => ⟨S81920, .i32⟩
  | 26 => ⟨S81920, .i32⟩
  | 27 => ⟨S81920x1, .i32⟩
  | 28 => ⟨S81920x256, .f32⟩
  | 29 => ⟨S1x163840, .i32⟩
  | 30 => ⟨S163840, .i32⟩
  | 31 => ⟨S1x163840, .i32⟩
  | 32 => ⟨S163840, .i32⟩
  | 33 => ⟨S1x256x256, .f32⟩
  | 34 => ⟨S256x256, .f32⟩
  | 35 => ⟨S81920x256, .f32⟩
  | 36 => ⟨S_, .f32⟩
  | 37 => ⟨S81920x256, .f32⟩
  | 38 => ⟨S_, .i32⟩
  | 39 => ⟨S163840, .i32⟩
  | 40 => ⟨S163840, .i1⟩
  | 41 => ⟨S_, .i32⟩
  | 42 => ⟨S163840, .i32⟩
  | 43 => ⟨S163840, .i32⟩
  | 44 => ⟨S163840, .i32⟩
  | 45 => ⟨S163840x1, .i32⟩
  | 46 => ⟨S163840x256, .f32⟩
  | 47 => ⟨S_, .i32⟩
  | 48 => ⟨S163840, .i32⟩
  | 49 => ⟨S163840, .i1⟩
  | 50 => ⟨S_, .i32⟩
  | 51 => ⟨S163840, .i32⟩
  | 52 => ⟨S163840, .i32⟩
  | 53 => ⟨S163840, .i32⟩
  | 54 => ⟨S163840x1, .i32⟩
  | 55 => ⟨S81920x256, .f32⟩
  | 56 => ⟨S256x768, .f32⟩
  | 57 => ⟨S81920x768, .f32⟩
  | 58 => ⟨S1x768, .f32⟩
  | 59 => ⟨S81920x768, .f32⟩
  | 60 => ⟨S81920x768, .f32⟩
  | 61 => ⟨S256x768, .f32⟩
  | 62 => ⟨S81920x768, .f32⟩
  | 63 => ⟨S1x768, .f32⟩
  | 64 => ⟨S81920x768, .f32⟩
  | 65 => ⟨S81920x768, .f32⟩
  | 66 => ⟨S81920x256, .f32⟩
  | 67 => ⟨S81920x256, .f32⟩
  | 68 => ⟨S81920x256, .f32⟩
  | 69 => ⟨S81920x256, .f32⟩
  | 70 => ⟨S81920x256, .f32⟩
  | 71 => ⟨S81920x256, .f32⟩
  | 72 => ⟨S81920x256, .f32⟩
  | 73 => ⟨S81920x256, .f32⟩
  | 74 => ⟨S81920x256, .f32⟩
  | 75 => ⟨S_, .f32⟩
  | 76 => ⟨S81920x256, .f32⟩
  | 77 => ⟨S81920x256, .f32⟩
  | 78 => ⟨S_, .f32⟩
  | 79 => ⟨S81920x256, .f32⟩
  | 80 => ⟨S81920x256, .f32⟩
  | 81 => ⟨S81920x256, .f32⟩
  | 82 => ⟨S81920x256, .f32⟩
  | 83 => ⟨S81920x256, .f32⟩
  | 84 => ⟨S_, .f32⟩
  | 85 => ⟨S81920x256, .f32⟩
  | 86 => ⟨S81920x256, .f32⟩
  | 87 => ⟨S_, .f32⟩
  | 88 => ⟨S81920x256, .f32⟩
  | 89 => ⟨S81920x256, .f32⟩
  | 90 => ⟨S81920x256, .f32⟩
  | 91 => ⟨S81920x256, .f32⟩
  | 92 => ⟨S81920x256, .f32⟩
  | 93 => ⟨S_, .f32⟩
  | 94 => ⟨S81920x256, .f32⟩
  | 95 => ⟨S81920x256, .f32⟩
  | 96 => ⟨S81920x256, .f32⟩
  | 97 => ⟨S81920x256, .f32⟩
  | 98 => ⟨S81920x256, .f32⟩
  | 99 => ⟨S1x256x256, .f32⟩
  | 100 => ⟨S256x256, .f32⟩
  | 101 => ⟨S81920x256, .f32⟩
  | 102 => ⟨S_, .f32⟩
  | 103 => ⟨S81920x256, .f32⟩
  | 104 => ⟨S_, .i32⟩
  | 105 => ⟨S163840, .i32⟩
  | 106 => ⟨S163840, .i1⟩
  | 107 => ⟨S_, .i32⟩
  | 108 => ⟨S163840, .i32⟩
  | 109 => ⟨S163840, .i32⟩
  | 110 => ⟨S163840, .i32⟩
  | 111 => ⟨S163840x1, .i32⟩
  | 112 => ⟨S163840x256, .f32⟩
  | 113 => ⟨S_, .i32⟩
  | 114 => ⟨S163840, .i32⟩
  | 115 => ⟨S163840, .i1⟩
  | 116 => ⟨S_, .i32⟩
  | 117 => ⟨S163840, .i32⟩
  | 118 => ⟨S163840, .i32⟩
  | 119 => ⟨S163840, .i32⟩
  | 120 => ⟨S163840x1, .i32⟩
  | 121 => ⟨S81920x256, .f32⟩
  | 122 => ⟨S256x768, .f32⟩
  | 123 => ⟨S81920x768, .f32⟩
  | 124 => ⟨S1x768, .f32⟩
  | 125 => ⟨S81920x768, .f32⟩
  | 126 => ⟨S81920x768, .f32⟩
  | 127 => ⟨S256x768, .f32⟩
  | _ => ⟨S81920, .i32⟩

abbrev hbmTy0_1 (i : Nat) : BufTy := match i % 128 with
  | 0 => ⟨S81920x768, .f32⟩
  | 1 => ⟨S1x768, .f32⟩
  | 2 => ⟨S81920x768, .f32⟩
  | 3 => ⟨S81920x768, .f32⟩
  | 4 => ⟨S81920x256, .f32⟩
  | 5 => ⟨S81920x256, .f32⟩
  | 6 => ⟨S81920x256, .f32⟩
  | 7 => ⟨S81920x256, .f32⟩
  | 8 => ⟨S81920x256, .f32⟩
  | 9 => ⟨S81920x256, .f32⟩
  | 10 => ⟨S81920x256, .f32⟩
  | 11 => ⟨S81920x256, .f32⟩
  | 12 => ⟨S81920x256, .f32⟩
  | 13 => ⟨S_, .f32⟩
  | 14 => ⟨S81920x256, .f32⟩
  | 15 => ⟨S81920x256, .f32⟩
  | 16 => ⟨S_, .f32⟩
  | 17 => ⟨S81920x256, .f32⟩
  | 18 => ⟨S81920x256, .f32⟩
  | 19 => ⟨S81920x256, .f32⟩
  | 20 => ⟨S81920x256, .f32⟩
  | 21 => ⟨S81920x256, .f32⟩
  | 22 => ⟨S_, .f32⟩
  | 23 => ⟨S81920x256, .f32⟩
  | 24 => ⟨S81920x256, .f32⟩
  | 25 => ⟨S_, .f32⟩
  | 26 => ⟨S81920x256, .f32⟩
  | 27 => ⟨S81920x256, .f32⟩
  | 28 => ⟨S81920x256, .f32⟩
  | 29 => ⟨S81920x256, .f32⟩
  | 30 => ⟨S81920x256, .f32⟩
  | 31 => ⟨S_, .f32⟩
  | 32 => ⟨S81920x256, .f32⟩
  | 33 => ⟨S81920x256, .f32⟩
  | 34 => ⟨S81920x256, .f32⟩
  | 35 => ⟨S81920x256, .f32⟩
  | 36 => ⟨S81920x256, .f32⟩
  | 37 => ⟨S_, .i32⟩
  | 38 => ⟨S4096, .i32⟩
  | 39 => ⟨S_, .i32⟩
  | 40 => ⟨S_, .i32⟩
  | 41 => ⟨S81920, .i32⟩
  | 42 => ⟨S81920, .i32⟩
  | 43 => ⟨S_, .i32⟩
  | 44 => ⟨S81920, .i32⟩
  | 45 => ⟨S81920, .i1⟩
  | 46 => ⟨S_, .i32⟩
  | 47 => ⟨S81920, .i32⟩
  | 48 => ⟨S81920, .i32⟩
  | 49 => ⟨S81920, .i32⟩
  | 50 => ⟨S81920x1, .i32⟩
  | 51 => ⟨S_, .i32⟩
  | 52 => ⟨S81920, .i32⟩
  | 53 => ⟨S4096, .i32⟩
  | 54 => ⟨S_, .i32⟩
  | 55 => ⟨S_, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x256, .f32⟩
  | 69 => ⟨S_, .i32⟩
  | 70 => ⟨S81920, .i32⟩
  | 71 => ⟨S81920, .i1⟩
  | 72 => ⟨S_, .i32⟩
  | 73 => ⟨S81920, .i32⟩
  | 74 => ⟨S81920, .i32⟩
  | 75 => ⟨S81920, .i32⟩
  | 76 => ⟨S81920x1, .i32⟩
  | 77 => ⟨S81920x256, .f32⟩
  | 78 => ⟨S256x256, .f32⟩
  | 79 => ⟨S81920x256, .f32⟩
  | 80 => ⟨S1x256, .f32⟩
  | 81 => ⟨S81920x256, .f32⟩
  | 82 => ⟨S81920x256, .f32⟩
  | 83 => ⟨S256x256, .f32⟩
  | 84 => ⟨S81920x256, .f32⟩
  | 85 => ⟨S81920x256, .f32⟩
  | 86 => ⟨S1x256, .f32⟩
  | 87 => ⟨S81920x256, .f32⟩
  | 88 => ⟨S81920x256, .f32⟩
  | 89 => ⟨S81920x256, .f32⟩
  | 90 => ⟨S81920x256, .f32⟩
  | 91 => ⟨S_, .f32⟩
  | 92 => ⟨S81920x256, .f32⟩
  | 93 => ⟨S81920x256, .f32⟩
  | 94 => ⟨S_, .f32⟩
  | 95 => ⟨S81920x256, .f32⟩
  | 96 => ⟨S81920x256, .f32⟩
  | 97 => ⟨S256x1, .f32⟩
  | 98 => ⟨S81920x1, .f32⟩
  | 99 => ⟨S1x1, .f32⟩
  | 100 => ⟨S81920x1, .f32⟩
  | 101 => ⟨S81920x1, .f32⟩
  | 102 => ⟨S81920x256, .f32⟩
  | 103 => ⟨S81920x256, .f32⟩
  | 104 => ⟨S_, .f32⟩
  | 105 => ⟨S4096x256, .f32⟩
  | 106 => ⟨S81920x1, .i32⟩
  | 107 => ⟨S4096x256, .f32⟩
  | 108 => ⟨S4096x512, .f32⟩
  | 109 => ⟨S512x256, .f32⟩
  | 110 => ⟨S4096x256, .f32⟩
  | 111 => ⟨S1x256, .f32⟩
  | 112 => ⟨S4096x256, .f32⟩
  | 113 => ⟨S4096x256, .f32⟩
  | 114 => ⟨S256x50000, .f32⟩
  | 115 => ⟨S4096x50000, .f32⟩
  | _ => ⟨S81920, .i32⟩

abbrev hbmTy (i : Nat) : BufTy := match i / 128 with
  | 0 => hbmTy0_0 i
  | 1 => hbmTy0_1 i
  | _ => ⟨S81920, .i32⟩

abbrev bufTy : (tb : Table) → Fin (tcTables nBuf tb) → BufTy
  | .hbm, ⟨i, _⟩ => hbmTy i
  | _, _ => ⟨S81920, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_c_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_c_12 : Ref sig .tc := ⟨.hbm, 104, rfl⟩
abbrev main_v73 : Ref sig .tc := ⟨.hbm, 105, rfl⟩
abbrev main_v74 : Ref sig .tc := ⟨.hbm, 106, rfl⟩
abbrev main_c_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_14 : Ref sig .tc := ⟨.hbm, 113, rfl⟩
abbrev main_v80 : Ref sig .tc := ⟨.hbm, 114, rfl⟩
abbrev main_v81 : Ref sig .tc := ⟨.hbm, 115, rfl⟩
abbrev main_c_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_16 : Ref sig .tc := ⟨.hbm, 141, rfl⟩
abbrev main_v106 : Ref sig .tc := ⟨.hbm, 142, rfl⟩
abbrev main_v107 : Ref sig .tc := ⟨.hbm, 143, rfl⟩
abbrev main_cst_17 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_18 : Ref sig .tc := ⟨.hbm, 150, rfl⟩
abbrev main_v113 : Ref sig .tc := ⟨.hbm, 151, rfl⟩
abbrev main_v114 : Ref sig .tc := ⟨.hbm, 152, rfl⟩
abbrev main_cst_19 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_20 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_21 : Ref sig .tc := ⟨.hbm, 165, rfl⟩
abbrev main_v125 : Ref sig .tc := ⟨.hbm, 166, rfl⟩
abbrev main_c_22 : Ref sig .tc := ⟨.hbm, 167, rfl⟩
abbrev main_call0_v0 : Ref sig .tc := ⟨.hbm, 168, rfl⟩
abbrev main_call0_v1 : Ref sig .tc := ⟨.hbm, 169, rfl⟩
abbrev main_v126 : Ref sig .tc := ⟨.hbm, 170, rfl⟩
abbrev main_c_23 : Ref sig .tc := ⟨.hbm, 171, rfl⟩
abbrev main_v127 : Ref sig .tc := ⟨.hbm, 172, rfl⟩
abbrev main_v128 : Ref sig .tc := ⟨.hbm, 173, rfl⟩
abbrev main_c_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_25 : Ref sig .tc := ⟨.hbm, 179, rfl⟩
abbrev main_v133 : Ref sig .tc := ⟨.hbm, 180, rfl⟩
abbrev main_v134 : Ref sig .tc := ⟨.hbm, 181, rfl⟩
abbrev main_call1_call0_c : Ref sig .tc := ⟨.hbm, 182, rfl⟩
abbrev main_call1_call0_v0 : Ref sig .tc := ⟨.hbm, 183, rfl⟩
abbrev main_v135 : Ref sig .tc := ⟨.hbm, 184, rfl⟩
abbrev main_c_26 : Ref sig .tc := ⟨.hbm, 185, rfl⟩
abbrev main_v136 : Ref sig .tc := ⟨.hbm, 186, rfl⟩
abbrev main_v137 : Ref sig .tc := ⟨.hbm, 187, rfl⟩
abbrev main_c_27 : Ref sig .tc := ⟨.hbm, 188, rfl⟩
abbrev main_v138 : Ref sig .tc := ⟨.hbm, 189, rfl⟩
abbrev main_v139 : Ref sig .tc := ⟨.hbm, 190, rfl⟩
abbrev main_c_28 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_29 : Ref sig .tc := ⟨.hbm, 197, rfl⟩
abbrev main_v145 : Ref sig .tc := ⟨.hbm, 198, rfl⟩
abbrev main_v146 : Ref sig .tc := ⟨.hbm, 199, rfl⟩
abbrev main_c_30 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_31 : Ref sig .tc := ⟨.hbm, 219, rfl⟩
abbrev main_v165 : Ref sig .tc := ⟨.hbm, 220, rfl⟩
abbrev main_v166 : Ref sig .tc := ⟨.hbm, 221, rfl⟩
abbrev main_cst_32 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_33 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩

abbrev nD : Nat := 1
abbrev τ : Topo := Topo.v7x

variable {F : FTy → Type} [FloatOps F]

class Facts₀ : Prop where
  bcast_S_S81920 : S_.BroadcastsInDim S81920 (![] : Fin 0 → Fin S81920.rank)
  bcast_S81920_S81920x1_0 : S81920.BroadcastsInDim S81920x1 (![0] : Fin 1 → Fin S81920x1.rank)
  slices_S2x163840_S1x163840_0_0 : S2x163840.Slices ![0, 0] S1x163840
  shapeCasts_S1x163840_S163840 : S1x163840.ShapeCasts S163840
  slices_S2x163840_S1x163840_1_0 : S2x163840.Slices ![1, 0] S1x163840
  slices_S2x256x256_S1x256x256_0_0_0 : S2x256x256.Slices ![0, 0, 0] S1x256x256
  shapeCasts_S1x256x256_S256x256 : S1x256x256.ShapeCasts S256x256
  bcast_S_S81920x256 : S_.BroadcastsInDim S81920x256 (![] : Fin 0 → Fin S81920x256.rank)
  bcast_S_S163840 : S_.BroadcastsInDim S163840 (![] : Fin 0 → Fin S163840.rank)
  bcast_S163840_S163840x1_0 : S163840.BroadcastsInDim S163840x1 (![0] : Fin 1 → Fin S163840x1.rank)
  transposes_S768x256_S256x768_1_0 : S768x256.Transposes [1, 0] S256x768
  bcast_S768_S1x768_1 : S768.BroadcastsInDim S1x768 (![1] : Fin 1 → Fin S1x768.rank)
  bcast_S1x768_S81920x768_0_1 : S1x768.BroadcastsInDim S81920x768 (![0, 1] : Fin 2 → Fin S81920x768.rank)
  slices_S81920x768_S81920x256_0_0 : S81920x768.Slices ![0, 0] S81920x256
  slices_S81920x768_S81920x256_0_256 : S81920x768.Slices ![0, 256] S81920x256
  slices_S81920x768_S81920x256_0_512 : S81920x768.Slices ![0, 512] S81920x256
  slices_S2x256x256_S1x256x256_1_0_0 : S2x256x256.Slices ![1, 0, 0] S1x256x256
  bcast_S_S4096 : S_.BroadcastsInDim S4096 (![] : Fin 0 → Fin S4096.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S4096_S4096x1_0 : S4096.BroadcastsInDim S4096x1 (![0] : Fin 1 → Fin S4096x1.rank)
  transposes_S256x256_S256x256_1_0 : S256x256.Transposes [1, 0] S256x256
  bcast_S256_S1x256_1 : S256.BroadcastsInDim S1x256 (![1] : Fin 1 → Fin S1x256.rank)
  bcast_S1x256_S81920x256_0_1 : S1x256.BroadcastsInDim S81920x256 (![0, 1] : Fin 2 → Fin S81920x256.rank)
  transposes_S1x256_S256x1_1_0 : S1x256.Transposes [1, 0] S256x1
  bcast_S1_S1x1_1 : S1.BroadcastsInDim S1x1 (![1] : Fin 1 → Fin S1x1.rank)
  bcast_S1x1_S81920x1_0_1 : S1x1.BroadcastsInDim S81920x1 (![0, 1] : Fin 2 → Fin S81920x1.rank)
  bcast_S81920x1_S81920x256_0_1 : S81920x1.BroadcastsInDim S81920x256 (![0, 1] : Fin 2 → Fin S81920x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S256x512_S512x256_1_0 : S256x512.Transposes [1, 0] S512x256
  bcast_S1x256_S4096x256_0_1 : S1x256.BroadcastsInDim S4096x256 (![0, 1] : Fin 2 → Fin S4096x256.rank)
  transposes_S50000x256_S256x50000_1_0 : S50000x256.Transposes [1, 0] S256x50000
  gather_S50000x256_S81920x1_S81920x256_1_0_n_n_0_1_1256_wf : GatherDims.WF S50000x256 S81920x1 S81920x256 [1] [0] [] [0] [] 1 ![1, 256]
  dot_S81920x256_S256x256_S81920x256_1_0_0_1_n_n_wf : DotDims.WF S81920x256 S256x256 S81920x256 [1] [0] [0] [1] [] []
  gather_S81920x256_S163840x1_S163840x256_1_0_n_n_0_1_1256_wf : GatherDims.WF S81920x256 S163840x1 S163840x256 [1] [0] [] [0] [] 1 ![1, 256]
  scatter_S81920x256_S163840x1_S163840x256_1_0_0_1_wf : ScatterDims.WF S81920x256 S163840x1 S163840x256 [1] [0] [0] 1
  dot_S81920x256_S256x768_S81920x768_1_0_0_1_n_n_wf : DotDims.WF S81920x256 S256x768 S81920x768 [1] [0] [0] [1] [] []
  scatter_S4096_S81920x1_S81920_n_0_0_1_wf : ScatterDims.WF S4096 S81920x1 S81920 [] [0] [0] 1
  gather_S81920x256_S4096x1_S4096x256_1_0_n_n_0_1_1256_wf : GatherDims.WF S81920x256 S4096x1 S4096x256 [1] [0] [] [0] [] 1 ![1, 256]
  gather_S4096x256_S81920x1_S81920x256_1_0_n_n_0_1_1256_wf : GatherDims.WF S4096x256 S81920x1 S81920x256 [1] [0] [] [0] [] 1 ![1, 256]
  dot_S81920x256_S256x1_S81920x1_1_0_0_1_n_n_wf : DotDims.WF S81920x256 S256x1 S81920x1 [1] [0] [0] [1] [] []
  scatter_S4096x256_S81920x1_S81920x256_1_0_0_1_wf : ScatterDims.WF S4096x256 S81920x1 S81920x256 [1] [0] [0] 1
  dot_S4096x512_S512x256_S4096x256_1_0_0_1_n_n_wf : DotDims.WF S4096x512 S512x256 S4096x256 [1] [0] [0] [1] [] []
  dot_S4096x256_S256x50000_S4096x50000_1_0_0_1_n_n_wf : DotDims.WF S4096x256 S256x50000 S4096x50000 [1] [0] [0] [1] [] []

variable [Facts₀]

def gather_S50000x256_S81920x1_S81920x256_1_0_n_n_0_1_1256 : GatherDims S50000x256 S81920x1 S81920x256 where
  offsetDims := [1]
  collapsedSliceDims := [0]
  operandBatchingDims := []
  startIndicesBatchingDims := []
  startIndexMap := [0]
  indexVectorDim := 1
  sliceSizes := ![1, 256]
  wf := gather_S50000x256_S81920x1_S81920x256_1_0_n_n_0_1_1256_wf
def dot_S81920x256_S256x256_S81920x256_1_0_0_1_n_n : DotDims S81920x256 S256x256 S81920x256 where
  lhsContracting := [1]
  rhsContracting := [0]
  lhsNonContracting := [0]
  rhsNonContracting := [1]
  lhsBatch := []
  rhsBatch := []
  wf := dot_S81920x256_S256x256_S81920x256_1_0_0_1_n_n_wf
def gather_S81920x256_S163840x1_S163840x256_1_0_n_n_0_1_1256 : GatherDims S81920x256 S163840x1 S163840x256 where
  offsetDims := [1]
  collapsedSliceDims := [0]
  operandBatchingDims := []
  startIndicesBatchingDims := []
  startIndexMap := [0]
  indexVectorDim := 1
  sliceSizes := ![1, 256]
  wf := gather_S81920x256_S163840x1_S163840x256_1_0_n_n_0_1_1256_wf
def scatter_S81920x256_S163840x1_S163840x256_1_0_0_1 : ScatterDims S81920x256 S163840x1 S163840x256 where
  updateWindowDims := [1]
  insertedWindowDims := [0]
  scatterDimsToOperandDims := [0]
  indexVectorDim := 1
  wf := scatter_S81920x256_S163840x1_S163840x256_1_0_0_1_wf
def dot_S81920x256_S256x768_S81920x768_1_0_0_1_n_n : DotDims S81920x256 S256x768 S81920x768 where
  lhsContracting := [1]
  rhsContracting := [0]
  lhsNonContracting := [0]
  rhsNonContracting := [1]
  lhsBatch := []
  rhsBatch := []
  wf := dot_S81920x256_S256x768_S81920x768_1_0_0_1_n_n_wf
def scatter_S4096_S81920x1_S81920_n_0_0_1 : ScatterDims S4096 S81920x1 S81920 where
  updateWindowDims := []
  insertedWindowDims := [0]
  scatterDimsToOperandDims := [0]
  indexVectorDim := 1
  wf := scatter_S4096_S81920x1_S81920_n_0_0_1_wf
def gather_S81920x256_S4096x1_S4096x256_1_0_n_n_0_1_1256 : GatherDims S81920x256 S4096x1 S4096x256 where
  offsetDims := [1]
  collapsedSliceDims := [0]
  operandBatchingDims := []
  startIndicesBatchingDims := []
  startIndexMap := [0]
  indexVectorDim := 1
  sliceSizes := ![1, 256]
  wf := gather_S81920x256_S4096x1_S4096x256_1_0_n_n_0_1_1256_wf
def gather_S4096x256_S81920x1_S81920x256_1_0_n_n_0_1_1256 : GatherDims S4096x256 S81920x1 S81920x256 where
  offsetDims := [1]
  collapsedSliceDims := [0]
  operandBatchingDims := []
  startIndicesBatchingDims := []
  startIndexMap := [0]
  indexVectorDim := 1
  sliceSizes := ![1, 256]
  wf := gather_S4096x256_S81920x1_S81920x256_1_0_n_n_0_1_1256_wf
def dot_S81920x256_S256x1_S81920x1_1_0_0_1_n_n : DotDims S81920x256 S256x1 S81920x1 where
  lhsContracting := [1]
  rhsContracting := [0]
  lhsNonContracting := [0]
  rhsNonContracting := [1]
  lhsBatch := []
  rhsBatch := []
  wf := dot_S81920x256_S256x1_S81920x1_1_0_0_1_n_n_wf
def scatter_S4096x256_S81920x1_S81920x256_1_0_0_1 : ScatterDims S4096x256 S81920x1 S81920x256 where
  updateWindowDims := [1]
  insertedWindowDims := [0]
  scatterDimsToOperandDims := [0]
  indexVectorDim := 1
  wf := scatter_S4096x256_S81920x1_S81920x256_1_0_0_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x50000_S4096x50000_1_0_0_1_n_n : DotDims S4096x256 S256x50000 S4096x50000 where
  lhsContracting := [1]
  rhsContracting := [0]
  lhsNonContracting := [0]
  rhsNonContracting := [1]
  lhsBatch := []
  rhsBatch := []
  wf := dot_S4096x256_S256x50000_S4096x50000_1_0_0_1_n_n_wf

class Facts : Prop extends Facts₀ where

variable [Facts]
-- ==== Proof.Basics.lean ====
/-
  Index words read as signed integers: a vector of 32-bit words is "in range for an axis of extent N" when every
  entry, read signed, is a legal position of that axis in the convention where a negative position counts from the
  end: -N ≤ v i < N.
-/
import Idealize.ShloMosaic.PureOps
import Idealize.ShloMosaic.PureOps.Ideal

namespace Cert.Ix

open Idealize.ShloMosaic

/-- Every entry of `v`, read signed, lies in `[-N, N)`. -/
def InRange {S : Shape} (N : Int) (v : IVec S 32) : Prop :=
  ∀ i : S.Idx, -N ≤ (v i).toInt ∧ (v i).toInt < N

end Cert.Ix
-- ==== Proof.RegProjBase.lean ====
/-
  The matrix product o = x w of regions 0 and 2, entry by entry, on both sides.

  The kernel multiplies a [1024,256] block of rows by the [256,256] weight on the matrix unit into a zero accumulator;
  the reference contracts the columns of the whole [81920,256] array with the rows of the weight. At the ideal instance
  both are the plain sum over the contraction coordinate k of (left operand at (row, k)) * (right operand at (k, column)).
  Here: the operand indices of the two sets of dimension numbers, axis by axis, and the reference's product at an entry.
-/
import proofs.«425236_j80513456930926_1_alg».proof.Proof.Gen.KernelIdeal.Frame
import proofs.«425236_j80513456930926_1_alg».proof.Proof.RefStages
import Idealize.ShloMosaic.Lib.Pipeline.Value
import Idealize.ShloMosaic.Lib.ValueIdx
import Idealize.ShloMosaic.PureOps.Ideal.Laws

noncomputable section

namespace Cert.Reg

open Idealize.ShloMosaic Idealize.ShloMosaic.TcCoe Idealize.SL.Sem Idealize.ShloMosaic.ValueIdx
open Idealize.ShloMosaic.Pipeline (Dat)
open Cert.KernelIdeal Cert.KernelIdeal.Gen

variable [Cert.ReferenceIdeal.Facts]

namespace Proj

theorem hz : (![0, 0] : Fin 2 → Nat) = fun _ => 0 := funext fun a => by fin_cases a <;> rfl

/-! The operand indices of the block product's dimension numbers, axis by axis. -/
theorem kl0_0 (j : S1024x256.Idx) (k : dot_S1024x256_S256x256_S1024x256_1_0_0_1_n_n.contr.Idx) :
    (dot_S1024x256_S256x256_S1024x256_1_0_0_1_n_n.lhsIdx j k 0).val = (j 0).val := by
  simp [DotDims.lhsIdx, dot_S1024x256_S256x256_S1024x256_1_0_0_1_n_n]
  rfl
theorem kl0_1 (j : S1024x256.Idx) (k : dot_S1024x256_S256x256_S1024x256_1_0_0_1_n_n.contr.Idx) :
    (dot_S1024x256_S256x256_S1024x256_1_0_0_1_n_n.lhsIdx j k 1).val = (k ⟨0, by decide⟩).val := by
  simp [DotDims.lhsIdx, dot_S1024x256_S256x256_S1024x256_1_0_0_1_n_n]
  rfl
theorem kr0_0 (j : S1024x256.Idx) (k : dot_S1024x256_S256x256_S1024x256_1_0_0_1_n_n.contr.Idx) :
    (dot_S1024x256_S256x256_S1024x256_1_0_0_1_n_n.rhsIdx j k 0).val = (k ⟨0, by decide⟩).val := by
  simp [DotDims.rhsIdx, dot_S1024x256_S256x256_S1024x256_1_0_0_1_n_n]
  rfl
theorem kr0_1 (j : S1024x256.Idx) (k : dot_S1024x256_S256x256_S1024x256_1_0_0_1_n_n.contr.Idx) :
    (dot_S1024x256_S256x256_S1024x256_1_0_0_1_n_n.rhsIdx j k 1).val = (j 1).val := by
  simp [DotDims.rhsIdx, dot_S1024x256_S256x256_S1024x256_1_0_0_1_n_n]
  rfl

/-! The operand indices of the reference's dimension numbers, axis by axis, then its product at an entry. -/

theorem rl_0 (j : Cert.ReferenceIdeal.S81920x256.Idx) (k : Cert.ReferenceIdeal.dot_S81920x256_S256x256_S81920x256_1_0_0_1_n_n.contr.Idx) :
    (Cert.ReferenceIdeal.dot_S81920x256_S256x256_S81920x256_1_0_0_1_n_n.lhsIdx j k 0).val = (j 0).val := by
  simp [DotDims.lhsIdx, Cert.ReferenceIdeal.dot_S81920x256_S256x256_S81920x256_1_0_0_1_n_n]
  rfl
theorem rl_1 (j : Cert.ReferenceIdeal.S81920x256.Idx) (k : Cert.ReferenceIdeal.dot_S81920x256_S256x256_S81920x256_1_0_0_1_n_n.contr.Idx) :
    (Cert.ReferenceIdeal.dot_S81920x256_S256x256_S81920x256_1_0_0_1_n_n.lhsIdx j k 1).val = (k ⟨0, Nat.one_pos⟩).val := by
  simp [DotDims.lhsIdx, Cert.ReferenceIdeal.dot_S81920x256_S256x256_S81920x256_1_0_0_1_n_n]
  rfl
theorem rr_0 (j : Cert.ReferenceIdeal.S81920x256.Idx) (k : Cert.ReferenceIdeal.dot_S81920x256_S256x256_S81920x256_1_0_0_1_n_n.contr.Idx) :
    (Cert.ReferenceIdeal.dot_S81920x256_S256x256_S81920x256_1_0_0_1_n_n.rhsIdx j k 0).val = (k ⟨0, Nat.one_pos⟩).val := by
  simp [DotDims.rhsIdx, Cert.ReferenceIdeal.dot_S81920x256_S256x256_S81920x256_1_0_0_1_n_n]
  rfl
theorem rr_1 (j : Cert.ReferenceIdeal.S81920x256.Idx) (k : Cert.ReferenceIdeal.dot_S81920x256_S256x256_S81920x256_1_0_0_1_n_n.contr.Idx) :
    (Cert.ReferenceIdeal.dot_S81920x256_S256x256_S81920x256_1_0_0_1_n_n.rhsIdx j k 1).val = (j 1).val := by
  simp [DotDims.rhsIdx, Cert.ReferenceIdeal.dot_S81920x256_S256x256_S81920x256_1_0_0_1_n_n]
  rfl

/-- The reference's product at an entry. -/
theorem proj_apply (h : Cert.Rst.A S81920x256) (w : Cert.Rst.A S256x256) (r : Fin 81920) (q : Fin 256) :
    Cert.Rst.proj h w (ix2 r q) = ∑ k : Fin 256, h (ix2 r k) * w (ix2 k q) := by
  unfold Cert.Rst.proj
  refine (Ideal.dotGeneral_apply (φ₁ := .f32) (φ₂ := .f32) Cert.ReferenceIdeal.dot_S81920x256_S256x256_S81920x256_1_0_0_1_n_n none .single
    h w (ix2 r q)).trans ?_
  rw [← Equiv.sum_comp (contrEquiv1 Cert.ReferenceIdeal.dot_S81920x256_S256x256_S81920x256_1_0_0_1_n_n 256 rfl rfl).symm]
  refine Finset.sum_congr rfl fun k _ => ?_
  congr 1
  · refine congrArg h (funext fun a => Fin.ext ?_)
    match a with
    | ⟨0, _⟩ => exact rl_0 _ _
    | ⟨1, _⟩ => exact (rl_1 _ _).trans (contrEquiv1_symm_val _ 256 rfl rfl k)
  · refine congrArg w (funext fun a => Fin.ext ?_)
    match a with
    | ⟨0, _⟩ => exact (rr_0 _ _).trans (contrEquiv1_symm_val _ 256 rfl rfl k)
    | ⟨1, _⟩ => exact rr_1 _ _

end Proj

end Cert.Reg

end
-- ==== Proof.RegProj0.lean ====
/-
  Region 0: o = x w, row block by row block.

  The [81920,256] input is cut into 80 blocks of 1024 rows, the [256,256] weight is the same block at every grid point,
  and the block of the output at point t is the product of the block of x at point t with the weight. Entry (r, q) of the
  output is therefore the sum over k of x[r, k] * w[k, q]: entry (r, q) of the reference's product. Row r lies in the
  block of point r / 1024, so the blocks cover the output array and it ends holding the reference's product.
-/
import proofs.«425236_j80513456930926_1_alg».proof.Proof.RegProjBase

noncomputable section

namespace Cert.Reg

open Idealize.ShloMosaic Idealize.ShloMosaic.TcCoe Idealize.SL.Sem Idealize.ShloMosaic.ValueIdx
open Idealize.ShloMosaic.Pipeline (Dat)
open Cert.KernelIdeal Cert.KernelIdeal.Gen

variable [Cert.ReferenceIdeal.Facts]

namespace Proj

/-- The block product at an entry: the sum over the contraction coordinate of the products of the operands' entries. -/
theorem pay0_apply (x0 : Vec Ideal S1024x256 .f32) (x1 : Vec Ideal S256x256 .bf16) (p : Fin 1024) (q : Fin 256) :
    k0_pay1 (F := Ideal) x0 x1 (ix2 p q) = ∑ k : Fin 256, x0 (ix2 p k) * x1 (ix2 k q) := by
  unfold k0_pay1
  simp only [shapeCast_self]
  refine (Ideal.matmul_constant_zero_apply (φ₁ := .bf16) (φ₂ := .bf16) dot_S1024x256_S256x256_S1024x256_1_0_0_1_n_n none
    (truncf .bf16 (x0 : FVec Ideal S1024x256 .f32) bitsLt_bf16_f32) (x1 : FVec Ideal S256x256 .bf16) (ix2 p q)).trans ?_
  rw [← Equiv.sum_comp (contrEquiv1 dot_S1024x256_S256x256_S1024x256_1_0_0_1_n_n 256 rfl rfl).symm]
  refine Finset.sum_congr rfl fun k _ => ?_
  congr 1
  · show x0 _ = x0 _
    refine congrArg x0 (funext fun a => Fin.ext ?_)
    match a with
    | ⟨0, _⟩ => exact kl0_0 _ _
    | ⟨1, _⟩ => exact (kl0_1 _ _).trans (contrEquiv1_symm_val _ 256 rfl rfl k)
  · refine congrArg x1 (funext fun a => Fin.ext ?_)
    match a with
    | ⟨0, _⟩ => exact (kr0_0 _ _).trans (contrEquiv1_symm_val _ 256 rfl rfl k)
    | ⟨1, _⟩ => exact kr0_1 _ _
/-- One entry of a block product is the reference's entry, given the block's rows are the array's rows from row T * 1024 on and the
    weight block is the weight. -/
theorem point0 (x0 : Vec Ideal S1024x256 .f32) (x1 : Vec Ideal S256x256 .bf16) (h : Cert.Rst.A S81920x256) (w : Cert.Rst.A S256x256)
    (T : Nat) (y : S1024x256.Idx) (i : S81920x256.Idx)
    (hi0 : (i 0).val = T * 1024 + (y 0).val) (hi1 : (i 1).val = (y 1).val)
    (hx0 : ∀ (a : S1024x256.Idx) (b : S81920x256.Idx), (b 0).val = T * 1024 + (a 0).val → (b 1).val = (a 1).val → x0 a = h b)
    (hx1 : ∀ a : S256x256.Idx, x1 a = w a) :
    k0_pay1 (F := Ideal) x0 x1 y = Cert.Rst.proj h w i := by
  obtain ⟨p, q, rfl⟩ : ∃ (p : Fin 1024) (q : Fin 256), y = ix2 p q := ⟨y 0, y 1, eq_ix2 y⟩
  obtain ⟨r, q', rfl⟩ : ∃ (r : Fin 81920) (q' : Fin 256), i = ix2 r q' := ⟨i 0, i 1, eq_ix2 i⟩
  obtain rfl : q' = q := Fin.ext hi1
  rw [pay0_apply, proj_apply]
  exact Finset.sum_congr rfl fun k _ => by rw [hx0 (ix2 p k) (ix2 r k) hi0 rfl, hx1]

/-- The index maps of region 0, decided over its 80 grid points: the input rows and the output rows move with the point, the
    weight does not. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The input block at point t holds rows 1024 t … 1024 t + 1023 of the input array. -/
theorem iblk0_0_apply (c : Dev nD) (t : Fin cfg0.N) (a : S1024x256.Idx) (b : S81920x256.Idx)
    (hb0 : (b 0).val = t.val * 1024 + (a 0).val) (hb1 : (b 1).val = (a 1).val) :
    (iblk0 V c 0 t : Vec Ideal S1024x256 .f32) a = (V c (Pipeline.arrRef spec0 0) : S81920x256.Idx → EReal) b := by
  obtain ⟨i00, i01, -⟩ := idx0 t
  unfold iblk0
  rw [View.read_apply]
  show (V c (Pipeline.arrRef spec0 0) : S81920x256.Idx → EReal) _ = _
  refine congrArg _ (funext fun ax => Fin.ext ?_)
  match ax with
  | ⟨0, _⟩ => show win0_0.index t (0 : Fin 2) * 1024 + 1 * (a 0).val = (b 0).val; rw [i00, hb0]; omega
  | ⟨1, _⟩ => show win0_0.index t (1 : Fin 2) * 256 + 1 * (a 1).val = (b 1).val; rw [i01, hb1]; omega

/-- The weight block at every point is the whole weight. -/
theorem iblk0_1_apply (c : Dev nD) (t : Fin cfg0.N) (a : S256x256.Idx) :
    (iblk0 V c 1 t : Vec Ideal S256x256 .bf16) a = (V c (Pipeline.arrRef spec0 1) : S256x256.Idx → EReal) a := by
  obtain ⟨-, -, i10, i11, -⟩ := idx0 t
  unfold iblk0
  rw [View.read_apply]
  show (V c (Pipeline.arrRef spec0 1) : S256x256.Idx → EReal) _ = _
  refine congrArg _ (funext fun ax => Fin.ext ?_)
  match ax with
  | ⟨0, _⟩ => show win0_1.index t (0 : Fin 2) * 256 + 1 * (a 0).val = (a 0).val; rw [i10]; omega
  | ⟨1, _⟩ => show win0_1.index t (1 : Fin 2) * 256 + 1 * (a 1).val = (a 1).val; rw [i11]; omega

/-- What point t writes back is block t of the reference's product. -/
theorem flushed0_eq (c : Dev nD) (h : Cert.Rst.A S81920x256) (w : Cert.Rst.A S256x256)
    (e0 : V c (Pipeline.arrRef spec0 0) = h) (e1 : V c (Pipeline.arrRef spec0 1) = w) (t : Fin cfg0.N) :
    (dat0 (F := Ideal) V c).flushed 2 t = ((cfg0.win 2).blk t).view.read (Elt Ideal) (Cert.Rst.proj h w) := by
  show (cfg0.win 2).cut (grid0.coords t) ((dat0 (F := Ideal) V c).after 2 t) = _
  rw [after0_2]
  unfold out0_2
  rw [View.canon_unit_zero hz]
  simp only [View.ld_unit_zero (S := S1024x256) hz, View.ld_unit_zero (S := S256x256) hz]
  obtain ⟨-, -, -, -, i20, i21⟩ := idx0 t
  funext y
  show k0_pay1 (F := Ideal) (iblk0 V c 0 t) (iblk0 V c 1 t) y = Cert.Rst.proj h w (((cfg0.win 2).blk t).view.emb y)
  refine point0 (iblk0 V c 0 t) (iblk0 V c 1 t) h w t.val y (((cfg0.win 2).blk t).view.emb y) ?_ ?_ ?_ ?_
  · show win0_2.index t (0 : Fin 2) * 1024 + 1 * (y 0).val = _; rw [i20]; omega
  · show win0_2.index t (1 : Fin 2) * 256 + 1 * (y 1).val = _; rw [i21]; omega
  · intro a b hb0 hb1; rw [← e0]; exact iblk0_0_apply V c t a b hb0 hb1
  · intro a; rw [← e1]; exact iblk0_1_apply V c t a

/-- An index of the output array is in point t's block iff each coordinate is in the block's range on its axis. -/
theorem mem_blk0 (t : Fin cfg0.N) (i : S81920x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v14).slice (win0_2.rect t)).set ↔ _
  rw [View.set_slice_whole, Rect.mem_set_unit]
  exact Iff.rfl

/-- Row r of the output lies in the block of point r / 1024. -/
theorem cover0 (i : S81920x256.Idx) : ∃ t : Fin cfg0.N, (cfg0.win 2).flush t = true ∧ i ∈ ((cfg0.win 2).blk t).view.set := by
  have hi0 : (i 0).val < 81920 := (i 0).isLt
  have hi1 : (i 1).val < 256 := (i 1).isLt
  have hN : cfg0.N = 80 := N_0
  let t : Fin cfg0.N := ⟨(i 0).val / 1024, by rw [hN]; omega⟩
  obtain ⟨-, -, -, -, i20, i21⟩ := idx0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [i20]; show (i 0).val / 1024 * 1024 ≤ (i 0).val ∧ (i 0).val < (i 0).val / 1024 * 1024 + 1024; omega
  | ⟨1, _⟩ => show win0_2.index t (1 : Fin 2) * 256 ≤ (i 1).val ∧ (i 1).val < win0_2.index t (1 : Fin 2) * 256 + 256; rw [i21]; omega

end

end Proj

open Proj

/-- Region 0 leaves the reference's product h w in its output array, whatever else the buffers hold. -/
theorem proj0_whole (V : (c : Dev nD) → (b : Ref sig .tc) → Buf (Elt Ideal) ((c : Thread nD τ).loc b)) (c : Dev nD) (h : Cert.Rst.A S81920x256) (w : Cert.Rst.A S256x256)
    (e0 : V c (Pipeline.arrRef spec0 0) = h) (e1 : V c (Pipeline.arrRef spec0 1) = w) :
    (dat0 (F := Ideal) V c).arrAt 2 cfg0.N = Cert.Rst.proj h w :=
  (dat0 (F := Ideal) V c).arrAt_eq_of_cover 2 (Cert.Rst.proj h w) (fun t _ => flushed0_eq V c h w e0 e1 t) cover0

end Cert.Reg

end
-- ==== Proof.RegProj.lean ====
/-
  The whole-array values of three matrix-product regions.

  Regions 0 and 2 compute, row block by row block, o = x w: the [81920,256] input is cut into 80 blocks of 1024
  rows, the [256,256] weight is the same block at every grid point, and the block of the output at point t is the
  product of the block of x at point t with the weight. Entry (r, q) of the output is therefore
  the sum over k of x[r, k] * w[k, q], which is entry (r, q) of the reference's contraction of x's columns with
  w's rows (the two modules imported below). Region 5, here, has one grid point: out = c w3ᵀ + b3, the bias a one-row block
  laid along every row; entry (r, q) is the sum over k of c[r, k] * w3[q, k] plus b3[q], which is the reference's product
  with the transposed weight plus the broadcast bias. At the ideal instance a change of float format is the identity and
  a matrix-unit product into a zero accumulator is the plain sum, so the two sides agree entry by entry with no
  finiteness needed.
-/
import proofs.«425236_j80513456930926_1_alg».proof.Proof.RegProj0
import proofs.«425236_j80513456930926_1_alg».proof.Proof.RegProj2

noncomputable section

namespace Cert.Reg

open Idealize.ShloMosaic Idealize.ShloMosaic.TcCoe Idealize.SL.Sem Idealize.ShloMosaic.ValueIdx
open Idealize.ShloMosaic.Pipeline (Dat)
open Cert.KernelIdeal Cert.KernelIdeal.Gen

variable [Cert.ReferenceIdeal.Facts]

namespace Proj

/-! ## Region 5: out = c w3ᵀ + b3 -/

theorem kl5_0 (j : S4096x256.Idx) (k : dot_S4096x512_S256x512_S4096x256_1_1_0_0_n_n.contr.Idx) :
    (dot_S4096x512_S256x512_S4096x256_1_1_0_0_n_n.lhsIdx j k 0).val = (j 0).val := by
  simp [DotDims.lhsIdx, dot_S4096x512_S256x512_S4096x256_1_1_0_0_n_n]
  rfl
theorem kl5_1 (j : S4096x256.Idx) (k : dot_S4096x512_S256x512_S4096x256_1_1_0_0_n_n.contr.Idx) :
    (dot_S4096x512_S256x512_S4096x256_1_1_0_0_n_n.lhsIdx j k 1).val = (k ⟨0, Nat.one_pos⟩).val := by
  simp [DotDims.lhsIdx, dot_S4096x512_S256x512_S4096x256_1_1_0_0_n_n]
  rfl
theorem kr5_0 (j : S4096x256.Idx) (k : dot_S4096x512_S256x512_S4096x256_1_1_0_0_n_n.contr.Idx) :
    (dot_S4096x512_S256x512_S4096x256_1_1_0_0_n_n.rhsIdx j k 0).val = (j 1).val := by
  simp [DotDims.rhsIdx, dot_S4096x512_S256x512_S4096x256_1_1_0_0_n_n]
  rfl
theorem kr5_1 (j : S4096x256.Idx) (k : dot_S4096x512_S256x512_S4096x256_1_1_0_0_n_n.contr.Idx) :
    (dot_S4096x512_S256x512_S4096x256_1_1_0_0_n_n.rhsIdx j k 1).val = (k ⟨0, Nat.one_pos⟩).val := by
  simp [DotDims.rhsIdx, dot_S4096x512_S256x512_S4096x256_1_1_0_0_n_n]
  rfl

/-- The one-row bias block laid along every row, read at an entry. -/
theorem bias5_apply (x2 : Vec Ideal S1x256 .f32) (p : Fin 4096) (q : Fin 256) :
    broadcastTo S4096x256 (x2 : FVec Ideal S1x256 .f32) broadcasts_S1x256_S4096x256 (ix2 p q) = x2 (ix2 (0 : Fin 1) q) := by
  refine broadcastTo_apply (x2 : FVec Ideal S1x256 .f32) broadcasts_S1x256_S4096x256 (ix2 p q) (ix2 (0 : Fin 1) q) ?_
  intro a
  match a with
  | ⟨0, _⟩ => show (0 : ℕ) = if (1 : ℕ) = 1 then 0 else _; simp
  | ⟨1, _⟩ => show q.val = if (256 : ℕ) = 1 then 0 else q.val; simp

/-- The body at an entry: the sum over the contraction coordinate of c[p, k] w3[q, k], plus the bias row's entry q. -/
theorem pay5_apply (x0 : Vec Ideal S4096x512 .f32) (x1 : Vec Ideal S256x512 .bf16) (x2 : Vec Ideal S1x256 .f32) (p : Fin 4096) (q : Fin 256) :
    k5_pay1 (F := Ideal) x0 x1 x2 (ix2 p q) = (∑ k : Fin 512, x0 (ix2 p k) * x1 (ix2 q k)) + x2 (ix2 (0 : Fin 1) q) := by
  unfold k5_pay1
  simp only [shapeCast_self]
  refine congrArg₂ (· + ·) ?_ (bias5_apply x2 p q)
  refine (Ideal.matmul_constant_zero_apply (φ₁ := .bf16) (φ₂ := .bf16) dot_S4096x512_S256x512_S4096x256_1_1_0_0_n_n none
    (truncf .bf16 (x0 : FVec Ideal S4096x512 .f32) bitsLt_bf16_f32) (x1 : FVec Ideal S256x512 .bf16) (ix2 p q)).trans ?_
  rw [← Equiv.sum_comp (contrEquiv1 dot_S4096x512_S256x512_S4096x256_1_1_0_0_n_n 512 rfl rfl).symm]
  refine Finset.sum_congr rfl fun k _ => ?_
  congr 1
  · show x0 _ = x0 _
    refine congrArg x0 (funext fun a => Fin.ext ?_)
    match a with
    | ⟨0, _⟩ => exact kl5_0 _ _
    | ⟨1, _⟩ => exact (kl5_1 _ _).trans (contrEquiv1_symm_val _ 512 rfl rfl k)
  · refine congrArg x1 (funext fun a => Fin.ext ?_)
    match a with
    | ⟨0, _⟩ => exact kr5_0 _ _
    | ⟨1, _⟩ => exact (kr5_1 _ _).trans (contrEquiv1_symm_val _ 512 rfl rfl k)

theorem rl5_0 (j : Cert.ReferenceIdeal.S4096x256.Idx) (k : Cert.ReferenceIdeal.dot_S4096x512_S512x256_S4096x256_1_0_0_1_n_n.contr.Idx) :
    (Cert.ReferenceIdeal.dot_S4096x512_S512x256_S4096x256_1_0_0_1_n_n.lhsIdx j k 0).val = (j 0).val := by
  simp [DotDims.lhsIdx, Cert.ReferenceIdeal.dot_S4096x512_S512x256_S4096x256_1_0_0_1_n_n]
  rfl
theorem rl5_1 (j : Cert.ReferenceIdeal.S4096x256.Idx) (k : Cert.ReferenceIdeal.dot_S4096x512_S512x256_S4096x256_1_0_0_1_n_n.contr.Idx) :
    (Cert.ReferenceIdeal.dot_S4096x512_S512x256_S4096x256_1_0_0_1_n_n.lhsIdx j k 1).val = (k ⟨0, Nat.one_pos⟩).val := by
  simp [DotDims.lhsIdx, Cert.ReferenceIdeal.dot_S4096x512_S512x256_S4096x256_1_0_0_1_n_n]
  rfl
theorem rr5_0 (j : Cert.ReferenceIdeal.S4096x256.Idx) (k : Cert.ReferenceIdeal.dot_S4096x512_S512x256_S4096x256_1_0_0_1_n_n.contr.Idx) :
    (Cert.ReferenceIdeal.dot_S4096x512_S512x256_S4096x256_1_0_0_1_n_n.rhsIdx j k 0).val = (k ⟨0, Nat.one_pos⟩).val := by
  simp [DotDims.rhsIdx, Cert.ReferenceIdeal.dot_S4096x512_S512x256_S4096x256_1_0_0_1_n_n]
  rfl
theorem rr5_1 (j : Cert.ReferenceIdeal.S4096x256.Idx) (k : Cert.ReferenceIdeal.dot_S4096x512_S512x256_S4096x256_1_0_0_1_n_n.contr.Idx) :
    (Cert.ReferenceIdeal.dot_S4096x512_S512x256_S4096x256_1_0_0_1_n_n.rhsIdx j k 1).val = (j 1).val := by
  simp [DotDims.rhsIdx, Cert.ReferenceIdeal.dot_S4096x512_S512x256_S4096x256_1_0_0_1_n_n]
  rfl

/-- The transposed weight at (k, q) is the weight at (q, k). -/
theorem w3T_apply (W3 : Cert.Rst.A S256x512) (j : S512x256.Idx) (a : Fin 256) (b : Fin 512) (ha : a.val = (j 1).val) (hb : b.val = (j 0).val) :
    transpose Cert.ReferenceIdeal.S512x256 [1, 0] W3 Cert.ReferenceIdeal.Facts₀.transposes_S256x512_S512x256_1_0 j = W3 (ix2 a b) := by
  refine transpose_apply [1, 0] W3 _ j (ix2 a b) ?_
  intro x
  match x with
  | ⟨0, _⟩ => exact hb
  | ⟨1, _⟩ => exact ha

/-- The bias vector laid along every row, as the reference spells it, read at an entry. -/
theorem b3_apply (b3 : Cert.Rst.A S256) (p : Fin 4096) (q : Fin 256) :
    broadcastInDim Cert.ReferenceIdeal.S4096x256 ![0, 1] Cert.ReferenceIdeal.Facts₀.bcast_S1x256_S4096x256_0_1
      (broadcastInDim Cert.ReferenceIdeal.S1x256 ![1] Cert.ReferenceIdeal.Facts₀.bcast_S256_S1x256_1 b3) (ix2 p q) = b3 (ix1 q) := by
  refine (broadcastInDim_apply ![0, 1] _ _ (ix2 p q) (ix2 (0 : Fin 1) q) ?_).trans
    (broadcastInDim_apply ![1] _ b3 (ix2 (0 : Fin 1) q) (ix1 q) ?_)
  · intro a
    match a with
    | ⟨0, _⟩ => show (0 : ℕ) = if (1 : ℕ) = 1 then 0 else _; simp
    | ⟨1, _⟩ => show q.val = if (256 : ℕ) = 1 then 0 else q.val; simp
  · intro a
    match a with
    | ⟨0, _⟩ => show q.val = if (256 : ℕ) = 1 then 0 else q.val; simp

/-- The reference at an entry. -/
theorem sh_apply (cc : Cert.Rst.A S4096x512) (W3 : Cert.Rst.A S256x512) (b3 : Cert.Rst.A S256) (p : Fin 4096) (q : Fin 256) :
    Cert.Rst.sh cc W3 b3 (ix2 p q) = (∑ k : Fin 512, cc (ix2 p k) * W3 (ix2 q k)) + b3 (ix1 q) := by
  unfold Cert.Rst.sh
  refine congrArg₂ (· + ·) ?_ (b3_apply b3 p q)
  refine (Ideal.dotGeneral_apply (φ₁ := .f32) (φ₂ := .f32) Cert.ReferenceIdeal.dot_S4096x512_S512x256_S4096x256_1_0_0_1_n_n none .single
    cc _ (ix2 p q)).trans ?_
  rw [← Equiv.sum_comp (contrEquiv1 Cert.ReferenceIdeal.dot_S4096x512_S512x256_S4096x256_1_0_0_1_n_n 512 rfl rfl).symm]
  refine Finset.sum_congr rfl fun k _ => ?_
  congr 1
  · refine congrArg cc (funext fun a => Fin.ext ?_)
    match a with
    | ⟨0, _⟩ => exact rl5_0 _ _
    | ⟨1, _⟩ => exact (rl5_1 _ _).trans (contrEquiv1_symm_val _ 512 rfl rfl k)
  · refine w3T_apply W3 _ q k ?_ ?_
    · exact (rr5_1 (ix2 p q) _).symm
    · exact ((rr5_0 (ix2 p q) _).trans (contrEquiv1_symm_val _ 512 rfl rfl k)).symm

/-- One entry of the body is the reference's entry, given the three blocks are the three arrays (the bias as one row). -/
theorem point5 (x0 : Vec Ideal S4096x512 .f32) (x1 : Vec Ideal S256x512 .bf16) (x2 : Vec Ideal S1x256 .f32)
    (cc : Cert.Rst.A S4096x512) (W3 : Cert.Rst.A S256x512) (b3 : Cert.Rst.A S256) (y i : S4096x256.Idx)
    (hi0 : (i 0).val = (y 0).val) (hi1 : (i 1).val = (y 1).val)
    (hx0 : ∀ a : S4096x512.Idx, x0 a = cc a) (hx1 : ∀ a : S256x512.Idx, x1 a = W3 a)
    (hx2 : ∀ q : Fin 256, x2 (ix2 (0 : Fin 1) q) = b3 (ix1 q)) :
    k5_pay1 (F := Ideal) x0 x1 x2 y = Cert.Rst.sh cc W3 b3 i := by
  obtain ⟨p, q, rfl⟩ : ∃ (p : Fin 4096) (q : Fin 256), y = ix2 p q := ⟨y 0, y 1, eq_ix2 y⟩
  obtain ⟨p', q', rfl⟩ : ∃ (p' : Fin 4096) (q' : Fin 256), i = ix2 p' q' := ⟨i 0, i 1, eq_ix2 i⟩
  obtain rfl : p' = p := Fin.ext hi0
  obtain rfl : q' = q := Fin.ext hi1
  rw [pay5_apply, sh_apply, hx2]
  exact congrArg (· + b3 (ix1 q')) (Finset.sum_congr rfl fun k _ => by rw [hx0, hx1])

/-- The index maps of region 5 at its one grid point: every block index is zero. -/
theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

section
variable (V : (c : Dev nD) → (b : Ref sig .tc) → Buf (Elt Ideal) ((c : Thread nD τ).loc b))

theorem iblk5_0_apply (c : Dev nD) (t : Fin cfg5.N) (a : S4096x512.Idx) :
    (iblk5 V c 0 t : Vec Ideal S4096x512 .f32) a = (V c (Pipeline.arrRef spec5 0) : S4096x512.Idx → EReal) a := by
  obtain ⟨i0, i1, -⟩ := idx5 t
  unfold iblk5
  rw [View.read_apply]
  show (V c (Pipeline.arrRef spec5 0) : S4096x512.Idx → EReal) _ = _
  refine congrArg _ (funext fun ax => Fin.ext ?_)
  match ax with
  | ⟨0, _⟩ => show win5_0.index t (0 : Fin 2) * 4096 + 1 * (a 0).val = (a 0).val; rw [i0]; omega
  | ⟨1, _⟩ => show win5_0.index t (1 : Fin 2) * 512 + 1 * (a 1).val = (a 1).val; rw [i1]; omega

theorem iblk5_1_apply (c : Dev nD) (t : Fin cfg5.N) (a : S256x512.Idx) :
    (iblk5 V c 1 t : Vec Ideal S256x512 .bf16) a = (V c (Pipeline.arrRef spec5 1) : S256x512.Idx → EReal) a := by
  obtain ⟨-, -, i0, i1, -⟩ := idx5 t
  unfold iblk5
  rw [View.read_apply]
  show (V c (Pipeline.arrRef spec5 1) : S256x512.Idx → EReal) _ = _
  refine congrArg _ (funext fun ax => Fin.ext ?_)
  match ax with
  | ⟨0, _⟩ => show win5_1.index t (0 : Fin 2) * 256 + 1 * (a 0).val = (a 0).val; rw [i0]; omega
  | ⟨1, _⟩ => show win5_1.index t (1 : Fin 2) * 512 + 1 * (a 1).val = (a 1).val; rw [i1]; omega

theorem iblk5_2_apply (c : Dev nD) (t : Fin cfg5.N) (a : S1x256.Idx) :
    (iblk5 V c 2 t : Vec Ideal S1x256 .f32) a = (V c (Pipeline.arrRef spec5 2) : S1x256.Idx → EReal) a := by
  obtain ⟨-, -, -, -, i0, i1, -⟩ := idx5 t
  unfold iblk5
  rw [View.read_apply]
  show (V c (Pipeline.arrRef spec5 2) : S1x256.Idx → EReal) _ = _
  refine congrArg _ (funext fun ax => Fin.ext ?_)
  match ax with
  | ⟨0, _⟩ => show win5_2.index t (0 : Fin 2) * 1 + 1 * (a 0).val = (a 0).val; rw [i0]; omega
  | ⟨1, _⟩ => show win5_2.index t (1 : Fin 2) * 256 + 1 * (a 1).val = (a 1).val; rw [i1]; omega

/-- What the one point writes back is the reference's result (its one block is the whole array). -/
theorem flushed5_eq (c : Dev nD) (cc : Cert.Rst.A S4096x512) (W3 : Cert.Rst.A S256x512) (b3 : Cert.Rst.A S256)
    (e0 : V c (Pipeline.arrRef spec5 0) = cc) (e1 : V c (Pipeline.arrRef spec5 1) = W3)
    (e2 : ∀ q : Fin 256, (V c (Pipeline.arrRef spec5 2) : S1x256.Idx → EReal) (ix2 (0 : Fin 1) q) = b3 (ix1 q)) (t : Fin cfg5.N) :
    (dat5 (F := Ideal) V c).flushed 3 t = ((cfg5.win 3).blk t).view.read (Elt Ideal) (Cert.Rst.sh cc W3 b3) := by
  show (cfg5.win 3).cut (grid5.coords t) ((dat5 (F := Ideal) V c).after 3 t) = _
  rw [after5_3]
  unfold out5_3
  rw [View.canon_unit_zero hz]
  simp only [View.ld_unit_zero (S := S4096x512) hz, View.ld_unit_zero (S := S256x512) hz, View.ld_unit_zero (S := S1x256) hz]
  obtain ⟨-, -, -, -, -, -, i30, i31⟩ := idx5 t
  funext y
  show k5_pay1 (F := Ideal) (iblk5 V c 0 t) (iblk5 V c 1 t) (iblk5 V c 2 t) y = Cert.Rst.sh cc W3 b3 (((cfg5.win 3).blk t).view.emb y)
  refine point5 (iblk5 V c 0 t) (iblk5 V c 1 t) (iblk5 V c 2 t) cc W3 b3 y (((cfg5.win 3).blk t).view.emb y) ?_ ?_ ?_ ?_ ?_
  · show win5_3.index t (0 : Fin 2) * 4096 + 1 * (y 0).val = _; rw [i30]; omega
  · show win5_3.index t (1 : Fin 2) * 256 + 1 * (y 1).val = _; rw [i31]; omega
  · intro a; rw [← e0]; exact iblk5_0_apply V c t a
  · intro a; rw [← e1]; exact iblk5_1_apply V c t a
  · intro q; rw [← e2 q]; exact iblk5_2_apply V c t _

theorem mem_blk5 (t : Fin cfg5.N) (i : S4096x256.Idx) :
    i ∈ ((cfg5.win 3).blk t).view.set ↔ ∀ a : Fin 2, win5_3.index t a * S4096x256.size a ≤ (i a).val ∧ (i a).val < win5_3.index t a * S4096x256.size a + S4096x256.size a := by
  show i ∈ ((View.whole main_v66).slice (win5_3.rect t)).set ↔ _
  rw [View.set_slice_whole, Rect.mem_set_unit]
  exact Iff.rfl

theorem cover5 (i : S4096x256.Idx) : ∃ t : Fin cfg5.N, (cfg5.win 3).flush t = true ∧ i ∈ ((cfg5.win 3).blk t).view.set := by
  have hi0 : (i 0).val < 4096 := (i 0).isLt
  have hi1 : (i 1).val < 256 := (i 1).isLt
  have hN : cfg5.N = 1 := N_5
  let t : Fin cfg5.N := ⟨0, by rw [hN]; omega⟩
  obtain ⟨-, -, -, -, -, -, i30, i31⟩ := idx5 t
  refine ⟨t, flush5_3 t, ?_⟩
  rw [mem_blk5]
  intro a
  match a with
  | ⟨0, _⟩ => show win5_3.index t (0 : Fin 2) * 4096 ≤ (i 0).val ∧ (i 0).val < win5_3.index t (0 : Fin 2) * 4096 + 4096; rw [i30]; omega
  | ⟨1, _⟩ => show win5_3.index t (1 : Fin 2) * 256 ≤ (i 1).val ∧ (i 1).val < win5_3.index t (1 : Fin 2) * 256 + 256; rw [i31]; omega

end

/-- A vector recast as a one-row matrix, read at an entry of its row. -/
theorem oneRow_apply (b3 : Cert.Rst.A S256) (q : Fin 256) :
    shapeCast S1x256 b3 shapeCasts_S256_S1x256 (ix2 (0 : Fin 1) q) = b3 (ix1 q) := by
  refine (shapeCast_addUnit_apply ![256] b3 shapeCasts_S256_S1x256 (ix2 (0 : Fin 1) q)).trans (congrArg b3 (funext fun a => ?_))
  match a with
  | ⟨0, _⟩ => rfl

end Proj

open Proj

/-- Region 5's output array, given the bias window's array row by row. -/
theorem sh5_whole_of_row (V : (c : Dev nD) → (b : Ref sig .tc) → Buf (Elt Ideal) ((c : Thread nD τ).loc b)) (c : Dev nD) (cc : Cert.Rst.A S4096x512) (W3 : Cert.Rst.A S256x512) (b3 : Cert.Rst.A S256)
    (e0 : V c (Pipeline.arrRef spec5 0) = cc) (e1 : V c (Pipeline.arrRef spec5 1) = W3)
    (e2 : ∀ q : Fin 256, (V c (Pipeline.arrRef spec5 2) : S1x256.Idx → EReal) (ix2 (0 : Fin 1) q) = b3 (ix1 q)) :
    (dat5 (F := Ideal) V c).arrAt 3 cfg5.N = Cert.Rst.sh cc W3 b3 :=
  (dat5 (F := Ideal) V c).arrAt_eq_of_cover 3 (Cert.Rst.sh cc W3 b3) (fun t _ => flushed5_eq V c cc W3 b3 e0 e1 e2 t) cover5

theorem sh5_whole (V : (c : Dev nD) → (b : Ref sig .tc) → Buf (Elt Ideal) ((c : Thread nD τ).loc b)) (c : Dev nD) (cc : Cert.Rst.A S4096x512) (W3 : Cert.Rst.A S256x512) (b3 : Cert.Rst.A S256)
    (e0 : V c (Pipeline.arrRef spec5 0) = cc) (e1 : V c (Pipeline.arrRef spec5 1) = W3)
    (e2 : V c (Pipeline.arrRef spec5 2) = shapeCast S1x256 b3 shapeCasts_S256_S1x256) :
    (dat5 (F := Ideal) V c).arrAt 3 cfg5.N = Cert.Rst.sh cc W3 b3 :=
  sh5_whole_of_row V c cc W3 b3 e0 e1 fun q => by rw [e2]; exact oneRow_apply b3 q

end Cert.Reg

end
-- ==== Proof.RegGruCell.lean ====
/-
  The gated recurrent cell at one row, and the two ways the programs spell it.

  One row n of the result depends on row n of the state h and of the aggregate a only:
    gi = a(n,·) · wihᵀ + bih,  gh = h(n,·) · whhᵀ + bhh   (sums over the 256 columns, in the same order on both sides),
    r = σ(gi[0:256] + gh[0:256]),  z = σ(gi[256:512] + gh[256:512]),  n' = tanh(gi[512:768] + r · gh[512:768]),
    out = (1 − z) · n' + z · h(n,·),
  where σ(x) = 1 / (1 + exp(−x)). A kernel region's block product of a row block against a weight contracts the weight's
  second axis and adds a one-row bias broadcast down the rows; the reference multiplies by the transposed weight and adds
  the bias broadcast to a row and then down the rows: both are the same sum over the 256 columns plus the bias entry.
  The reference's stage function is therefore the cell applied row by row.
-/
import proofs.«425236_j80513456930926_1_alg».proof.Proof.Gen.KernelIdeal.Frame
import proofs.«425236_j80513456930926_1_alg».proof.Proof.RefStages
import Idealize.ShloMosaic.Lib.Pipeline.Value
import Idealize.ShloMosaic.Lib.ValueIdx
import Idealize.ShloMosaic.Lib.ValueLayout
import Idealize.ShloMosaic.Lib.IdealHost

noncomputable section

namespace Cert.Reg.Gru

open Idealize.ShloMosaic Idealize.ShloMosaic.TcCoe Idealize.SL.Sem
open Idealize.ShloMosaic.ValueIdx
open Idealize.ShloMosaic.Pipeline (Dat)
open Cert.KernelIdeal Cert.KernelIdeal.Gen

/-! ## The cell at one row -/

/-- Column `j` of a row's pre-activation: the row against row `j` of the weight, plus the bias at `j`. -/
def pre (x : Fin 256 → EReal) (w : (⟨2, ![768, 256]⟩ : Shape).Idx → EReal) (b : Fin 768 → EReal) (j : Fin 768) : EReal :=
  (∑ k : Fin 256, x k * w (ix2 j k)) + b j

/-- Column `o + q` of the 768 gate columns, for a block offset `o` ∈ {0, 256, 512}. -/
abbrev gcol (o : Nat) (ho : o + 256 ≤ 768) (q : Fin 256) : Fin 768 := ⟨o + q.val, by have := q.isLt; omega⟩

/-- The new state at column `q` of a row, from the row of the state `hr`, the row of the aggregate `ar`, the two
    weights and the two biases: reset gate `r`, update gate `z`, candidate `n`, then `(1 − z)·n + z·h`. -/
def cell (hr ar : Fin 256 → EReal) (wih whh : (⟨2, ![768, 256]⟩ : Shape).Idx → EReal) (bi bh : Fin 768 → EReal)
    (q : Fin 256) : EReal :=
  (Ideal.ofBits .f32 0x3F800000#32
      - Ideal.logistic (pre ar wih bi (gcol 256 (by decide) q) + pre hr whh bh (gcol 256 (by decide) q)))
    * Ideal.tanh (pre ar wih bi (gcol 512 (by decide) q)
        + Ideal.logistic (pre ar wih bi (gcol 0 (by decide) q) + pre hr whh bh (gcol 0 (by decide) q))
          * pre hr whh bh (gcol 512 (by decide) q))
  + Ideal.logistic (pre ar wih bi (gcol 256 (by decide) q) + pre hr whh bh (gcol 256 (by decide) q)) * hr q

theorem cell_congr {hr hr' ar ar' : Fin 256 → EReal} {wih wih' whh whh' : (⟨2, ![768, 256]⟩ : Shape).Idx → EReal}
    {bi bi' bh bh' : Fin 768 → EReal} {q q' : Fin 256}
    (e1 : hr = hr') (e2 : ar = ar') (e3 : wih = wih') (e4 : whh = whh') (e5 : bi = bi') (e6 : bh = bh') (e7 : q = q') :
    cell hr ar wih whh bi bh q = cell hr' ar' wih' whh' bi' bh' q' := by
  subst e1 e2 e3 e4 e5 e6 e7; rfl

/-! ## The kernel's block product at an index -/

theorem klhs_0 (i : S1024x768.Idx) (q : dot_S1024x256_S768x256_S1024x768_1_1_0_0_n_n.contr.Idx) :
    (dot_S1024x256_S768x256_S1024x768_1_1_0_0_n_n.lhsIdx i q 0).val = (i 0).val := by
  unfold DotDims.lhsIdx
  rw [dif_neg (show ¬(0 : Fin S1024x256.rank) ∈ dot_S1024x256_S768x256_S1024x768_1_1_0_0_n_n.lhsBatch by decide),
    dif_pos (show (0 : Fin S1024x256.rank) ∈ dot_S1024x256_S768x256_S1024x768_1_1_0_0_n_n.lhsNonContracting by decide)]
  rfl
theorem klhs_1 (i : S1024x768.Idx) (q : dot_S1024x256_S768x256_S1024x768_1_1_0_0_n_n.contr.Idx) :
    (dot_S1024x256_S768x256_S1024x768_1_1_0_0_n_n.lhsIdx i q 1).val = (q ⟨0, by decide⟩).val :=
  dot_S1024x256_S768x256_S1024x768_1_1_0_0_n_n.lhsIdx_val_of_single rfl i q
theorem krhs_0 (i : S1024x768.Idx) (q : dot_S1024x256_S768x256_S1024x768_1_1_0_0_n_n.contr.Idx) :
    (dot_S1024x256_S768x256_S1024x768_1_1_0_0_n_n.rhsIdx i q 0).val = (i 1).val := by
  unfold DotDims.rhsIdx
  rw [dif_neg (show ¬(0 : Fin S768x256.rank) ∈ dot_S1024x256_S768x256_S1024x768_1_1_0_0_n_n.rhsBatch by decide),
    dif_pos (show (0 : Fin S768x256.rank) ∈ dot_S1024x256_S768x256_S1024x768_1_1_0_0_n_n.rhsNonContracting by decide)]
  rfl
theorem krhs_1 (i : S1024x768.Idx) (q : dot_S1024x256_S768x256_S1024x768_1_1_0_0_n_n.contr.Idx) :
    (dot_S1024x256_S768x256_S1024x768_1_1_0_0_n_n.rhsIdx i q 1).val = (q ⟨0, by decide⟩).val :=
  dot_S1024x256_S768x256_S1024x768_1_1_0_0_n_n.rhsIdx_val_of_single rfl i q

/-- The block product into zeros, plus the one-row bias broadcast down the rows, at `(p, j)`: row `p` of the left
    block against row `j` of the weight, plus the bias at `j`. -/
theorem kgate_apply (x : FVec Ideal S1024x256 .bf16) (w : FVec Ideal S768x256 .bf16) (b : FVec Ideal S1x768 .f32)
    (p : Fin 1024) (j : Fin 768) :
    addf (matmul dot_S1024x256_S768x256_S1024x768_1_1_0_0_n_n none x w (constant S1024x768 .f32 0x00000000#32))
        (broadcastTo S1024x768 b broadcasts_S1x768_S1024x768) (ix2 p j)
      = pre (fun k => x (ix2 p k)) w (fun j => b (ix2 (0 : Fin 1) j)) j := by
  rw [addf_apply, broadcastTo_1b_ab_apply]
  unfold pre
  refine congrArg (· + b (ix2 (0 : Fin 1) j)) ?_
  simp only [matmul]
  rw [Ideal.matmul_constant_zero_apply,
    ← Equiv.sum_comp (contrEquiv1 dot_S1024x256_S768x256_S1024x768_1_1_0_0_n_n 256 rfl rfl).symm]
  refine Finset.sum_congr rfl fun k _ => ?_
  have hk := contrEquiv1_symm_val dot_S1024x256_S768x256_S1024x768_1_1_0_0_n_n 256 rfl rfl k
  have el : dot_S1024x256_S768x256_S1024x768_1_1_0_0_n_n.lhsIdx (ix2 p j)
      ((contrEquiv1 dot_S1024x256_S768x256_S1024x768_1_1_0_0_n_n 256 rfl rfl).symm k) = ix2 p k :=
    funext fun a => Fin.ext (by
      match a with
      | ⟨0, _⟩ => exact klhs_0 _ _
      | ⟨1, _⟩ => exact (klhs_1 _ _).trans hk)
  have er : dot_S1024x256_S768x256_S1024x768_1_1_0_0_n_n.rhsIdx (ix2 p j)
      ((contrEquiv1 dot_S1024x256_S768x256_S1024x768_1_1_0_0_n_n 256 rfl rfl).symm k) = ix2 j k :=
    funext fun a => Fin.ext (by
      match a with
      | ⟨0, _⟩ => exact krhs_0 _ _
      | ⟨1, _⟩ => exact (krhs_1 _ _).trans hk)
  rw [el, er]

/-- A 256-column block of the 768 pre-activation columns, at `(p, q)`. -/
theorem kslice_apply (o : Nat) (ho : o + 256 ≤ 768) (G : FVec Ideal S1024x768 .f32) (h : S1024x768.Slices ![0, o] S1024x256)
    (p : Fin 1024) (q : Fin 256) :
    extractStridedSlice S1024x256 ![0, o] G h (ix2 p q) = G (ix2 p (gcol o ho q)) :=
  slice2_axis1_apply o G h p q (gcol o ho q) rfl

/-! ## The body's stored value at an index -/

theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-! ## The cell applied row by row -/

theorem hz2 : (![0, 0] : Fin 2 → Nat) = fun _ => 0 := funext fun a => by fin_cases a <;> rfl

/-- The cell applied row by row: entry `(n, q)` from row `n` of the state and of the aggregate. -/
def rowCell (h a : (⟨2, ![81920, 256]⟩ : Shape).Idx → EReal) (wih whh : (⟨2, ![768, 256]⟩ : Shape).Idx → EReal)
    (bi bh : Fin 768 → EReal) : (⟨2, ![81920, 256]⟩ : Shape).Idx → EReal := fun i =>
  cell (fun k => h (ix2 ⟨(i 0).val, idx2_lt0 i⟩ k)) (fun k => a (ix2 ⟨(i 0).val, idx2_lt0 i⟩ k)) wih whh bi bh
    ⟨(i 1).val, idx2_lt1 i⟩

section Reference
variable [Cert.ReferenceIdeal.Facts]

/-! ## The reference's product at an index -/

theorem rlhs_0 (i : Cert.ReferenceIdeal.S81920x768.Idx)
    (q : Cert.ReferenceIdeal.dot_S81920x256_S256x768_S81920x768_1_0_0_1_n_n.contr.Idx) :
    (Cert.ReferenceIdeal.dot_S81920x256_S256x768_S81920x768_1_0_0_1_n_n.lhsIdx i q 0).val = (i 0).val := by
  unfold DotDims.lhsIdx
  rw [dif_neg (show ¬(0 : Fin Cert.ReferenceIdeal.S81920x256.rank) ∈ Cert.ReferenceIdeal.dot_S81920x256_S256x768_S81920x768_1_0_0_1_n_n.lhsBatch from List.not_mem_nil),
    dif_pos (show (0 : Fin Cert.ReferenceIdeal.S81920x256.rank) ∈ Cert.ReferenceIdeal.dot_S81920x256_S256x768_S81920x768_1_0_0_1_n_n.lhsNonContracting from List.mem_singleton.mpr rfl)]
  rfl
theorem rlhs_1 (i : Cert.ReferenceIdeal.S81920x768.Idx)
    (q : Cert.ReferenceIdeal.dot_S81920x256_S256x768_S81920x768_1_0_0_1_n_n.contr.Idx)
    (h0 : 0 < Cert.ReferenceIdeal.dot_S81920x256_S256x768_S81920x768_1_0_0_1_n_n.contr.rank) :
    (Cert.ReferenceIdeal.dot_S81920x256_S256x768_S81920x768_1_0_0_1_n_n.lhsIdx i q 1).val = (q ⟨0, h0⟩).val :=
  Cert.ReferenceIdeal.dot_S81920x256_S256x768_S81920x768_1_0_0_1_n_n.lhsIdx_val_of_single rfl i q
theorem rrhs_0 (i : Cert.ReferenceIdeal.S81920x768.Idx)
    (q : Cert.ReferenceIdeal.dot_S81920x256_S256x768_S81920x768_1_0_0_1_n_n.contr.Idx)
    (h0 : 0 < Cert.ReferenceIdeal.dot_S81920x256_S256x768_S81920x768_1_0_0_1_n_n.contr.rank) :
    (Cert.ReferenceIdeal.dot_S81920x256_S256x768_S81920x768_1_0_0_1_n_n.rhsIdx i q 0).val = (q ⟨0, h0⟩).val :=
  Cert.ReferenceIdeal.dot_S81920x256_S256x768_S81920x768_1_0_0_1_n_n.rhsIdx_val_of_single rfl i q
theorem rrhs_1 (i : Cert.ReferenceIdeal.S81920x768.Idx)
    (q : Cert.ReferenceIdeal.dot_S81920x256_S256x768_S81920x768_1_0_0_1_n_n.contr.Idx) :
    (Cert.ReferenceIdeal.dot_S81920x256_S256x768_S81920x768_1_0_0_1_n_n.rhsIdx i q 1).val = (i 1).val := by
  unfold DotDims.rhsIdx
  rw [dif_neg (show ¬(1 : Fin Cert.ReferenceIdeal.S256x768.rank) ∈ Cert.ReferenceIdeal.dot_S81920x256_S256x768_S81920x768_1_0_0_1_n_n.rhsBatch from List.not_mem_nil),
    dif_pos (show (1 : Fin Cert.ReferenceIdeal.S256x768.rank) ∈ Cert.ReferenceIdeal.dot_S81920x256_S256x768_S81920x768_1_0_0_1_n_n.rhsNonContracting from List.mem_singleton.mpr rfl)]
  rfl

/-- The reference's product against the transposed weight, plus the bias broadcast to a row and down the rows, at
    `(n, j)`: row `n` of the left operand against row `j` of the weight, plus the bias at `j`. -/
theorem rgate_apply (x : FVec Ideal Cert.ReferenceIdeal.S81920x256 .f32) (w : FVec Ideal Cert.ReferenceIdeal.S768x256 .f32)
    (b : FVec Ideal Cert.ReferenceIdeal.S768 .f32)
    (tr : Cert.ReferenceIdeal.S768x256.Transposes [1, 0] Cert.ReferenceIdeal.S256x768)
    (hb1 : Cert.ReferenceIdeal.S768.BroadcastsInDim Cert.ReferenceIdeal.S1x768 (![1] : Fin 1 → Fin Cert.ReferenceIdeal.S1x768.rank))
    (hb2 : Cert.ReferenceIdeal.S1x768.BroadcastsInDim Cert.ReferenceIdeal.S81920x768 (![0, 1] : Fin 2 → Fin Cert.ReferenceIdeal.S81920x768.rank))
    (n : Fin 81920) (j : Fin 768) :
    addf (Host.dotGeneral Cert.ReferenceIdeal.dot_S81920x256_S256x768_S81920x768_1_0_0_1_n_n none x
          (transpose Cert.ReferenceIdeal.S256x768 [1, 0] w tr))
        (broadcastInDim Cert.ReferenceIdeal.S81920x768 ![0, 1] hb2 (broadcastInDim Cert.ReferenceIdeal.S1x768 ![1] hb1 b)) (ix2 n j)
      = pre (fun k => x (ix2 n k)) w (fun j => b (ix1 j)) j := by
  rw [addf_apply]
  unfold pre
  have eb : broadcastInDim Cert.ReferenceIdeal.S81920x768 ![0, 1] hb2 (broadcastInDim Cert.ReferenceIdeal.S1x768 ![1] hb1 b) (ix2 n j)
      = b (ix1 j) := by
    refine (broadcastInDim_apply _ hb2 _ (ix2 n j) (ix2 (0 : Fin 1) j) (fun a => ?_)).trans ?_
    · match a with
      | ⟨0, _⟩ => rfl
      | ⟨1, _⟩ => rfl
    · refine broadcastInDim_apply _ hb1 _ (ix2 (0 : Fin 1) j) (ix1 j) (fun a => ?_)
      match a with
      | ⟨0, _⟩ => rfl
  rw [eb]
  refine congrArg (· + b (ix1 j)) ?_
  simp only [Host.dotGeneral]
  rw [Ideal.dotGeneral_apply,
    ← Equiv.sum_comp (contrEquiv1 Cert.ReferenceIdeal.dot_S81920x256_S256x768_S81920x768_1_0_0_1_n_n 256 rfl rfl).symm]
  refine Finset.sum_congr rfl fun k _ => ?_
  have hk := contrEquiv1_symm_val Cert.ReferenceIdeal.dot_S81920x256_S256x768_S81920x768_1_0_0_1_n_n 256 rfl rfl k
  have el : Cert.ReferenceIdeal.dot_S81920x256_S256x768_S81920x768_1_0_0_1_n_n.lhsIdx (ix2 n j)
      ((contrEquiv1 Cert.ReferenceIdeal.dot_S81920x256_S256x768_S81920x768_1_0_0_1_n_n 256 rfl rfl).symm k) = ix2 n k :=
    funext fun a => Fin.ext (by
      match a with
      | ⟨0, _⟩ => exact rlhs_0 _ _
      | ⟨1, _⟩ => exact (rlhs_1 _ _ _).trans hk)
  have er : Cert.ReferenceIdeal.dot_S81920x256_S256x768_S81920x768_1_0_0_1_n_n.rhsIdx (ix2 n j)
      ((contrEquiv1 Cert.ReferenceIdeal.dot_S81920x256_S256x768_S81920x768_1_0_0_1_n_n 256 rfl rfl).symm k) = ix2 k j :=
    funext fun a => Fin.ext (by
      match a with
      | ⟨0, _⟩ => exact (rrhs_0 _ _ _).trans hk
      | ⟨1, _⟩ => exact rrhs_1 _ _)
  rw [el, er, transpose_ix2_apply]

/-- A 256-column block of the 768 pre-activation columns, at `(n, q)`. -/
theorem rslice_apply (o : Nat) (ho : o + 256 ≤ 768) (G : FVec Ideal Cert.ReferenceIdeal.S81920x768 .f32)
    (h : Cert.ReferenceIdeal.S81920x768.Slices ![0, o] Cert.ReferenceIdeal.S81920x256) (n : Fin 81920) (q : Fin 256) :
    extractStridedSlice Cert.ReferenceIdeal.S81920x256 ![0, o] G h (ix2 n q) = G (ix2 n (gcol o ho q)) :=
  slice2_axis1_apply o G h n q (gcol o ho q) rfl

theorem hdivf_apply {s : Shape} {φ : FTy} (x y : FVec Ideal s φ) (i : s.Idx) : Host.divf x y i = Ideal.div (x i) (y i) := rfl
theorem hexp_apply {s : Shape} {φ : FTy} (x : FVec Ideal s φ) (i : s.Idx) : Host.exp x i = Ideal.exp (x i) := rfl
theorem hnegf_apply {s : Shape} {φ : FTy} (x : FVec Ideal s φ) (i : s.Idx) : Host.negf x i = -(x i) := rfl
theorem htanh_apply {s : Shape} {φ : FTy} (x : FVec Ideal s φ) (i : s.Idx) : Host.tanh x i = Ideal.tanh (x i) := rfl
theorem bconst_apply (hb : Cert.ReferenceIdeal.S_.BroadcastsInDim Cert.ReferenceIdeal.S81920x256 (![] : Fin 0 → Fin Cert.ReferenceIdeal.S81920x256.rank))
    (w : BitVec 32) (i : Cert.ReferenceIdeal.S81920x256.Idx) :
    broadcastInDim Cert.ReferenceIdeal.S81920x256 ![] hb (constant (F := Ideal) Cert.ReferenceIdeal.S_ .f32 w) i = Ideal.ofBits .f32 w := rfl

/-- The reference spells the sigmoid as `1 / (1 + exp(−x))` with the constant one as a float word. -/
theorem sigm_eq (x : EReal) :
    Ideal.div (Ideal.ofBits .f32 0x3F800000#32) (Ideal.ofBits .f32 0x3F800000#32 + Ideal.exp (-x)) = Ideal.logistic x := by
  rw [Ideal.ofBits_one_f32]; rfl

/-- The reference's stage function at `(n, q)`: the cell of row `n`. -/
theorem gru_apply (h a : Cert.Rst.A Cert.ReferenceIdeal.S81920x256) (wih whh : Cert.Rst.A Cert.ReferenceIdeal.S768x256)
    (bih bhh : Cert.Rst.A Cert.ReferenceIdeal.S768) (n : Fin 81920) (q : Fin 256) :
    Cert.Rst.gru h a wih whh bih bhh (ix2 n q)
      = cell (fun k => h (ix2 n k)) (fun k => a (ix2 n k)) wih whh (fun j => bih (ix1 j)) (fun j => bhh (ix1 j)) q := by
  unfold Cert.Rst.gru
  simp only [addf_apply, mulf_apply, subf_apply, hdivf_apply, hexp_apply, hnegf_apply, htanh_apply, bconst_apply]
  simp only [rslice_apply 0 (by decide), rslice_apply 256 (by decide), rslice_apply 512 (by decide)]
  rw [rgate_apply a wih bih _ _ _ n (gcol 256 (by decide) q), rgate_apply h whh bhh _ _ _ n (gcol 256 (by decide) q),
    rgate_apply a wih bih _ _ _ n (gcol 512 (by decide) q), rgate_apply h whh bhh _ _ _ n (gcol 512 (by decide) q),
    rgate_apply a wih bih _ _ _ n (gcol 0 (by decide) q), rgate_apply h whh bhh _ _ _ n (gcol 0 (by decide) q),
    bconst_apply _ _ (ix2 n q)]
  simp only [sigm_eq]
  rfl

/-- The reference's stage function is the cell applied row by row, the biases read through the one-row reshape the
    kernel program hands its regions. -/
theorem gru_eq (h a : Cert.Rst.A Cert.ReferenceIdeal.S81920x256) (wih whh : Cert.Rst.A Cert.ReferenceIdeal.S768x256)
    (bih bhh : Cert.Rst.A Cert.ReferenceIdeal.S768) :
    Cert.Rst.gru h a wih whh bih bhh
      = rowCell h a wih whh (fun j => shapeCast S1x768 bih shapeCasts_S768_S1x768 (ix2 (0 : Fin 1) j))
          (fun j => shapeCast S1x768 bhh shapeCasts_S768_S1x768 (ix2 (0 : Fin 1) j)) := by
  funext i
  obtain ⟨n, q, rfl⟩ : ∃ (n : Fin 81920) (q : Fin 256), i = ix2 n q := ⟨i 0, i 1, eq_ix2 i⟩
  rw [gru_apply]
  unfold rowCell
  refine cell_congr rfl rfl rfl rfl (funext fun j => ?_) (funext fun j => ?_) rfl
  · exact (shapeCast_a_1a_apply bih _ 0 j).symm
  · exact (shapeCast_a_1a_apply bhh _ 0 j).symm

end Reference

end Cert.Reg.Gru

end
-- ==== Proof.RegGru1.lean ====
/-
  Region 1 of the kernel program: one round of the gated recurrent cell, 1024 rows per grid point, 80 points.

  The body's stored block at (p, q) is the cell of row p of the state block and of the aggregate block. The row windows
  (state, aggregate, output) sit at block (t, 0) at point t, the weights and biases at block (0, 0), so the block point t
  writes back is block t of the cell applied row by row to the arrays the region finds; row r of the array lies in the
  block of point r / 1024, the blocks cover the array, and the array the region leaves is the cell applied row by row —
  the reference's stage function — whatever else the buffers hold when the region is entered.
-/
import proofs.«425236_j80513456930926_1_alg».proof.Proof.RegGruCell

noncomputable section

namespace Cert.Reg.Gru

open Idealize.ShloMosaic Idealize.ShloMosaic.TcCoe Idealize.SL.Sem
open Idealize.ShloMosaic.ValueIdx
open Idealize.ShloMosaic.Pipeline (Dat)
open Cert.KernelIdeal Cert.KernelIdeal.Gen

/-! ## The body's stored value at an index -/

/-- Region 1's stored block at `(p, q)`: the cell of row `p` of the state block and of the aggregate block. -/
theorem pay1_apply (v0 v2 : FVec Ideal S1024x256 .f32) (v6 v8 : FVec Ideal S768x256 .bf16) (v11 v16 : FVec Ideal S1x768 .f32)
    (p : Fin 1024) (q : Fin 256) :
    (k1_pay1 (F := Ideal) v0 v2 v6 v8 v11 v16) (ix2 p q)
      = cell (fun k => v0 (ix2 p k)) (fun k => v2 (ix2 p k)) v6 v8 (fun j => v11 (ix2 (0 : Fin 1) j))
          (fun j => v16 (ix2 (0 : Fin 1) j)) q := by
  unfold k1_pay1
  simp only [shapeCast_self]
  simp only [addf_apply, mulf_apply, subf_apply, broadcast_apply, logistic_apply, tanh_apply]
  simp only [kslice_apply 0 (by decide), kslice_apply 256 (by decide), kslice_apply 512 (by decide), kgate_apply]
  rfl

/-- The stored block at any index of the block, its coordinates read off the index. -/
theorem pay1_at (v0 v2 : FVec Ideal S1024x256 .f32) (v6 v8 : FVec Ideal S768x256 .bf16) (v11 v16 : FVec Ideal S1x768 .f32)
    (y : S1024x256.Idx) :
    (k1_pay1 (F := Ideal) v0 v2 v6 v8 v11 v16) y
      = cell (fun k => v0 (ix2 ⟨(y 0).val, idx2_lt0 y⟩ k)) (fun k => v2 (ix2 ⟨(y 0).val, idx2_lt0 y⟩ k)) v6 v8
          (fun j => v11 (ix2 (0 : Fin 1) j)) (fun j => v16 (ix2 (0 : Fin 1) j)) ⟨(y 1).val, idx2_lt1 y⟩ := by
  obtain ⟨p, q, rfl⟩ : ∃ (p : Fin 1024) (q : Fin 256), y = ix2 p q := ⟨y 0, y 1, eq_ix2 y⟩
  exact pay1_apply v0 v2 v6 v8 v11 v16 p q

section Region1
variable (V : (c : Dev nD) → (b : Ref sig .tc) → Buf (Elt Ideal) ((c : Thread nD τ).loc b))

/-- The printed index maps over the 80 grid points: the row windows (state, aggregate, output) sit at block `(t, 0)`,
    the weights and biases at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A row window's block at point `t`, at `y`: the array at row `1024 t + y₀`. -/
theorem blk1_0_apply (c : Dev nD) (t : Fin cfg1.N) (y : S1024x256.Idx) (i : S81920x256.Idx)
    (h0 : (i 0).val = t.val * 1024 + (y 0).val) (h1 : (i 1).val = (y 1).val) :
    iblk1 V c 0 t y = V c (Pipeline.arrRef spec1 0) i := by
  obtain ⟨e00, e01, -⟩ := idx1 t
  show V c (Pipeline.arrRef spec1 0) (((cfg1.win 0).blk t).view.emb y) = _
  refine congrArg _ (funext fun a => Fin.ext ?_)
  match a with
  | ⟨0, _⟩ => show win1_0.index t (0 : Fin 2) * 1024 + 1 * (y 0).val = (i 0).val; rw [e00, h0]; omega
  | ⟨1, _⟩ => show win1_0.index t (1 : Fin 2) * 256 + 1 * (y 1).val = (i 1).val; rw [e01, h1]; omega

theorem blk1_1_apply (c : Dev nD) (t : Fin cfg1.N) (y : S1024x256.Idx) (i : S81920x256.Idx)
    (h0 : (i 0).val = t.val * 1024 + (y 0).val) (h1 : (i 1).val = (y 1).val) :
    iblk1 V c 1 t y = V c (Pipeline.arrRef spec1 1) i := by
  obtain ⟨-, -, e10, e11, -⟩ := idx1 t
  show V c (Pipeline.arrRef spec1 1) (((cfg1.win 1).blk t).view.emb y) = _
  refine congrArg _ (funext fun a => Fin.ext ?_)
  match a with
  | ⟨0, _⟩ => show win1_1.index t (0 : Fin 2) * 1024 + 1 * (y 0).val = (i 0).val; rw [e10, h0]; omega
  | ⟨1, _⟩ => show win1_1.index t (1 : Fin 2) * 256 + 1 * (y 1).val = (i 1).val; rw [e11, h1]; omega

/-- A weight window's block is its whole array, at every point. -/
theorem blk1_2_apply (c : Dev nD) (t : Fin cfg1.N) (y : S768x256.Idx) :
    iblk1 V c 2 t y = V c (Pipeline.arrRef spec1 2) y := by
  obtain ⟨-, -, -, -, e20, e21, -⟩ := idx1 t
  show V c (Pipeline.arrRef spec1 2) (((cfg1.win 2).blk t).view.emb y) = _
  refine congrArg _ (funext fun a => Fin.ext ?_)
  match a with
  | ⟨0, _⟩ => show win1_2.index t (0 : Fin 2) * 768 + 1 * (y 0).val = (y 0).val; rw [e20]; omega
  | ⟨1, _⟩ => show win1_2.index t (1 : Fin 2) * 256 + 1 * (y 1).val = (y 1).val; rw [e21]; omega
theorem blk1_3_apply (c : Dev nD) (t : Fin cfg1.N) (y : S768x256.Idx) :
    iblk1 V c 3 t y = V c (Pipeline.arrRef spec1 3) y := by
  obtain ⟨-, -, -, -, -, -, e30, e31, -⟩ := idx1 t
  show V c (Pipeline.arrRef spec1 3) (((cfg1.win 3).blk t).view.emb y) = _
  refine congrArg _ (funext fun a => Fin.ext ?_)
  match a with
  | ⟨0, _⟩ => show win1_3.index t (0 : Fin 2) * 768 + 1 * (y 0).val = (y 0).val; rw [e30]; omega
  | ⟨1, _⟩ => show win1_3.index t (1 : Fin 2) * 256 + 1 * (y 1).val = (y 1).val; rw [e31]; omega
/-- A bias window's block is its whole one-row array, at every point. -/
theorem blk1_4_apply (c : Dev nD) (t : Fin cfg1.N) (y : S1x768.Idx) :
    iblk1 V c 4 t y = V c (Pipeline.arrRef spec1 4) y := by
  obtain ⟨-, -, -, -, -, -, -, -, e40, e41, -⟩ := idx1 t
  show V c (Pipeline.arrRef spec1 4) (((cfg1.win 4).blk t).view.emb y) = _
  refine congrArg _ (funext fun a => Fin.ext ?_)
  match a with
  | ⟨0, _⟩ => show win1_4.index t (0 : Fin 2) * 1 + 1 * (y 0).val = (y 0).val; rw [e40]; omega
  | ⟨1, _⟩ => show win1_4.index t (1 : Fin 2) * 768 + 1 * (y 1).val = (y 1).val; rw [e41]; omega
theorem blk1_5_apply (c : Dev nD) (t : Fin cfg1.N) (y : S1x768.Idx) :
    iblk1 V c 5 t y = V c (Pipeline.arrRef spec1 5) y := by
  obtain ⟨-, -, -, -, -, -, -, -, -, -, e50, e51, -⟩ := idx1 t
  show V c (Pipeline.arrRef spec1 5) (((cfg1.win 5).blk t).view.emb y) = _
  refine congrArg _ (funext fun a => Fin.ext ?_)
  match a with
  | ⟨0, _⟩ => show win1_5.index t (0 : Fin 2) * 1 + 1 * (y 0).val = (y 0).val; rw [e50]; omega
  | ⟨1, _⟩ => show win1_5.index t (1 : Fin 2) * 768 + 1 * (y 1).val = (y 1).val; rw [e51]; omega

/-- Where an element of the output block at point `t` sits in the array: row `1024 t + y₀`, column `y₁`. -/
theorem emb1_6 (t : Fin cfg1.N) (y : S1024x256.Idx) :
    ((((cfg1.win 6).blk t).view.emb y : S81920x256.Idx) 0).val = t.val * 1024 + (y 0).val
    ∧ ((((cfg1.win 6).blk t).view.emb y : S81920x256.Idx) 1).val = (y 1).val := by
  obtain ⟨-, -, -, -, -, -, -, -, -, -, -, -, e60, e61⟩ := idx1 t
  constructor
  · show win1_6.index t (0 : Fin 2) * 1024 + 1 * (y 0).val = _; rw [e60]; omega
  · show win1_6.index t (1 : Fin 2) * 256 + 1 * (y 1).val = _; rw [e61]; omega

/-- The stored block at `y` is the row-by-row cell at the array index `i` that `y` sits at. -/
theorem flush1_core (c : Dev nD) (t : Fin cfg1.N) (y : S1024x256.Idx) (i : S81920x256.Idx)
    (m0 : (i 0).val = t.val * 1024 + (y 0).val) (m1 : (i 1).val = (y 1).val) :
    k1_pay1 (F := Ideal) (iblk1 V c 0 t) (iblk1 V c 1 t) (iblk1 V c 2 t) (iblk1 V c 3 t) (iblk1 V c 4 t) (iblk1 V c 5 t) y
      = rowCell (V c (Pipeline.arrRef spec1 0)) (V c (Pipeline.arrRef spec1 1)) (V c (Pipeline.arrRef spec1 2))
          (V c (Pipeline.arrRef spec1 3)) (fun j => V c (Pipeline.arrRef spec1 4) (ix2 (0 : Fin 1) j))
          (fun j => V c (Pipeline.arrRef spec1 5) (ix2 (0 : Fin 1) j)) i := by
  refine (pay1_at (iblk1 V c 0 t) (iblk1 V c 1 t) (iblk1 V c 2 t) (iblk1 V c 3 t) (iblk1 V c 4 t) (iblk1 V c 5 t) y).trans ?_
  unfold rowCell
  refine cell_congr (funext fun k => ?_) (funext fun k => ?_) (funext fun y' => ?_) (funext fun y' => ?_)
    (funext fun j => ?_) (funext fun j => ?_) (Fin.ext ?_)
  · exact blk1_0_apply V c t _ _ m0 rfl
  · exact blk1_1_apply V c t _ _ m0 rfl
  · exact blk1_2_apply V c t y'
  · exact blk1_3_apply V c t y'
  · exact blk1_4_apply V c t _
  · exact blk1_5_apply V c t _
  · exact m1.symm

/-- What point `t` writes back: block `t` of the cell applied row by row to the arrays the region finds. -/
theorem flushed1 (c : Dev nD) (t : Fin cfg1.N) (h a : S81920x256.Idx → EReal) (wih whh : S768x256.Idx → EReal)
    (b4 b5 : S1x768.Idx → EReal)
    (e0 : V c (Pipeline.arrRef spec1 0) = h) (e1 : V c (Pipeline.arrRef spec1 1) = a)
    (e2 : V c (Pipeline.arrRef spec1 2) = wih) (e3 : V c (Pipeline.arrRef spec1 3) = whh)
    (e4 : V c (Pipeline.arrRef spec1 4) = b4) (e5 : V c (Pipeline.arrRef spec1 5) = b5) :
    (dat1 (F := Ideal) V c).flushed 6 t
      = ((cfg1.win 6).blk t).view.read (Elt Ideal)
          (rowCell h a wih whh (fun j => b4 (ix2 (0 : Fin 1) j)) (fun j => b5 (ix2 (0 : Fin 1) j))) := by
  subst e0 e1 e2 e3 e4 e5
  show (cfg1.win 6).cut (grid1.coords t) ((dat1 V c).after 6 t) = _
  rw [after1_6]
  unfold out1_6
  rw [View.canon_unit_zero hz2]
  simp only [View.ld_unit_zero (S := S1024x256) hz2, View.ld_unit_zero (S := S768x256) hz2, View.ld_unit_zero (S := S1x768) hz2]
  funext y
  exact flush1_core V c t y _ (emb1_6 t y).1 (emb1_6 t y).2

/-- An index of the output array is in point `t`'s block iff each coordinate is in the block's range. -/
theorem mem_blk1_6 (t : Fin cfg1.N) (i : S81920x256.Idx) :
    i ∈ ((cfg1.win 6).blk t).view.set ↔ ∀ a : Fin 2, win1_6.index t a * S1024x256.size a ≤ (i a).val
      ∧ (i a).val < win1_6.index t a * S1024x256.size a + S1024x256.size a := by
  show i ∈ ((View.whole main_v24).slice (win1_6.rect t)).set ↔ _
  rw [View.set_slice_whole, Rect.mem_set_unit]
  exact Iff.rfl

/-- Every row of the array is in the block of the point `row / 1024`. -/
theorem cover1_arr (i : S81920x256.Idx) :
    ∃ t : Fin cfg1.N, (cfg1.win 6).flush t = true ∧ i ∈ ((cfg1.win 6).blk t).view.set := by
  have hi0 : (i 0).val < 81920 := (i 0).isLt
  have hi1 : (i 1).val < 256 := (i 1).isLt
  have hN : cfg1.N = 80 := N_1
  have ht : (i 0).val / 1024 < cfg1.N := by rw [hN]; omega
  obtain ⟨-, -, -, -, -, -, -, -, -, -, -, -, e60, e61⟩ := idx1 ⟨(i 0).val / 1024, ht⟩
  refine ⟨⟨(i 0).val / 1024, ht⟩, flush1_6 _, ?_⟩
  rw [mem_blk1_6]
  intro a
  match a with
  | ⟨0, _⟩ =>
    show win1_6.index ⟨(i 0).val / 1024, ht⟩ (0 : Fin 2) * 1024 ≤ (i 0).val
      ∧ (i 0).val < win1_6.index ⟨(i 0).val / 1024, ht⟩ (0 : Fin 2) * 1024 + 1024
    rw [e60]; show (i 0).val / 1024 * 1024 ≤ (i 0).val ∧ (i 0).val < (i 0).val / 1024 * 1024 + 1024; omega
  | ⟨1, _⟩ =>
    show win1_6.index ⟨(i 0).val / 1024, ht⟩ (1 : Fin 2) * 256 ≤ (i 1).val
      ∧ (i 1).val < win1_6.index ⟨(i 0).val / 1024, ht⟩ (1 : Fin 2) * 256 + 256
    rw [e61]; omega

/-- The array region 1 leaves: the cell, row by row. -/
theorem arr1 (c : Dev nD) (h a : S81920x256.Idx → EReal) (wih whh : S768x256.Idx → EReal) (b4 b5 : S1x768.Idx → EReal)
    (e0 : V c (Pipeline.arrRef spec1 0) = h) (e1 : V c (Pipeline.arrRef spec1 1) = a)
    (e2 : V c (Pipeline.arrRef spec1 2) = wih) (e3 : V c (Pipeline.arrRef spec1 3) = whh)
    (e4 : V c (Pipeline.arrRef spec1 4) = b4) (e5 : V c (Pipeline.arrRef spec1 5) = b5) :
    (dat1 (F := Ideal) V c).arrAt 6 cfg1.N
      = rowCell h a wih whh (fun j => b4 (ix2 (0 : Fin 1) j)) (fun j => b5 (ix2 (0 : Fin 1) j)) :=
  (dat1 (F := Ideal) V c).arrAt_eq_of_cover 6 _ (fun t _ => flushed1 V c t h a wih whh b4 b5 e0 e1 e2 e3 e4 e5) cover1_arr

end Region1

end Cert.Reg.Gru

namespace Cert.Reg

open Idealize.ShloMosaic Idealize.ShloMosaic.TcCoe Idealize.SL.Sem
open Idealize.ShloMosaic.ValueIdx
open Cert.KernelIdeal Cert.KernelIdeal.Gen

variable [Cert.ReferenceIdeal.Facts]

/-- Region 1: whatever the buffers hold when the region is entered, if its six input windows' arrays hold h, a, wih,
    whh and the two biases as one-row matrices, the output window's array ends holding the reference's cell. -/
theorem gru1_whole (V : (c : Dev nD) → (b : Ref sig .tc) → Buf (Elt Ideal) ((c : Thread nD τ).loc b)) (c : Dev nD)
    (h a : Cert.Rst.A Cert.ReferenceIdeal.S81920x256) (wih whh : Cert.Rst.A Cert.ReferenceIdeal.S768x256)
    (bih bhh : Cert.Rst.A Cert.ReferenceIdeal.S768)
    (e0 : V c (Pipeline.arrRef spec1 0) = h) (e1 : V c (Pipeline.arrRef spec1 1) = a)
    (e2 : V c (Pipeline.arrRef spec1 2) = wih) (e3 : V c (Pipeline.arrRef spec1 3) = whh)
    (e4 : V c (Pipeline.arrRef spec1 4) = shapeCast S1x768 bih shapeCasts_S768_S1x768)
    (e5 : V c (Pipeline.arrRef spec1 5) = shapeCast S1x768 bhh shapeCasts_S768_S1x768) :
    (dat1 (F := Ideal) V c).arrAt 6 cfg1.N = Cert.Rst.gru h a wih whh bih bhh :=
  (Gru.arr1 V c h a wih whh _ _ e0 e1 e2 e3 e4 e5).trans (Gru.gru_eq h a wih whh bih bhh).symm

end Cert.Reg

end
-- ==== Proof.RegGru.lean ====
/-
  The gated recurrent cell of the two message-passing rounds: the array each of the two kernel regions leaves is the
  reference's stage function of the arrays the region finds (`Cert.Reg.gru1_whole`, `Cert.Reg.gru3_whole`). The cell
  and its two spellings are in RegGruCell; region 1 is in RegGru1; region 3, the same kernel on the second round's
  arrays, is in RegGru3.
-/
import proofs.«425236_j80513456930926_1_alg».proof.Proof.RegGru1
import proofs.«425236_j80513456930926_1_alg».proof.Proof.RegGru3
-- ==== Proof.MaskRanges.lean ====
/-
  Position ranges read out of the precondition. The precondition of the claim is a printed predicate that ends in a
  conjunction; its last three conjuncts say that every token id x lies in [-49999, 50000], that every entry of the
  first row of the edge list lies in [-81920, 81920), and that every graph id lies in [-4096, 4096). Here the printed
  predicate being all ones is turned back into those three facts about the words read as signed integers, and from
  the first the range of x - 1: the subtraction does not wrap around, so x - 1 lies in [-50000, 50000).
-/
import proofs.«425236_j80513456930926_1_alg».proof.KernelIdeal
import proofs.«425236_j80513456930926_1_alg».proof.Pre_finite_inputs
import proofs.«425236_j80513456930926_1_alg».proof.Proof.Basics
import Idealize.ShloMosaic.PureOps.Ideal
import Idealize.ShloMosaic.Lib.StableHlo.Predicate
import Idealize.ShloMosaic.Lib.ReduceAll
import Idealize.ShloMosaic.Lib.ValueIdx

noncomputable section

namespace Cert.Masks

open Idealize.ShloMosaic Cert.KernelIdeal Cert.KernelIdeal.Facts₀

variable [Cert.KernelIdeal.Facts₀] [Cert.Pre_finite_inputs.Facts]

/-! ## Words: a comparison that holds, read on the signed values -/

theorem sge_toInt {w c : BitVec 32} (h : IntOp.cmpi .sge w c = 1#1) : c.toInt ≤ w.toInt := by
  unfold IntOp.cmpi at h
  simp only [BitVec.sle] at h
  exact of_decide_eq_true ((StableHlo.Predicate.ofBool_eq_one_iff _).1 h)

theorem sle_toInt {w c : BitVec 32} (h : IntOp.cmpi .sle w c = 1#1) : w.toInt ≤ c.toInt := by
  unfold IntOp.cmpi at h
  simp only [BitVec.sle] at h
  exact of_decide_eq_true ((StableHlo.Predicate.ofBool_eq_one_iff _).1 h)

theorem slt_toInt {w c : BitVec 32} (h : IntOp.cmpi .slt w c = 1#1) : w.toInt < c.toInt := by
  unfold IntOp.cmpi at h
  simp only [BitVec.slt] at h
  exact of_decide_eq_true ((StableHlo.Predicate.ofBool_eq_one_iff _).1 h)

/-- The scalar shape has one index. -/
instance subsingleton_scalar_idx : Subsingleton (⟨0, ![]⟩ : Shape).Idx := ⟨fun _ _ => funext fun d => d.elim0⟩

/-- `jnp.all` of "lo ≤ v and v ≤ hi" that came out one bounds every entry of v. -/
theorem all_sge_sle {s sc u : Shape} {axes : List (Fin s.rank)} [Subsingleton sc.Idx] (v lo hi : IVec s 32) (init : u.Idx → BitVec 1)
    (red : s.ReducesTo axes sc) (hu : 0 < u.numel) (j : sc.Idx)
    (e : Host.reduce IntOp.andi (andi (cmpi .sge v lo) (cmpi .sle v hi)) init red hu j = 1#1) (i : s.Idx) :
    (lo i).toInt ≤ (v i).toInt ∧ (v i).toInt ≤ (hi i).toInt := by
  have h := IntOp.andi_eq_one.1 (Host.reduce_andi_all _ init red hu j e i)
  exact ⟨sge_toInt h.1, sle_toInt h.2⟩

/-- `jnp.all` of "lo ≤ v and w < hi" that came out one bounds every entry (v and w are the one array read twice). -/
theorem all_sge_slt {s sc u : Shape} {axes : List (Fin s.rank)} [Subsingleton sc.Idx] (v w lo hi : IVec s 32) (init : u.Idx → BitVec 1)
    (red : s.ReducesTo axes sc) (hu : 0 < u.numel) (j : sc.Idx)
    (e : Host.reduce IntOp.andi (andi (cmpi .sge v lo) (cmpi .slt w hi)) init red hu j = 1#1) (i : s.Idx) :
    (lo i).toInt ≤ (v i).toInt ∧ (w i).toInt < (hi i).toInt := by
  have h := IntOp.andi_eq_one.1 (Host.reduce_andi_all _ init red hu j e i)
  exact ⟨sge_toInt h.1, slt_toInt h.2⟩

/-- The first row of the edge list, as the kernel program reads it: the slice [0:1, :] of the [2 × 163840] array, reshaped to a vector. -/
def srcRow (ei : IVec S2x163840 32) : IVec S163840 32 :=
  shapeCast S163840 (extractStridedSlice S1x163840 ![0, 0] ei slices_S2x163840_S1x163840_0_0) shapeCasts_S1x163840_S163840

/-- The precondition all ones gives the three position ranges. -/
theorem ranges_of_pre (x : IVec S81920 32) (ei : IVec S2x163840 32) (b : IVec S81920 32)
    (a3 : FVec Ideal S50000x256 .f32) (a4 : FVec Ideal S2x256x256 .f32) (a5 a6 : FVec Ideal S768x256 .f32)
    (a7 a8 : FVec Ideal S768 .f32) (a9 : FVec Ideal S256x256 .f32) (a10 : FVec Ideal S256 .f32)
    (a11 : FVec Ideal S256x256 .f32) (a12 : FVec Ideal S256 .f32) (a13 : FVec Ideal S1x256 .f32)
    (a14 : FVec Ideal S1 .f32) (a15 : FVec Ideal S256x512 .f32) (a16 : FVec Ideal S256 .f32)
    (h : Cert.Pre_finite_inputs.fn (F := Ideal) x ei b a3 a4 a5 a6 a7 a8 a9 a10 a11 a12 a13 a14 a15 a16 = fun _ => 1#1) :
    (∀ i, -49999 ≤ (x i).toInt ∧ (x i).toInt ≤ 50000)
      ∧ Cert.Ix.InRange 81920 (shapeCast S163840 (extractStridedSlice S1x163840 ![0, 0] ei slices_S2x163840_S1x163840_0_0) shapeCasts_S1x163840_S163840)
      ∧ Cert.Ix.InRange 4096 b := by
  have h0 := congrFun h (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h86, hb⟩ := IntOp.andi_eq_one.1 h0
  obtain ⟨h75, hs⟩ := IntOp.andi_eq_one.1 h86
  obtain ⟨_, hx⟩ := IntOp.andi_eq_one.1 h75
  have m49999 : (4294917297#32 : BitVec 32).toInt = -49999 := by decide
  have p50000 : (50000#32 : BitVec 32).toInt = 50000 := by decide
  have m81920 : (4294885376#32 : BitVec 32).toInt = -81920 := by decide
  have p81920 : (81920#32 : BitVec 32).toInt = 81920 := by decide
  have m4096 : (4294963200#32 : BitVec 32).toInt = -4096 := by decide
  have p4096 : (4096#32 : BitVec 32).toInt = 4096 := by decide
  refine ⟨fun i => ?_, fun i => ?_, fun i => ?_⟩
  · have hh := all_sge_sle _ _ _ _ _ _ _ hx i
    have h1 : (4294917297#32 : BitVec 32).toInt ≤ (x i).toInt := hh.1
    have h2 : (x i).toInt ≤ (50000#32 : BitVec 32).toInt := hh.2
    rw [m49999] at h1
    rw [p50000] at h2
    exact ⟨h1, h2⟩
  · have hh := all_sge_slt _ _ _ _ _ _ _ _ hs i
    have h1 : (4294885376#32 : BitVec 32).toInt ≤ _ := hh.1
    have h2 : _ < (81920#32 : BitVec 32).toInt := hh.2
    rw [m81920] at h1
    rw [p81920] at h2
    exact ⟨h1, h2⟩
  · have hh := all_sge_slt _ _ _ _ _ _ _ _ hb i
    have h1 : (4294963200#32 : BitVec 32).toInt ≤ (b i).toInt := hh.1
    have h2 : (b i).toInt < (4096#32 : BitVec 32).toInt := hh.2
    rw [m4096] at h1
    rw [p4096] at h2
    exact ⟨h1, h2⟩

/-- x - 1 does not wrap around when x lies in [-49999, 50000]: it lies in [-50000, 50000). -/
theorem xm1_inRange (x : IVec S81920 32) (hx : ∀ i, -49999 ≤ (x i).toInt ∧ (x i).toInt ≤ 50000) :
    Cert.Ix.InRange 50000 (subi x (broadcastInDim S81920 ![] bcast_S_S81920 (constantI S_ 32 1#32))) := by
  intro i
  obtain ⟨hlo, hhi⟩ := hx i
  have h1 : (1#32 : BitVec 32).toInt = 1 := by decide
  have hq : (2 ^ 32 : Nat) = 4294967296 := by norm_num
  show -50000 ≤ (x i - 1#32).toInt ∧ (x i - 1#32).toInt < 50000
  rw [BitVec.toInt_sub, h1, Int.bmod_def, hq]
  omega

end Cert.Masks

end
-- ==== Proof.MaskTakeCore.lean ====
/-
  Words and masks behind a guarded table read. A position that may count from the end — a 32-bit word in [-N, N),
  read signed — is shifted by N when it is negative; the shifted word then lies in [0, N-1] and the addition does not
  wrap around. So the two comparisons "shifted ≥ 0" and "shifted ≤ N-1" both hold at it, their conjunction is one,
  a reduction by "and" of a mask that is one everywhere is one everywhere, a broadcast of such a mask too, and a
  selection under it takes its first branch everywhere. Stated over any shapes: no coordinate is looked at.
-/
import proofs.«425236_j80513456930926_1_alg».proof.KernelIdeal
import proofs.«425236_j80513456930926_1_alg».proof.Proof.Basics
import Idealize.ShloMosaic.PureOps.Ideal
import Idealize.ShloMosaic.PureOps.Reduce
import Idealize.ShloMosaic.Lib.StableHlo.Predicate
import Idealize.ShloMosaic.Lib.ValueIdx

noncomputable section

namespace Cert.Masks

open Idealize.ShloMosaic Cert.KernelIdeal Cert.KernelIdeal.Facts₀

variable [Cert.KernelIdeal.Facts₀]

/-! ## Words: a position in [-N, N), shifted by N when negative, lies in [0, N-1] -/

/-- The signed reading of a small literal. -/
theorem toInt_lit (a : Nat) (ha : a < 2 ^ 31) : (BitVec.ofNat 32 a).toInt = (a : Int) :=
  StableHlo.Predicate.toInt_ofNat_small a ha

/-- A word in [-N, N), with N added when it is negative, lies in [0, N): the addition does not wrap around. -/
theorem wrap_toInt (N : Nat) (hN : N ≤ 2 ^ 30) (w : BitVec 32) (hlo : -(N : Int) ≤ w.toInt) (hhi : w.toInt < (N : Int)) :
    0 ≤ (Scalar.select (IntOp.cmpi .slt w 0#32) (IntOp.addi w (BitVec.ofNat 32 N)) w).toInt
      ∧ (Scalar.select (IntOp.cmpi .slt w 0#32) (IntOp.addi w (BitVec.ofNat 32 N)) w).toInt < (N : Int) := by
  have h0 : (0#32 : BitVec 32).toInt = 0 := by decide
  have hNi : (BitVec.ofNat 32 N).toInt = (N : Int) := toInt_lit N (by omega)
  have hN' : (N : Int) ≤ 1073741824 := by exact_mod_cast hN
  unfold Scalar.select IntOp.cmpi IntOp.addi
  by_cases hneg : w.toInt < 0
  · have hc : BitVec.ofBool (w.slt 0#32) = 1 := by
      simp only [BitVec.slt, h0, hneg, decide_true]; rfl
    rw [if_pos hc, BitVec.toInt_add, hNi, Int.bmod_def]
    have hq : (2 ^ 32 : Nat) = 4294967296 := by norm_num
    rw [hq]
    omega
  · have hc : ¬ BitVec.ofBool (w.slt 0#32) = 1 := by
      simp only [BitVec.slt, h0, hneg, decide_false]; decide
    rw [if_neg hc]
    omega

/-- The two comparisons of the check, at a word of [0, N-1]. -/
theorem sge_zero_of (w : BitVec 32) (h : 0 ≤ w.toInt) : IntOp.cmpi .sge w 0#32 = 1#1 := by
  have h0 : (0#32 : BitVec 32).toInt = 0 := by decide
  unfold IntOp.cmpi
  simp only [BitVec.sle, h0, h, decide_true]; rfl

theorem sle_lit_of (w : BitVec 32) (M : Nat) (hM : M < 2 ^ 31) (h : w.toInt ≤ (M : Int)) :
    IntOp.cmpi .sle w (BitVec.ofNat 32 M) = 1#1 := by
  unfold IntOp.cmpi
  simp only [BitVec.sle, toInt_lit M hM, h, decide_true]; rfl

/-! ## A reduction by "and" of a mask that is one everywhere is one everywhere -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x hx _

/-- A selection under a mask that is one at every position takes its first branch everywhere. -/
theorem select_of_ones {α : Type} {s : Shape} (c : IVec s 1) (a b : s.Idx → α) (hc : ∀ p, c p = 1#1) : select c a b = a := by
  funext p
  rw [ValueIdx.select_apply, hc p]
  rfl

/-! ## The check's mask -/

/-- A broadcast of an array that is one everywhere is one everywhere. -/
theorem bcast_ones {s t : Shape} (dims : Fin s.rank → Fin t.rank) (h : s.BroadcastsInDim t dims) (x : IVec s 1)
    (hx : ∀ j, x j = 1#1) (k : t.Idx) : broadcastInDim t dims h x k = 1#1 := hx _

/-- At one position: the shifted word passes both comparisons of the check. -/
theorem check_word (N M : Nat) (hM : M + 1 = N) (hN : N ≤ 2 ^ 30) (w : BitVec 32)
    (hlo : -(N : Int) ≤ w.toInt) (hhi : w.toInt < (N : Int)) :
    IntOp.andi
      (IntOp.cmpi .sge (Scalar.select (IntOp.cmpi .slt w 0#32) (IntOp.addi w (BitVec.ofNat 32 N)) w) 0#32)
      (IntOp.cmpi .sle (Scalar.select (IntOp.cmpi .slt w 0#32) (IntOp.addi w (BitVec.ofNat 32 N)) w) (BitVec.ofNat 32 M)) = 1#1 := by
  obtain ⟨h0, h1⟩ := wrap_toInt N hN w hlo hhi
  rw [sge_zero_of _ h0, sle_lit_of _ M (by omega) (by omega)]
  decide

/-- The mask of the check — the reduction by "and", along the unit axis, of "shifted position ≥ 0 and ≤ N-1" — is one at
    every row when every position lies in [-N, N). Stated over any shapes: no coordinate is looked at. -/
theorem mask_ones {sn sn1 s0 s1 s11 su : Shape} {axes : List (Fin sn1.rank)} (N M : Nat) (hM : M + 1 = N) (hN : N ≤ 2 ^ 30)
    (d0 : Fin s0.rank → Fin sn.rank) (b0 : s0.BroadcastsInDim sn d0)
    (d1 : Fin sn.rank → Fin sn1.rank) (b1 : sn.BroadcastsInDim sn1 d1)
    (d2 : Fin s0.rank → Fin sn1.rank) (b2 : s0.BroadcastsInDim sn1 d2)
    (d3 : Fin s1.rank → Fin s11.rank) (b3 : s1.BroadcastsInDim s11 d3)
    (d4 : Fin s11.rank → Fin sn1.rank) (b4 : s11.BroadcastsInDim sn1 d4)
    (red : sn1.ReducesTo axes sn) (hu : 0 < su.numel)
    (i : IVec sn 32) (hi : ∀ j, -(N : Int) ≤ (i j).toInt ∧ (i j).toInt < (N : Int)) (j : sn.Idx) :
    Host.reduce IntOp.andi
      (andi
        (cmpi .sge
          (broadcastInDim sn1 d1 b1 (select (cmpi .slt i (broadcastInDim sn d0 b0 (constantI s0 32 0#32))) (addi i (broadcastInDim sn d0 b0 (constantI s0 32 (BitVec.ofNat 32 N)))) i))
          (broadcastInDim sn1 d2 b2 (constantI s0 32 0#32)))
        (cmpi .sle
          (broadcastInDim sn1 d1 b1 (select (cmpi .slt i (broadcastInDim sn d0 b0 (constantI s0 32 0#32))) (addi i (broadcastInDim sn d0 b0 (constantI s0 32 (BitVec.ofNat 32 N)))) i))
          (broadcastInDim sn1 d4 b4 (broadcastInDim s11 d3 b3 (constantI s1 32 (BitVec.ofNat 32 M))))))
      (constantI su 1 1#1) red hu j = 1#1 := by
  refine reduce_andi_ones _ _ red hu (fun _ => rfl) (fun k => ?_) j
  exact check_word N M hM hN _ (hi _).1 (hi _).2

end Cert.Masks

end
-- ==== Proof.MaskTake.lean ====
/-
  A table read through a guarded position. The kernel program reads rows of a table at positions that may count from
  the end: a negative position p stands for p + N (N the number of rows). It then checks that the shifted position lies
  in [0, N-1], reads the row at the shifted position, and replaces the whole row by a quiet-NaN constant where the check
  fails. When every position lies in [-N, N) the shifted position always lies in [0, N-1], the check holds at every
  row, and the guarded read is the plain row read at the shifted positions. The facts about words and masks are in
  MaskTakeCore; the four table reads of the program, each over a table and a position vector of its literal shapes,
  and their equations are in MaskTakeTab. This module gathers both.
-/
import proofs.«425236_j80513456930926_1_alg».proof.Proof.MaskTakeCore
import proofs.«425236_j80513456930926_1_alg».proof.Proof.MaskTakeTab
-- ==== Proof.Masks.lean ====
/-
  The position ranges read out of the precondition (MaskRanges), the guarded table reads and their equations
  (MaskTake), and the agreement of the two programs' dimension records (MaskRecordsTab), gathered. Each program
  states its gather and scatter dimension numbers as a record of its own; the records of the row gathers and of the
  scatter-adds that both programs perform carry the same numbers, and differ only in the proof of well-formedness they
  hold, so they are equal. (The shape relations the programs cite for broadcasts, reductions, slices, reshapes, windows
  and concatenations are propositions: any two proofs of one of them are equal, and nothing is stated for them.)
-/
import proofs.«425236_j80513456930926_1_alg».proof.Defs
import proofs.«425236_j80513456930926_1_alg».proof.Proof.MaskRanges
import proofs.«425236_j80513456930926_1_alg».proof.Proof.MaskTake
import proofs.«425236_j80513456930926_1_alg».proof.Proof.MaskRecordsTab
-- ==== Proof.KernelA.lean ====
/-
  The kernel program's run, followed from the launch memory to the node states after the second message-passing
  round. The program alternates stretches of host operations with kernel regions; the buffer contents at each
  boundary are a fold from the launch memory. Here each boundary's relevant buffers are identified with the
  reference computation's stage functions applied to the launch contents of the argument arrays:

    h0   = rows of the embedding table at the positions x − 1 (a negative position counting from the end),
    src, dst = the two rows of the edge list,
    m_k  = h_{k-1} · W_k                 (a kernel region: the matrix product),
    agg_k = for every edge, row src of m_k added into row dst of a zero matrix   (host operations),
    h_k  = the gated recurrent cell of (h_{k-1}, agg_k)                          (a kernel region),  k = 1, 2.

  The host stretches of the kernel program apply the same pure operations as the reference, except that a table
  read is guarded (rows at positions outside the table are replaced by a NaN constant): with the positions in
  range the guarded read is the plain read. A region's output array is the stage function of its input arrays,
  which hold what the earlier boundaries left there because nothing in between writes them.
-/
import proofs.«425236_j80513456930926_1_alg».proof.Proof.Gen.KernelIdeal.Frame
import proofs.«425236_j80513456930926_1_alg».proof.Proof.KernelATab
import proofs.«425236_j80513456930926_1_alg».proof.Proof.Basics
import proofs.«425236_j80513456930926_1_alg».proof.Proof.RefStages
import proofs.«425236_j80513456930926_1_alg».proof.Proof.RegProj
import proofs.«425236_j80513456930926_1_alg».proof.Proof.RegGru
import proofs.«425236_j80513456930926_1_alg».proof.Proof.Masks
import Idealize.ShloMosaic.Lib.StableHlo.Run

set_option maxRecDepth 16384

noncomputable section

namespace Cert.KernelIdeal.Walk

open Idealize.ShloMosaic Idealize.ShloMosaic.TcCoe
open Idealize.SL.Sem
open Cert.KernelIdeal Cert.KernelIdeal.Gen

variable [Cert.ReferenceIdeal.Facts]
variable (m : (ℓ : Loc nD τ sig) → Buf (Elt Ideal) ℓ) (ρ : Dev nD → PrngReg)

/-! ## The argument arrays as launched, and the stage values built from them -/

/-- The node ids. -/
abbrev a0 (c : Dev nD) : Cert.Rst.I Cert.ReferenceIdeal.S81920 := m ((c : Thread nD τ).loc main_arg0)
/-- The edge list. -/
abbrev a1 (c : Dev nD) : Cert.Rst.I Cert.ReferenceIdeal.S2x163840 := m ((c : Thread nD τ).loc main_arg1)
/-- The embedding table. -/
abbrev a3 (c : Dev nD) : Cert.Rst.A Cert.ReferenceIdeal.S50000x256 := m ((c : Thread nD τ).loc main_arg3)
/-- The two rounds' 256 x 256 weights. -/
abbrev a4 (c : Dev nD) : Cert.Rst.A Cert.ReferenceIdeal.S2x256x256 := m ((c : Thread nD τ).loc main_arg4)
/-- The cell's input weight. -/
abbrev a5 (c : Dev nD) : Cert.Rst.A Cert.ReferenceIdeal.S768x256 := m ((c : Thread nD τ).loc main_arg5)
/-- The cell's state weight. -/
abbrev a6 (c : Dev nD) : Cert.Rst.A Cert.ReferenceIdeal.S768x256 := m ((c : Thread nD τ).loc main_arg6)
/-- The cell's input bias. -/
abbrev a7 (c : Dev nD) : Cert.Rst.A Cert.ReferenceIdeal.S768 := m ((c : Thread nD τ).loc main_arg7)
/-- The cell's state bias. -/
abbrev a8 (c : Dev nD) : Cert.Rst.A Cert.ReferenceIdeal.S768 := m ((c : Thread nD τ).loc main_arg8)

/-- The positions read from the embedding table before a negative one is shifted: every node id less one. -/
def xm1 (c : Dev nD) : IVec S81920 32 :=
  subi (a0 m c) (broadcastInDim S81920 ![] bcast_S_S81920 (constantI S_ 32 1#32))

/-- The node states before the first round. -/
abbrev h0v (c : Dev nD) : Cert.Rst.A Cert.ReferenceIdeal.S81920x256 := Cert.Rst.h0 (a3 m c) (a0 m c)
/-- Every edge's source node. -/
abbrev srcv (c : Dev nD) : Cert.Rst.I Cert.ReferenceIdeal.S163840 := Cert.Rst.src (a1 m c)
/-- Every edge's target node. -/
abbrev dstv (c : Dev nD) : Cert.Rst.I Cert.ReferenceIdeal.S163840 := Cert.Rst.dst (a1 m c)
/-- The first round's messages. -/
abbrev m1v (c : Dev nD) : Cert.Rst.A Cert.ReferenceIdeal.S81920x256 := Cert.Rst.proj (h0v m c) (Cert.Rst.gw0 (a4 m c))
/-- The first round's messages summed into their target nodes. -/
abbrev agg1v (c : Dev nD) : Cert.Rst.A Cert.ReferenceIdeal.S81920x256 := Cert.Rst.agg (m1v m c) (srcv m c) (dstv m c)
/-- The node states after the first round. -/
abbrev h1v (c : Dev nD) : Cert.Rst.A Cert.ReferenceIdeal.S81920x256 :=
  Cert.Rst.gru (h0v m c) (agg1v m c) (a5 m c) (a6 m c) (a7 m c) (a8 m c)
/-- The second round's messages. -/
abbrev m2v (c : Dev nD) : Cert.Rst.A Cert.ReferenceIdeal.S81920x256 := Cert.Rst.proj (h1v m c) (Cert.Rst.gw1 (a4 m c))
/-- The second round's messages summed into their target nodes. -/
abbrev agg2v (c : Dev nD) : Cert.Rst.A Cert.ReferenceIdeal.S81920x256 := Cert.Rst.agg (m2v m c) (srcv m c) (dstv m c)
/-- The node states after the second round. -/
abbrev h2v (c : Dev nD) : Cert.Rst.A Cert.ReferenceIdeal.S81920x256 :=
  Cert.Rst.gru (h1v m c) (agg2v m c) (a5 m c) (a6 m c) (a7 m c) (a8 m c)

/-- A buffer that none of a host stretch's operations writes holds after the stretch what it held before. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Typed references: contents moved to a buffer's own type and back are unchanged -/

theorem ofBuf_toBuf {T : BufTy} (x : StableHlo.TRef sig T) (v : T.Contents (Elt Ideal)) :
    x.ofBuf (x.toBuf v) = v := by
  unfold StableHlo.TRef.ofBuf StableHlo.TRef.toBuf
  rw [cast_cast, cast_eq]

/-! ## The edge sum's second half, as the kernel program's host operations spell it -/

/-- The rows `u` (one per edge) added into a zero matrix at the target positions `d`, a negative position counting
    from the end. -/
def scat (d : IVec S163840 32) (u : FVec Ideal S163840x256 .f32) : FVec Ideal S81920x256 .f32 :=
  Host.scatterAdd scatter_S81920x256_S163840x1_S163840x256_1_0_0_1 (broadcastInDim S81920x256 ![] bcast_S_S81920x256 (constant (F := Ideal) S_ .f32 0x00000000#32)) (broadcastInDim S163840x1 ![0] bcast_S163840_S163840x1_0 (select (cmpi .slt d (broadcastInDim S163840 ![] bcast_S_S163840 (constantI S_ 32 0#32))) (addi d (broadcastInDim S163840 ![] bcast_S_S163840 (constantI S_ 32 81920#32))) d)) u

/-- The guarded read of the rows at the source positions, summed into the target rows, is the reference's edge sum
    when the source positions are in range. -/
theorem scat_take1 (mm : FVec Ideal S81920x256 .f32) (s d : IVec S163840 32) (hs : Cert.Ix.InRange 81920 s) :
    scat d (Cert.Masks.take1 mm s) = Cert.Rst.agg mm s d := by
  rw [Cert.Masks.take1_eq mm s hs]
  unfold scat Cert.Rst.agg
  rfl

/-! ## What one host stretch leaves in a buffer, from any contents `V` before it -/

section Reads
variable (V : Valuation τ sig (Elt Ideal))

/-- The first stretch: every node id less one. -/
theorem read_v1 : StableHlo.after hostOps0 V (Proc.devRef .tc main_v1)
    = subi (V (Proc.devRef .tc main_arg0) : IVec S81920 32) (broadcastInDim S81920 ![] bcast_S_S81920 (constantI S_ 32 1#32)) := by
  simp only [hostOps0]
  after_results_simp

/-- The guarded read of the embedding table. -/
theorem read_v2 : StableHlo.after hostOps0_1 V (Proc.devRef .tc main_v2)
    = Cert.Masks.take0 (V (Proc.devRef .tc main_arg3)) (V (Proc.devRef .tc main_v1)) := by
  simp only [hostOps0_1]
  after_results_simp
  simp only [ofBuf_toBuf, ofBuf_v1, ofBuf_arg3]
  refine (toBuf_v2 _ _ _ _).trans ?_
  unfold Cert.Masks.take0
  rfl

theorem read_v4 : StableHlo.after hostOps0_2 V (Proc.devRef .tc main_v4) = Cert.Rst.src (V (Proc.devRef .tc main_arg1)) := by
  simp only [hostOps0_2]
  after_results_simp
  rfl

theorem read_v6 : StableHlo.after hostOps0_2 V (Proc.devRef .tc main_v6) = Cert.Rst.dst (V (Proc.devRef .tc main_arg1)) := by
  simp only [hostOps0_2]
  after_results_simp
  rfl

theorem read_v7 : StableHlo.after hostOps0_2 V (Proc.devRef .tc main_v7) = (V (Proc.devRef .tc main_arg5) : FVec Ideal S768x256 .f32) := by
  simp only [hostOps0_2]
  after_results_simp
  rfl

theorem read_v8 : StableHlo.after hostOps0_2 V (Proc.devRef .tc main_v8) = (V (Proc.devRef .tc main_arg6) : FVec Ideal S768x256 .f32) := by
  simp only [hostOps0_2]
  after_results_simp
  rfl

theorem read_v9 : StableHlo.after hostOps0_2 V (Proc.devRef .tc main_v9)
    = shapeCast S1x768 (V (Proc.devRef .tc main_arg7) : FVec Ideal S768 .f32) shapeCasts_S768_S1x768 := by
  simp only [hostOps0_2]
  after_results_simp
  rfl

theorem read_v10 : StableHlo.after hostOps0_2 V (Proc.devRef .tc main_v10)
    = shapeCast S1x768 (V (Proc.devRef .tc main_arg8) : FVec Ideal S768 .f32) shapeCasts_S768_S1x768 := by
  simp only [hostOps0_2]
  after_results_simp
  rfl

theorem read_v13 : StableHlo.after hostOps0_2 V (Proc.devRef .tc main_v13) = Cert.Rst.gw0 (V (Proc.devRef .tc main_arg4)) := by
  simp only [hostOps0_2]
  after_results_simp
  rfl

/-- The guarded read of the first round's messages at the source positions. -/
theorem read_v15 : StableHlo.after hostOps1 V (Proc.devRef .tc main_v15)
    = Cert.Masks.take1 (V (Proc.devRef .tc main_v14)) (V (Proc.devRef .tc main_v4)) := by
  simp only [hostOps1]
  after_results_simp
  simp only [ofBuf_toBuf, ofBuf_v4, ofBuf_v14]
  refine (toBuf_v15 _ _ _ _).trans ?_
  unfold Cert.Masks.take1
  rfl

theorem read_v23 : StableHlo.after hostOps1_1 V (Proc.devRef .tc main_v23)
    = scat (V (Proc.devRef .tc main_v6)) (V (Proc.devRef .tc main_v15)) := by
  simp only [hostOps1_1]
  after_results_simp
  rfl

theorem read_v27 : StableHlo.after hostOps2 V (Proc.devRef .tc main_v27) = Cert.Rst.gw1 (V (Proc.devRef .tc main_arg4)) := by
  simp only [hostOps2]
  after_results_simp
  rfl

/-- The guarded read of the second round's messages at the source positions. -/
theorem read_v29 : StableHlo.after hostOps3 V (Proc.devRef .tc main_v29)
    = Cert.Masks.take1 (V (Proc.devRef .tc main_v28)) (V (Proc.devRef .tc main_v4)) := by
  simp only [hostOps3]
  after_results_simp
  simp only [ofBuf_toBuf, ofBuf_v4, ofBuf_v28]
  refine (toBuf_v29 _ _ _ _).trans ?_
  unfold Cert.Masks.take1
  rfl

theorem read_v37 : StableHlo.after hostOps3_1 V (Proc.devRef .tc main_v37)
    = scat (V (Proc.devRef .tc main_v6)) (V (Proc.devRef .tc main_v29)) := by
  simp only [hostOps3_1]
  after_results_simp
  rfl

end Reads

/-! ## A region leaves its input windows' arrays as it found them -/

theorem W4_in (c : Dev nD) (w : Fin cfg0.W) (hin : (cfg0.win w).isOut = false) :
    W4 (F := Ideal) m ρ c (Proc.devRef .tc (Pipeline.arrRef spec0 w)) = W3 m ρ c (Proc.devRef .tc (Pipeline.arrRef spec0 w)) :=
  (W4_arr m ρ c w).trans (((dat0 (V3 m ρ) c).arrAt_in w hin cfg0.N).trans (A_eq0 (V3 m ρ) c w))

theorem W7_in (c : Dev nD) (w : Fin cfg1.W) (hin : (cfg1.win w).isOut = false) :
    W7 (F := Ideal) m ρ c (Proc.devRef .tc (Pipeline.arrRef spec1 w)) = W6 m ρ c (Proc.devRef .tc (Pipeline.arrRef spec1 w)) :=
  (W7_arr m ρ c w).trans (((dat1 (V6 m ρ) c).arrAt_in w hin cfg1.N).trans (A_eq1 (V6 m ρ) c w))

theorem W9_in (c : Dev nD) (w : Fin cfg2.W) (hin : (cfg2.win w).isOut = false) :
    W9 (F := Ideal) m ρ c (Proc.devRef .tc (Pipeline.arrRef spec2 w)) = W8 m ρ c (Proc.devRef .tc (Pipeline.arrRef spec2 w)) :=
  (W9_arr m ρ c w).trans (((dat2 (V8 m ρ) c).arrAt_in w hin cfg2.N).trans (A_eq2 (V8 m ρ) c w))

/-! ## Before the first region -/

theorem W1_v1 (c : Dev nD) : W1 (F := Ideal) m ρ c (Proc.devRef .tc main_v1) = xm1 m c :=
  read_v1 (W0 m ρ c)

theorem W1_arg3 (c : Dev nD) : W1 (F := Ideal) m ρ c (Proc.devRef .tc main_arg3) = a3 m c := by
  host_keep hostOps0

/-- The embedding rows: the guarded table read at the positions x − 1, which are in range. -/
theorem W3_v2 (c : Dev nD) (hx : Cert.Ix.InRange 50000 (xm1 m c)) :
    W3 (F := Ideal) m ρ c (Proc.devRef .tc main_v2) = h0v m c :=
  calc W3 (F := Ideal) m ρ c (Proc.devRef .tc main_v2)
    _ = W2 m ρ c (Proc.devRef .tc main_v2) := by host_keep hostOps0_2
    _ = Cert.Masks.take0 (W1 m ρ c (Proc.devRef .tc main_arg3)) (W1 m ρ c (Proc.devRef .tc main_v1)) := read_v2 (W1 m ρ c)
    _ = Cert.Masks.take0 (a3 m c) (xm1 m c) := by rw [W1_arg3 m ρ c, W1_v1 m ρ c]
    _ = _ := Cert.Masks.take0_eq _ _ hx
    _ = h0v m c := by unfold h0v Cert.Rst.h0 xm1; rfl

theorem W3_v4 (c : Dev nD) : W3 (F := Ideal) m ρ c (Proc.devRef .tc main_v4) = srcv m c :=
  (read_v4 (W2 m ρ c)).trans (congrArg Cert.Rst.src (W2_arg1 m ρ c))

theorem W3_v6 (c : Dev nD) : W3 (F := Ideal) m ρ c (Proc.devRef .tc main_v6) = dstv m c :=
  (read_v6 (W2 m ρ c)).trans (congrArg Cert.Rst.dst (W2_arg1 m ρ c))

theorem W3_v7 (c : Dev nD) : W3 (F := Ideal) m ρ c (Proc.devRef .tc main_v7) = a5 m c :=
  (read_v7 (W2 m ρ c)).trans (W2_arg5 m ρ c)

theorem W3_v8 (c : Dev nD) : W3 (F := Ideal) m ρ c (Proc.devRef .tc main_v8) = a6 m c :=
  (read_v8 (W2 m ρ c)).trans (W2_arg6 m ρ c)

theorem W3_v9 (c : Dev nD) :
    W3 (F := Ideal) m ρ c (Proc.devRef .tc main_v9) = shapeCast S1x768 (a7 m c) shapeCasts_S768_S1x768 :=
  (read_v9 (W2 m ρ c)).trans (congrArg (fun b : FVec Ideal S768 .f32 => shapeCast S1x768 b shapeCasts_S768_S1x768) (W2_arg7 m ρ c))

theorem W3_v10 (c : Dev nD) :
    W3 (F := Ideal) m ρ c (Proc.devRef .tc main_v10) = shapeCast S1x768 (a8 m c) shapeCasts_S768_S1x768 :=
  (read_v10 (W2 m ρ c)).trans (congrArg (fun b : FVec Ideal S768 .f32 => shapeCast S1x768 b shapeCasts_S768_S1x768) (W2_arg8 m ρ c))

theorem W3_v13 (c : Dev nD) : W3 (F := Ideal) m ρ c (Proc.devRef .tc main_v13) = Cert.Rst.gw0 (a4 m c) :=
  (read_v13 (W2 m ρ c)).trans (congrArg Cert.Rst.gw0 (W2_arg4 m ρ c))

/-! ## The first round -/

/-- The first region's output array is the matrix product of its two input arrays. -/
theorem W4_v14 (c : Dev nD) (hx : Cert.Ix.InRange 50000 (xm1 m c)) :
    W4 (F := Ideal) m ρ c (Proc.devRef .tc main_v14) = m1v m c :=
  (W4_arr m ρ c 2).trans
    (Cert.Reg.proj0_whole (V3 m ρ) c (h0v m c) (Cert.Rst.gw0 (a4 m c)) (W3_v2 m ρ c hx) (W3_v13 m ρ c))

theorem W4_v4 (c : Dev nD) : W4 (F := Ideal) m ρ c (Proc.devRef .tc main_v4) = srcv m c :=
  (W4_of_ne m ρ c main_v4 (by decide)).trans (W3_v4 m ρ c)

theorem W5_v6 (c : Dev nD) : W5 (F := Ideal) m ρ c (Proc.devRef .tc main_v6) = dstv m c :=
  calc W5 (F := Ideal) m ρ c (Proc.devRef .tc main_v6)
    _ = W4 m ρ c (Proc.devRef .tc main_v6) := by host_keep hostOps1
    _ = W3 m ρ c (Proc.devRef .tc main_v6) := W4_of_ne m ρ c main_v6 (by decide)
    _ = dstv m c := W3_v6 m ρ c

theorem W5_v15 (c : Dev nD) (hx : Cert.Ix.InRange 50000 (xm1 m c)) :
    W5 (F := Ideal) m ρ c (Proc.devRef .tc main_v15) = Cert.Masks.take1 (m1v m c) (srcv m c) :=
  (read_v15 (W4 m ρ c)).trans (by rw [W4_v14 m ρ c hx, W4_v4 m ρ c])

/-- The messages summed over the edges: the guarded read at the sources, which are in range, then the scatter-add. -/
theorem W6_v23 (c : Dev nD) (hx : Cert.Ix.InRange 50000 (xm1 m c)) (hs : Cert.Ix.InRange 81920 (srcv m c)) :
    W6 (F := Ideal) m ρ c (Proc.devRef .tc main_v23) = agg1v m c :=
  calc W6 (F := Ideal) m ρ c (Proc.devRef .tc main_v23)
    _ = scat (W5 m ρ c (Proc.devRef .tc main_v6)) (W5 m ρ c (Proc.devRef .tc main_v15)) := read_v23 (W5 m ρ c)
    _ = scat (dstv m c) (Cert.Masks.take1 (m1v m c) (srcv m c)) := by rw [W5_v6 m ρ c, W5_v15 m ρ c hx]
    _ = agg1v m c := scat_take1 (m1v m c) (srcv m c) (dstv m c) hs

theorem W6_v2 (c : Dev nD) (hx : Cert.Ix.InRange 50000 (xm1 m c)) : W6 (F := Ideal) m ρ c (Proc.devRef .tc main_v2) = h0v m c :=
  calc W6 (F := Ideal) m ρ c (Proc.devRef .tc main_v2)
    _ = W5 m ρ c (Proc.devRef .tc main_v2) := by host_keep hostOps1_1
    _ = W4 m ρ c (Proc.devRef .tc main_v2) := by host_keep hostOps1
    _ = W3 m ρ c (Proc.devRef .tc main_v2) := W4_in m ρ c 0 rfl
    _ = h0v m c := W3_v2 m ρ c hx

theorem W6_v7 (c : Dev nD) : W6 (F := Ideal) m ρ c (Proc.devRef .tc main_v7) = a5 m c :=
  (W6_v7_of_W3 m ρ c).trans (W3_v7 m ρ c)

theorem W6_v8 (c : Dev nD) : W6 (F := Ideal) m ρ c (Proc.devRef .tc main_v8) = a6 m c :=
  (W6_v8_of_W3 m ρ c).trans (W3_v8 m ρ c)

theorem W6_v9 (c : Dev nD) :
    W6 (F := Ideal) m ρ c (Proc.devRef .tc main_v9) = shapeCast S1x768 (a7 m c) shapeCasts_S768_S1x768 :=
  (W6_v9_of_W3 m ρ c).trans (W3_v9 m ρ c)

theorem W6_v10 (c : Dev nD) :
    W6 (F := Ideal) m ρ c (Proc.devRef .tc main_v10) = shapeCast S1x768 (a8 m c) shapeCasts_S768_S1x768 :=
  (W6_v10_of_W3 m ρ c).trans (W3_v10 m ρ c)

/-- The second region's output array is the cell of its input arrays. -/
theorem W7_v24 (c : Dev nD) (hx : Cert.Ix.InRange 50000 (xm1 m c)) (hs : Cert.Ix.InRange 81920 (srcv m c)) :
    W7 (F := Ideal) m ρ c (Proc.devRef .tc main_v24) = h1v m c :=
  (W7_arr m ρ c 6).trans
    (Cert.Reg.gru1_whole (V6 m ρ) c (h0v m c) (agg1v m c) (a5 m c) (a6 m c) (a7 m c) (a8 m c)
      (W6_v2 m ρ c hx) (W6_v23 m ρ c hx hs) (W6_v7 m ρ c) (W6_v8 m ρ c) (W6_v9 m ρ c) (W6_v10 m ρ c))

/-! ## The second round -/

theorem W7_arg4 (c : Dev nD) : W7 (F := Ideal) m ρ c (Proc.devRef .tc main_arg4) = a4 m c :=
  calc W7 (F := Ideal) m ρ c (Proc.devRef .tc main_arg4)
    _ = W6 m ρ c (Proc.devRef .tc main_arg4) := W7_of_ne m ρ c main_arg4 (by decide)
    _ = W5 m ρ c (Proc.devRef .tc main_arg4) := by host_keep hostOps1_1
    _ = W4 m ρ c (Proc.devRef .tc main_arg4) := by host_keep hostOps1
    _ = W3 m ρ c (Proc.devRef .tc main_arg4) := W4_of_ne m ρ c main_arg4 (by decide)
    _ = W2 m ρ c (Proc.devRef .tc main_arg4) := by host_keep hostOps0_2
    _ = a4 m c := W2_arg4 m ρ c

theorem W8_v24 (c : Dev nD) (hx : Cert.Ix.InRange 50000 (xm1 m c)) (hs : Cert.Ix.InRange 81920 (srcv m c)) :
    W8 (F := Ideal) m ρ c (Proc.devRef .tc main_v24) = h1v m c :=
  calc W8 (F := Ideal) m ρ c (Proc.devRef .tc main_v24)
    _ = W7 m ρ c (Proc.devRef .tc main_v24) := by host_keep hostOps2
    _ = h1v m c := W7_v24 m ρ c hx hs

theorem W8_v27 (c : Dev nD) : W8 (F := Ideal) m ρ c (Proc.devRef .tc main_v27) = Cert.Rst.gw1 (a4 m c) :=
  (read_v27 (W7 m ρ c)).trans (congrArg Cert.Rst.gw1 (W7_arg4 m ρ c))

/-- The third region's output array is the matrix product of its two input arrays. -/
theorem W9_v28 (c : Dev nD) (hx : Cert.Ix.InRange 50000 (xm1 m c)) (hs : Cert.Ix.InRange 81920 (srcv m c)) :
    W9 (F := Ideal) m ρ c (Proc.devRef .tc main_v28) = m2v m c :=
  (W9_arr m ρ c 2).trans
    (Cert.Reg.proj2_whole (V8 m ρ) c (h1v m c) (Cert.Rst.gw1 (a4 m c)) (W8_v24 m ρ c hx hs) (W8_v27 m ρ c))

theorem W9_v4 (c : Dev nD) : W9 (F := Ideal) m ρ c (Proc.devRef .tc main_v4) = srcv m c :=
  calc W9 (F := Ideal) m ρ c (Proc.devRef .tc main_v4)
    _ = W8 m ρ c (Proc.devRef .tc main_v4) := W9_of_ne m ρ c main_v4 (by decide)
    _ = W7 m ρ c (Proc.devRef .tc main_v4) := by host_keep hostOps2
    _ = W6 m ρ c (Proc.devRef .tc main_v4) := W7_of_ne m ρ c main_v4 (by decide)
    _ = W5 m ρ c (Proc.devRef .tc main_v4) := by host_keep hostOps1_1
    _ = W4 m ρ c (Proc.devRef .tc main_v4) := by host_keep hostOps1
    _ = srcv m c := W4_v4 m ρ c

theorem W10_v6 (c : Dev nD) : W10 (F := Ideal) m ρ c (Proc.devRef .tc main_v6) = dstv m c :=
  calc W10 (F := Ideal) m ρ c (Proc.devRef .tc main_v6)
    _ = W9 m ρ c (Proc.devRef .tc main_v6) := by host_keep hostOps3
    _ = W8 m ρ c (Proc.devRef .tc main_v6) := W9_of_ne m ρ c main_v6 (by decide)
    _ = W7 m ρ c (Proc.devRef .tc main_v6) := by host_keep hostOps2
    _ = W6 m ρ c (Proc.devRef .tc main_v6) := W7_of_ne m ρ c main_v6 (by decide)
    _ = W5 m ρ c (Proc.devRef .tc main_v6) := by host_keep hostOps1_1
    _ = dstv m c := W5_v6 m ρ c

theorem W10_v29 (c : Dev nD) (hx : Cert.Ix.InRange 50000 (xm1 m c)) (hs : Cert.Ix.InRange 81920 (srcv m c)) :
    W10 (F := Ideal) m ρ c (Proc.devRef .tc main_v29) = Cert.Masks.take1 (m2v m c) (srcv m c) :=
  (read_v29 (W9 m ρ c)).trans (by rw [W9_v28 m ρ c hx hs, W9_v4 m ρ c])

theorem W11_v37 (c : Dev nD) (hx : Cert.Ix.InRange 50000 (xm1 m c)) (hs : Cert.Ix.InRange 81920 (srcv m c)) :
    W11 (F := Ideal) m ρ c (Proc.devRef .tc main_v37) = agg2v m c :=
  calc W11 (F := Ideal) m ρ c (Proc.devRef .tc main_v37)
    _ = scat (W10 m ρ c (Proc.devRef .tc main_v6)) (W10 m ρ c (Proc.devRef .tc main_v29)) := read_v37 (W10 m ρ c)
    _ = scat (dstv m c) (Cert.Masks.take1 (m2v m c) (srcv m c)) := by rw [W10_v6 m ρ c, W10_v29 m ρ c hx hs]
    _ = agg2v m c := scat_take1 (m2v m c) (srcv m c) (dstv m c) hs

theorem W11_v24 (c : Dev nD) (hx : Cert.Ix.InRange 50000 (xm1 m c)) (hs : Cert.Ix.InRange 81920 (srcv m c)) :
    W11 (F := Ideal) m ρ c (Proc.devRef .tc main_v24) = h1v m c :=
  calc W11 (F := Ideal) m ρ c (Proc.devRef .tc main_v24)
    _ = W10 m ρ c (Proc.devRef .tc main_v24) := by host_keep hostOps3_1
    _ = W9 m ρ c (Proc.devRef .tc main_v24) := by host_keep hostOps3
    _ = W8 m ρ c (Proc.devRef .tc main_v24) := W9_in m ρ c 0 rfl
    _ = h1v m c := W8_v24 m ρ c hx hs

theorem W11_v7 (c : Dev nD) : W11 (F := Ideal) m ρ c (Proc.devRef .tc main_v7) = a5 m c :=
  (W11_v7_of_W6 m ρ c).trans (W6_v7 m ρ c)

theorem W11_v8 (c : Dev nD) : W11 (F := Ideal) m ρ c (Proc.devRef .tc main_v8) = a6 m c :=
  (W11_v8_of_W6 m ρ c).trans (W6_v8 m ρ c)

theorem W11_v9 (c : Dev nD) :
    W11 (F := Ideal) m ρ c (Proc.devRef .tc main_v9) = shapeCast S1x768 (a7 m c) shapeCasts_S768_S1x768 :=
  (W11_v9_of_W6 m ρ c).trans (W6_v9 m ρ c)

theorem W11_v10 (c : Dev nD) :
    W11 (F := Ideal) m ρ c (Proc.devRef .tc main_v10) = shapeCast S1x768 (a8 m c) shapeCasts_S768_S1x768 :=
  (W11_v10_of_W6 m ρ c).trans (W6_v10 m ρ c)

/-- The fourth region's output array is the cell of its input arrays. -/
theorem W12_v38 (c : Dev nD) (hx : Cert.Ix.InRange 50000 (xm1 m c)) (hs : Cert.Ix.InRange 81920 (srcv m c)) :
    W12 (F := Ideal) m ρ c (Proc.devRef .tc main_v38) = h2v m c :=
  (W12_arr m ρ c 6).trans
    (Cert.Reg.gru3_whole (V11 m ρ) c (h1v m c) (agg2v m c) (a5 m c) (a6 m c) (a7 m c) (a8 m c)
      (W11_v24 m ρ c hx hs) (W11_v37 m ρ c hx hs) (W11_v7 m ρ c) (W11_v8 m ρ c) (W11_v9 m ρ c) (W11_v10 m ρ c))

/-! ## What the rest of the run starts from -/

/-- After the second round the node-state buffer holds the reference's second-round states of the launch arguments,
    and the argument arrays read later hold their launch contents. -/
theorem entry (c : Dev nD) (hx : Cert.Ix.InRange 50000 (xm1 m c)) (hs : Cert.Ix.InRange 81920 (srcv m c)) :
    W12 (F := Ideal) m ρ c (Proc.devRef .tc main_v38) = h2v m c
    ∧ W12 (F := Ideal) m ρ c (Proc.devRef .tc main_arg2) = m ((c : Thread nD τ).loc main_arg2)
    ∧ W12 (F := Ideal) m ρ c (Proc.devRef .tc main_arg3) = m ((c : Thread nD τ).loc main_arg3)
    ∧ W12 (F := Ideal) m ρ c (Proc.devRef .tc main_arg9) = m ((c : Thread nD τ).loc main_arg9)
    ∧ W12 (F := Ideal) m ρ c (Proc.devRef .tc main_arg10) = m ((c : Thread nD τ).loc main_arg10)
    ∧ W12 (F := Ideal) m ρ c (Proc.devRef .tc main_arg11) = m ((c : Thread nD τ).loc main_arg11)
    ∧ W12 (F := Ideal) m ρ c (Proc.devRef .tc main_arg12) = m ((c : Thread nD τ).loc main_arg12)
    ∧ W12 (F := Ideal) m ρ c (Proc.devRef .tc main_arg13) = m ((c : Thread nD τ).loc main_arg13)
    ∧ W12 (F := Ideal) m ρ c (Proc.devRef .tc main_arg14) = m ((c : Thread nD τ).loc main_arg14)
    ∧ W12 (F := Ideal) m ρ c (Proc.devRef .tc main_arg15) = m ((c : Thread nD τ).loc main_arg15)
    ∧ W12 (F := Ideal) m ρ c (Proc.devRef .tc main_arg16) = m ((c : Thread nD τ).loc main_arg16) :=
  ⟨W12_v38 m ρ c hx hs, W12_main_arg2 m ρ c, W12_main_arg3 m ρ c, W12_main_arg9 m ρ c, W12_main_arg10 m ρ c,
    W12_main_arg11 m ρ c, W12_main_arg12 m ρ c, W12_main_arg13 m ρ c, W12_main_arg14 m ρ c,
    W12_main_arg15 m ρ c, W12_main_arg16 m ρ c⟩

end Cert.KernelIdeal.Walk

end
-- ==== Proof.RegReadout.lean ====
/-
  The attention readout region, as one whole-array value.

  The region walks the 81920 node rows in 80 blocks of 1024 rows. On a block it forms, per row n and lane l,
    gate(n,l) = logistic( (Σ_j e(n,j)·W1(l,j) + b1(l)) + (Σ_j h(n,j)·W2(l,j) + b2(l)) ),
  then the row's weight  alpha(n) = Σ_l gate(n,l)·qw(0,l) + qb, and writes alpha(n)·h(n,c).
  The reference forms ((e W1ᵀ + b1) + h W2ᵀ) + b2 before the same logistic, written 1/(1+exp(-x)); the two
  groupings of the four summands agree by associativity of + on the extended reals, and the logistic is one function.
  Every output row depends only on the same row of h and e, so the blocks are restrictions of one function of the
  whole arrays, and the 80 blocks tile the rows.
-/
import proofs.«425236_j80513456930926_1_alg».proof.Proof.Gen.KernelIdeal.Frame
import proofs.«425236_j80513456930926_1_alg».proof.Proof.Gen.ReferenceIdeal
import proofs.«425236_j80513456930926_1_alg».proof.Proof.RefStages
import proofs.«425236_j80513456930926_1_alg».proof.Proof.RegReadoutTab
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Reg.Readout
open Idealize.ShloMosaic Idealize.ShloMosaic.ValueIdx

/-! ## Operations read at an index, at any extents -/

section Generic
variable {m k n : Nat} {φ₁ φ₂ : FTy} {α : Type}

/-- The host product of an m×k by a k×n matrix at (a, b): the sum over the contracted coordinate. -/
theorem hostDot_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A block product m×k by (n×k)ᵀ into a zero accumulator at (a, b): the sum over the shared last coordinate. -/
theorem matmulNT_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A lane sum (a sum over axis 1 of an m×n array into the zero word) at row r. -/
theorem laneSum_apply (src : FVec Ideal ⟨2, ![m, n]⟩ .f32) (h : Shape.Reduces ⟨2, ![m, n]⟩ [1] ⟨1, ![m]⟩)
    (hφ : FKind.Formats .f32) (hacc : (0x00000000#32 : BitVec 32) = FKind.add.neutral .f32 hφ) (r : Fin m) :
    multiReduction .add [1] ⟨1, ![m]⟩ src 0x00000000#32 h hφ hacc (ix1 r) = ∑ l : Fin n, src (ix2 r l) := by
  refine (Ideal.multiReduction_add_single src _ h hφ hacc (ix1 r)).trans ?_
  refine Finset.sum_congr rfl fun l _ => congrArg src ?_
  funext ax; apply Fin.ext
  match ax with
  | ⟨0, _⟩ => rfl
  | ⟨1, _⟩ => rfl

/-- A length-m vector cast to an m×1 column reads, at (r, u), the vector at r. -/
theorem shapeCast_a_a1_apply (x : (⟨1, ![m]⟩ : Shape).Idx → α) (h : (⟨1, ![m]⟩ : Shape).ShapeCasts ⟨2, ![m, 1]⟩)
    (r : Fin m) (u : Fin 1) : shapeCast ⟨2, ![m, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A 1×1 array broadcast to an m×1 column reads its one entry everywhere. -/
theorem broadcastTo_11_a1_apply (v : (⟨2, ![1, 1]⟩ : Shape).Idx → α) (h : (⟨2, ![1, 1]⟩ : Shape).Broadcasts ⟨2, ![m, 1]⟩)
    (r : Fin m) (u : Fin 1) : broadcastTo ⟨2, ![m, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

/-- An m×1 column broadcast to m×n reads, at (r, c), the column at r. -/
theorem broadcastTo_a1_ab_apply (v : (⟨2, ![m, 1]⟩ : Shape).Idx → α) (h : (⟨2, ![m, 1]⟩ : Shape).Broadcasts ⟨2, ![m, n]⟩)
    (r : Fin m) (c : Fin n) : broadcastTo ⟨2, ![m, n]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ => rfl

/-- A length-n vector placed as the one row of a 1×n array reads, at (u, l), the vector at l. -/
theorem bcastInDim_a_1a_apply (x : (⟨1, ![n]⟩ : Shape).Idx → α)
    (h : (⟨1, ![n]⟩ : Shape).BroadcastsInDim ⟨2, ![1, n]⟩ (![1] : Fin 1 → Fin 2)) (u : Fin 1) (l : Fin n) :
    broadcastInDim ⟨2, ![1, n]⟩ ![1] h x (ix2 u l) = x (ix1 l) := by
  refine broadcastInDim_apply _ h x (ix2 u l) (ix1 l) fun ax => ?_
  match ax with
  | ⟨0, _⟩ =>
    show l.val = if n = 1 then 0 else l.val
    split
    · have := l.isLt; omega
    · rfl

/-- A 1×n row repeated over m rows reads, at (r, c), the row at c. -/
theorem bcastInDim_1b_ab_apply (x : (⟨2, ![1, n]⟩ : Shape).Idx → α)
    (h : (⟨2, ![1, n]⟩ : Shape).BroadcastsInDim ⟨2, ![m, n]⟩ (![0, 1] : Fin 2 → Fin 2)) (r : Fin m) (c : Fin n) :
    broadcastInDim ⟨2, ![m, n]⟩ ![0, 1] h x (ix2 r c) = x (ix2 (0 : Fin 1) c) := by
  refine broadcastInDim_apply _ h x (ix2 r c) (ix2 (0 : Fin 1) c) fun ax => ?_
  match ax with
  | ⟨0, _⟩ => rfl
  | ⟨1, _⟩ =>
    show c.val = if n = 1 then 0 else c.val
    split
    · have := c.isLt; omega
    · rfl

/-- An m×1 column repeated over n lanes reads, at (r, c), the column at r. -/
theorem bcastInDim_a1_ab_apply (x : (⟨2, ![m, 1]⟩ : Shape).Idx → α)
    (h : (⟨2, ![m, 1]⟩ : Shape).BroadcastsInDim ⟨2, ![m, n]⟩ (![0, 1] : Fin 2 → Fin 2)) (r : Fin m) (c : Fin n) :
    broadcastInDim ⟨2, ![m, n]⟩ ![0, 1] h x (ix2 r c) = x (ix2 r (0 : Fin 1)) := by
  refine broadcastInDim_apply _ h x (ix2 r c) (ix2 r (0 : Fin 1)) fun ax => ?_
  match ax with
  | ⟨0, _⟩ =>
    show r.val = if m = 1 then 0 else r.val
    split
    · have := r.isLt; omega
    · rfl
  | ⟨1, _⟩ => rfl

end Generic

/-! ## The readout as a function of the whole arrays, entry by entry -/

/-- A real matrix of a by b entries. -/
abbrev Mx (a b : Nat) := FVec Ideal ⟨2, ![a, b]⟩ .f32
/-- A real vector of a entries. -/
abbrev Vx (a : Nat) := FVec Ideal ⟨1, ![a]⟩ .f32

/-- The gate's argument at node n and lane l: (e W1ᵀ + b1) + (h W2ᵀ + b2). -/
def pre (h e : Mx 81920 256) (W1 : Mx 256 256) (b1 : Vx 256) (W2 : Mx 256 256) (b2 : Vx 256)
    (n : Fin 81920) (l : Fin 256) : EReal :=
  (∑ j : Fin 256, e (ix2 n j) * W1 (ix2 l j) + b1 (ix1 l)) + (∑ j : Fin 256, h (ix2 n j) * W2 (ix2 l j) + b2 (ix1 l))

/-- Node n's weight: the gate against qw, summed over the lanes, plus qb. -/
def alpha (h e : Mx 81920 256) (W1 : Mx 256 256) (b1 : Vx 256) (W2 : Mx 256 256) (b2 : Vx 256)
    (qw : Mx 1 256) (qb : Vx 1) (n : Fin 81920) : EReal :=
  ∑ l : Fin 256, Ideal.logistic (pre h e W1 b1 W2 b2 n l) * qw (ix2 (0 : Fin 1) l) + qb (ix1 (0 : Fin 1))

/-! ## The reference's readout stage at an entry -/

section Ref
open Cert.ReferenceIdeal Cert.ReferenceIdeal.Facts₀ Cert.ReferenceIdeal.Facts

/-- The host's 1/(1+exp(-x)), with both ones the f32 word of 1.0, is the logistic function. -/
theorem hostSigmoid_eq (x : EReal) :
    FloatOps.hostDivf (Ideal.ofBits .f32 0x3F800000#32 : Ideal .f32)
        (FloatOps.addf (Ideal.ofBits .f32 0x3F800000#32 : Ideal .f32) (FloatOps.hostUnary .exp (FloatOps.hostNegf (x : Ideal .f32))))
      = Ideal.logistic x := by
  rw [Ideal.ofBits_one_f32]; rfl

-- the reference's layout operations and products, each at an entry
theorem r_col (x : Cert.Rst.A S81920x1) (n : Fin 81920) (c : Fin 256) :
    broadcastInDim S81920x256 ![0, 1] bcast_S81920x1_S81920x256_0_1 x (ix2 n c) = x (ix2 n (0 : Fin 1)) :=
  bcastInDim_a1_ab_apply x _ n c
theorem r_one (x : Cert.Rst.A S1x1) (n : Fin 81920) (u : Fin 1) :
    broadcastInDim S81920x1 ![0, 1] bcast_S1x1_S81920x1_0_1 x (ix2 n u) = x (ix2 (0 : Fin 1) u) :=
  bcastInDim_1b_ab_apply x _ n u
theorem r_qb (x : Cert.Rst.A S1) (u v : Fin 1) :
    broadcastInDim S1x1 ![1] bcast_S1_S1x1_1 x (ix2 u v) = x (ix1 v) :=
  bcastInDim_a_1a_apply x _ u v
theorem r_row (x : Cert.Rst.A S1x256) (n : Fin 81920) (l : Fin 256) :
    broadcastInDim S81920x256 ![0, 1] bcast_S1x256_S81920x256_0_1 x (ix2 n l) = x (ix2 (0 : Fin 1) l) :=
  bcastInDim_1b_ab_apply x _ n l
theorem r_bias (x : Cert.Rst.A S256) (u : Fin 1) (l : Fin 256) :
    broadcastInDim S1x256 ![1] bcast_S256_S1x256_1 x (ix2 u l) = x (ix1 l) :=
  bcastInDim_a_1a_apply x _ u l
theorem r_scalar (x : Cert.Rst.A S_) (j : S81920x256.Idx) :
    broadcastInDim S81920x256 ![] bcast_S_S81920x256 x j = x ix0 :=
  broadcastInDim_scalar_apply _ x j
theorem r_dot (A : Cert.Rst.A S81920x256) (B : Cert.Rst.A S256x256) (n : Fin 81920) (l : Fin 256) :
    Host.dotGeneral dot_S81920x256_S256x256_S81920x256_1_0_0_1_n_n none A B (ix2 n l)
      = ∑ j : Fin 256, A (ix2 n j) * B (ix2 j l) :=
  hostDot_apply _ none A B n l
theorem r_dot1 (A : Cert.Rst.A S81920x256) (B : Cert.Rst.A S256x1) (n : Fin 81920) (u : Fin 1) :
    Host.dotGeneral dot_S81920x256_S256x1_S81920x1_1_0_0_1_n_n none A B (ix2 n u)
      = ∑ l : Fin 256, A (ix2 n l) * B (ix2 l u) :=
  hostDot_apply _ none A B n u
theorem r_tr (W : Cert.Rst.A S256x256) (j l : Fin 256) :
    transpose S256x256 [1, 0] W transposes_S256x256_S256x256_1_0 (ix2 j l) = W (ix2 l j) :=
  transpose_ix2_apply W _ j l
theorem r_tr1 (q : Cert.Rst.A S1x256) (l : Fin 256) (u : Fin 1) :
    transpose S256x1 [1, 0] q transposes_S1x256_S256x1_1_0 (ix2 l u) = q (ix2 u l) :=
  transpose_ix2_apply q _ l u

theorem r_dotT (A : Cert.Rst.A S81920x256) (W : Cert.Rst.A S256x256) (n : Fin 81920) (l : Fin 256) :
    Host.dotGeneral dot_S81920x256_S256x256_S81920x256_1_0_0_1_n_n none A
        (transpose S256x256 [1, 0] W transposes_S256x256_S256x256_1_0) (ix2 n l)
      = ∑ j : Fin 256, A (ix2 n j) * W (ix2 l j) :=
  (r_dot A _ n l).trans (Finset.sum_congr rfl fun j _ => by rw [r_tr])
theorem r_dot1T (A : Cert.Rst.A S81920x256) (q : Cert.Rst.A S1x256) (n : Fin 81920) (u : Fin 1) :
    Host.dotGeneral dot_S81920x256_S256x1_S81920x1_1_0_0_1_n_n none A
        (transpose S256x1 [1, 0] q transposes_S1x256_S256x1_1_0) (ix2 n u)
      = ∑ l : Fin 256, A (ix2 n l) * q (ix2 u l) :=
  (r_dot1 A _ n u).trans (Finset.sum_congr rfl fun l _ => by rw [r_tr1])

/-- The reference's readout at node n, lane c: the node's weight times h(n,c). The reference groups the gate's
    four summands as ((e W1ᵀ + b1) + h W2ᵀ) + b2; regrouping is associativity of + on the extended reals. -/
theorem readout_apply (h e : Cert.Rst.A S81920x256) (W1 : Cert.Rst.A S256x256) (b1 : Cert.Rst.A S256)
    (W2 : Cert.Rst.A S256x256) (b2 : Cert.Rst.A S256) (qw : Cert.Rst.A S1x256) (qb : Cert.Rst.A S1)
    (n : Fin 81920) (c : Fin 256) :
    Cert.Rst.readout h e W1 b1 W2 b2 qw qb (ix2 n c) = alpha h e W1 b1 W2 b2 qw qb n * h (ix2 n c) := by
  unfold Cert.Rst.readout alpha
  rw [mulf_apply, r_col, addf_apply, r_dot1T, r_one, r_qb]
  refine congrArg (· * h (ix2 n c)) (congrArg (· + qb (ix1 (0 : Fin 1))) (Finset.sum_congr rfl fun l _ => ?_))
  refine congrArg (· * qw (ix2 (0 : Fin 1) l)) ?_
  show FloatOps.hostDivf _ (FloatOps.addf _ (FloatOps.hostUnary .exp (FloatOps.hostNegf _))) = _
  rw [r_scalar, constant_apply]
  refine (hostSigmoid_eq _).trans (congrArg Ideal.logistic ?_)
  rw [addf_apply, addf_apply, addf_apply, r_dotT, r_dotT, r_row, r_row, r_bias, r_bias]
  exact add_assoc _ _ _

end Ref

/-! ## The kernel body's stored block at an entry -/

section Ker
open Cert.KernelIdeal Cert.KernelIdeal.Gen

-- the body's products, lane sum and layout operations, each at an entry
theorem k_mm (A : FVec Ideal S1024x256 .bf16) (B : FVec Ideal S256x256 .bf16) (r : Fin 1024) (l : Fin 256) :
    matmul dot_S1024x256_S256x256_S1024x256_1_1_0_0_n_n none A B (constant (F := Ideal) S1024x256 .f32 0x00000000#32) (ix2 r l)
      = ∑ j : Fin 256, A (ix2 r j) * B (ix2 l j) :=
  matmulNT_apply _ none A B r l
theorem k_row (x : FVec Ideal S1x256 .f32) (r : Fin 1024) (l : Fin 256) :
    broadcastTo S1024x256 x broadcasts_S1x256_S1024x256 (ix2 r l) = x (ix2 (0 : Fin 1) l) :=
  broadcastTo_1b_ab_apply x _ r l
theorem k_sum (src : FVec Ideal S1024x256 .f32) (r : Fin 1024) :
    multiReduction .add [1] S1024 src 0x00000000#32 reduces_S1024x256_S1024 (.inl rfl) rfl (ix1 r)
      = ∑ l : Fin 256, src (ix2 r l) :=
  laneSum_apply src _ _ _ r
theorem k_col (v : FVec Ideal S1024 .f32) (r : Fin 1024) (u : Fin 1) :
    shapeCast S1024x1 v shapeCasts_S1024_S1024x1 (ix2 r u) = v (ix1 r) :=
  shapeCast_a_a1_apply v _ r u
theorem k_one (x : FVec Ideal S1x1 .f32) (r : Fin 1024) (u : Fin 1) :
    broadcastTo S1024x1 x broadcasts_S1x1_S1024x1 (ix2 r u) = x (ix2 (0 : Fin 1) (0 : Fin 1)) :=
  broadcastTo_11_a1_apply x _ r u
theorem k_lane (x : FVec Ideal S1024x1 .f32) (r : Fin 1024) (c : Fin 256) :
    broadcastTo S1024x256 x broadcasts_S1024x1_S1024x256 (ix2 r c) = x (ix2 r (0 : Fin 1)) :=
  broadcastTo_a1_ab_apply x _ r c

/-- The block the body stores, at row r and lane c of the block, from the eight loaded blocks. -/
theorem pay_apply (x0 x1 : FVec Ideal S1024x256 .f32) (w1 w2 : FVec Ideal S256x256 .bf16)
    (c1 c2 q : FVec Ideal S1x256 .f32) (qb : FVec Ideal S1x1 .f32) (r : Fin 1024) (c : Fin 256) :
    k4_pay1 (F := Ideal) x0 x1 w1 w2 c1 c2 q qb (ix2 r c)
      = (∑ l : Fin 256, Ideal.logistic
            ((∑ j : Fin 256, x1 (ix2 r j) * w1 (ix2 l j) + c1 (ix2 (0 : Fin 1) l))
              + (∑ j : Fin 256, x0 (ix2 r j) * w2 (ix2 l j) + c2 (ix2 (0 : Fin 1) l)))
          * q (ix2 (0 : Fin 1) l) + qb (ix2 (0 : Fin 1) (0 : Fin 1))) * x0 (ix2 r c) := by
  unfold k4_pay1
  simp only [shapeCast_self]
  rw [mulf_apply, k_lane, addf_apply, k_col, k_sum, k_one]
  refine congrArg (· * x0 (ix2 r c)) (congrArg (· + qb (ix2 (0 : Fin 1) (0 : Fin 1))) (Finset.sum_congr rfl fun l _ => ?_))
  rw [mulf_apply, k_row]
  refine congrArg (· * q (ix2 (0 : Fin 1) l)) ?_
  show FloatOps.logistic _ = _
  refine congrArg Ideal.logistic ?_
  rw [addf_apply, addf_apply, addf_apply, k_mm, k_mm, k_row, k_row]
  rfl

end Ker

/-! ## From the blocks to the array -/

section Blocks
open Idealize.ShloMosaic.TcCoe Cert.KernelIdeal Cert.KernelIdeal.Gen
open Idealize.ShloMosaic.Pipeline (Dat)

/-- The block's entry (r, c) and the array's entry (n, c) agree as soon as the block's rows of h and e are the
    array's rows n, and the weight, bias and scalar blocks are the whole arrays (the biases and the scalar reshaped). -/
theorem entry_eq (x0 x1 : FVec Ideal S1024x256 .f32) (w1 w2 : FVec Ideal S256x256 .bf16)
    (c1 c2 q : FVec Ideal S1x256 .f32) (qb' : FVec Ideal S1x1 .f32)
    (h e : Mx 81920 256) (W1 : Mx 256 256) (b1 : Vx 256) (W2 : Mx 256 256) (b2 : Vx 256) (qw : Mx 1 256) (qb : Vx 1)
    (r : Fin 1024) (n : Fin 81920)
    (hx0 : ∀ j : Fin 256, x0 (ix2 r j) = h (ix2 n j)) (hx1 : ∀ j : Fin 256, x1 (ix2 r j) = e (ix2 n j))
    (hw1 : ∀ l j : Fin 256, w1 (ix2 l j) = W1 (ix2 l j)) (hw2 : ∀ l j : Fin 256, w2 (ix2 l j) = W2 (ix2 l j))
    (hc1 : ∀ l : Fin 256, c1 (ix2 (0 : Fin 1) l) = b1 (ix1 l)) (hc2 : ∀ l : Fin 256, c2 (ix2 (0 : Fin 1) l) = b2 (ix1 l))
    (hq : ∀ l : Fin 256, q (ix2 (0 : Fin 1) l) = qw (ix2 (0 : Fin 1) l))
    (hqb : qb' (ix2 (0 : Fin 1) (0 : Fin 1)) = qb (ix1 (0 : Fin 1))) (c : Fin 256) :
    k4_pay1 (F := Ideal) x0 x1 w1 w2 c1 c2 q qb' (ix2 r c) = Cert.Rst.readout h e W1 b1 W2 b2 qw qb (ix2 n c) := by
  rw [pay_apply, readout_apply]
  unfold alpha pre
  rw [hx0 c, hqb]
  refine congrArg (· * h (ix2 n c)) (congrArg (· + qb (ix1 (0 : Fin 1))) (Finset.sum_congr rfl fun l _ => ?_))
  rw [hq l, hc1 l, hc2 l]
  refine congrArg (fun z => Ideal.logistic z * qw (ix2 (0 : Fin 1) l)) ?_
  exact congrArg₂ (· + ·)
    (congrArg (· + b1 (ix1 l)) (Finset.sum_congr rfl fun j _ => by rw [hx1 j, hw1 l j]))
    (congrArg (· + b2 (ix1 l)) (Finset.sum_congr rfl fun j _ => by rw [hx0 j, hw2 l j]))

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 80 grid points: the row windows (h, e, the output) take block t of the
    rows at point t; every other window is its whole array at every point. -/
theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- Row r of block t is row 1024 t + r of the array. -/
def rowOf (t : Fin cfg4.N) (r : Fin 1024) : Fin 81920 :=
  ⟨1024 * t.val + r.val, by
    have ht := t.isLt; have hN : cfg4.N = 80 := N_4; have hr := r.isLt; omega⟩

/-- The h block at point t, at (r, j): the array the region finds in window 0, at row 1024 t + r. -/
theorem blk0_apply (c : Dev nD) (t : Fin cfg4.N) (r : Fin 1024) (j : Fin 256) :
    (iblk4 V c 0 t : FVec Ideal S1024x256 .f32) (ix2 r j)
      = (V c (Pipeline.arrRef spec4 0) : FVec Ideal S81920x256 .f32) (ix2 (rowOf t r) j) := by
  obtain ⟨e00, e01, -⟩ := idx_facts t
  show V c (Pipeline.arrRef spec4 0) (((cfg4.win 0).blk t).view.emb (ix2 r j)) = _
  refine congrArg (V c (Pipeline.arrRef spec4 0)) (funext fun a => Fin.ext ?_)
  match a with
  | ⟨0, _⟩ => show win4_0.index t (0 : Fin 2) * 1024 + 1 * r.val = 1024 * t.val + r.val; omega
  | ⟨1, _⟩ => show win4_0.index t (1 : Fin 2) * 256 + 1 * j.val = j.val; omega

/-- The e block likewise, from window 1. -/
theorem blk1_apply (c : Dev nD) (t : Fin cfg4.N) (r : Fin 1024) (j : Fin 256) :
    (iblk4 V c 1 t : FVec Ideal S1024x256 .f32) (ix2 r j)
      = (V c (Pipeline.arrRef spec4 1) : FVec Ideal S81920x256 .f32) (ix2 (rowOf t r) j) := by
  obtain ⟨-, -, e10, e11, -⟩ := idx_facts t
  show V c (Pipeline.arrRef spec4 1) (((cfg4.win 1).blk t).view.emb (ix2 r j)) = _
  refine congrArg (V c (Pipeline.arrRef spec4 1)) (funext fun a => Fin.ext ?_)
  match a with
  | ⟨0, _⟩ => show win4_1.index t (0 : Fin 2) * 1024 + 1 * r.val = 1024 * t.val + r.val; omega
  | ⟨1, _⟩ => show win4_1.index t (1 : Fin 2) * 256 + 1 * j.val = j.val; omega

/-- What point t writes back is block t of the reference's readout of the arrays the region finds. -/
theorem flushed_eq (c : Dev nD) (t : Fin cfg4.N)
    (h e : Cert.Rst.A S81920x256) (W1 : Cert.Rst.A S256x256) (b1 : Cert.Rst.A S256)
    (W2 : Cert.Rst.A S256x256) (b2 : Cert.Rst.A S256) (qw : Cert.Rst.A S1x256) (qb : Cert.Rst.A S1)
    (e0 : V c (Pipeline.arrRef spec4 0) = h) (e1 : V c (Pipeline.arrRef spec4 1) = e)
    (e2 : V c (Pipeline.arrRef spec4 2) = W1)
    (e3 : V c (Pipeline.arrRef spec4 3) = shapeCast S1x256 b1 shapeCasts_S256_S1x256)
    (e4 : V c (Pipeline.arrRef spec4 4) = W2)
    (e5 : V c (Pipeline.arrRef spec4 5) = shapeCast S1x256 b2 shapeCasts_S256_S1x256)
    (e6 : V c (Pipeline.arrRef spec4 6) = qw)
    (e7 : V c (Pipeline.arrRef spec4 7) = shapeCast S1x1 qb shapeCasts_S1_S1x1) :
    (dat4 (F := Ideal) V c).flushed 8 t
      = ((cfg4.win 8).blk t).view.read (Elt Ideal) (Cert.Rst.readout h e W1 b1 W2 b2 qw qb) := by
  show (cfg4.win 8).cut (grid4.coords t) ((dat4 V c).after 8 t) = _
  rw [after4_8]
  unfold out4_8
  rw [View.canon_unit_zero hz]
  simp only [View.ld_unit_zero (S := S1024x256) hz, View.ld_unit_zero (S := S256x256) hz,
    View.ld_unit_zero (S := S1x256) hz, View.ld_unit_zero (S := S1x1) hz]
  obtain ⟨-, -, -, -, f20, f21, f30, f31, f40, f41, f50, f51, f60, f61, f70, f71, e80, e81⟩ := idx_facts t
  funext y
  obtain ⟨r, cc, rfl⟩ : ∃ (r : Fin 1024) (cc : Fin 256), y = ix2 r cc := ⟨y 0, y 1, eq_ix2 y⟩
  have hemb : ((cfg4.win 8).blk t).view.emb (ix2 r cc) = ix2 (rowOf t r) cc := by
    funext a; apply Fin.ext
    match a with
    | ⟨0, _⟩ => show win4_8.index t (0 : Fin 2) * 1024 + 1 * r.val = 1024 * t.val + r.val; omega
    | ⟨1, _⟩ => show win4_8.index t (1 : Fin 2) * 256 + 1 * cc.val = cc.val; omega
  show k4_pay1 (F := Ideal) (iblk4 V c 0 t) (iblk4 V c 1 t) (iblk4 V c 2 t) (iblk4 V c 4 t) (iblk4 V c 3 t)
      (iblk4 V c 5 t) (iblk4 V c 6 t) (iblk4 V c 7 t) (ix2 r cc)
    = Cert.Rst.readout h e W1 b1 W2 b2 qw qb (((cfg4.win 8).blk t).view.emb (ix2 r cc))
  refine Eq.trans ?_ (congrArg (Cert.Rst.readout h e W1 b1 W2 b2 qw qb) hemb).symm
  exact entry_eq (iblk4 V c 0 t) (iblk4 V c 1 t) (iblk4 V c 2 t) (iblk4 V c 4 t) (iblk4 V c 3 t)
    (iblk4 V c 5 t) (iblk4 V c 6 t) (iblk4 V c 7 t) h e W1 b1 W2 b2 qw qb r (rowOf t r)
    (fun j => (blk0_apply V c t r j).trans (congrFun e0 _))
    (fun j => (blk1_apply V c t r j).trans (congrFun e1 _))
    (fun l j => (congrFun (blk2_eq V c t f20 f21) _).trans (congrFun e2 _))
    (fun l j => (congrFun (blk4_eq V c t f40 f41) _).trans (congrFun e4 _))
    (fun l => (congrFun (blk3_eq V c t f30 f31) _).trans ((congrFun e3 _).trans (shapeCast_a_1a_apply b1 _ 0 l)))
    (fun l => (congrFun (blk5_eq V c t f50 f51) _).trans ((congrFun e5 _).trans (shapeCast_a_1a_apply b2 _ 0 l)))
    (fun l => (congrFun (blk6_eq V c t f60 f61) _).trans (congrFun e6 _))
    ((congrFun (blk7_eq V c t f70 f71) _).trans ((congrFun e7 _).trans (shapeCast_a_1a_apply qb _ 0 0)))
    cc

/-- An entry of the array is in point t's block iff each coordinate is in the block's range on its axis. -/
theorem mem_blk (t : Fin cfg4.N) (i : S81920x256.Idx) :
    i ∈ ((cfg4.win 8).blk t).view.set ↔ ∀ a : Fin 2, win4_8.index t a * S1024x256.size a ≤ (i a).val
      ∧ (i a).val < win4_8.index t a * S1024x256.size a + S1024x256.size a := by
  show i ∈ ((View.whole main_v59).slice (win4_8.rect t)).set ↔ _
  rw [View.set_slice_whole, Rect.mem_set_unit]
  exact Iff.rfl

/-- Every entry of the array is in some point's block: row n is in block n / 1024. -/
theorem cover (i : S81920x256.Idx) :
    ∃ t : Fin cfg4.N, (cfg4.win 8).flush t = true ∧ i ∈ ((cfg4.win 8).blk t).view.set := by
  have hi0 : (i 0).val < 81920 := (i 0).isLt
  have hi1 : (i 1).val < 256 := (i 1).isLt
  have hN : cfg4.N = 80 := N_4
  have hlt : (i 0).val / 1024 < cfg4.N := by rw [hN]; omega
  obtain ⟨-, -, -, -, -, -, -, -, -, -, -, -, -, -, -, -, e80, e81⟩ := idx_facts ⟨(i 0).val / 1024, hlt⟩
  have e80' : win4_8.index ⟨(i 0).val / 1024, hlt⟩ (0 : Fin 2) = (i 0).val / 1024 := e80
  refine ⟨⟨(i 0).val / 1024, hlt⟩, flush4_8 _, ?_⟩
  rw [mem_blk]
  intro a
  match a with
  | ⟨0, _⟩ =>
    show win4_8.index ⟨(i 0).val / 1024, hlt⟩ (0 : Fin 2) * 1024 ≤ (i 0).val
      ∧ (i 0).val < win4_8.index ⟨(i 0).val / 1024, hlt⟩ (0 : Fin 2) * 1024 + 1024
    omega
  | ⟨1, _⟩ =>
    show win4_8.index ⟨(i 0).val / 1024, hlt⟩ (1 : Fin 2) * 256 ≤ (i 1).val
      ∧ (i 1).val < win4_8.index ⟨(i 0).val / 1024, hlt⟩ (1 : Fin 2) * 256 + 256
    omega

end Blocks

end Cert.Reg.Readout

namespace Cert.Reg
open Idealize.ShloMosaic Idealize.ShloMosaic.TcCoe Cert.KernelIdeal Cert.KernelIdeal.Gen

/-- The region's output array after its 80 grid points is the reference's readout stage of the arrays the region
    finds in its eight input windows (the two biases and the scalar offset as the host reshaped them). -/
theorem readout4_whole
    (V : (c : Dev nD) → (b : Ref sig .tc) → Buf (Elt Ideal) ((c : Thread nD τ).loc b)) (c : Dev nD)
    (h e : Cert.Rst.A S81920x256) (W1 : Cert.Rst.A S256x256) (b1 : Cert.Rst.A S256)
    (W2 : Cert.Rst.A S256x256) (b2 : Cert.Rst.A S256) (qw : Cert.Rst.A S1x256) (qb : Cert.Rst.A S1)
    (e0 : V c (Pipeline.arrRef spec4 0) = h) (e1 : V c (Pipeline.arrRef spec4 1) = e)
    (e2 : V c (Pipeline.arrRef spec4 2) = W1)
    (e3 : V c (Pipeline.arrRef spec4 3) = shapeCast S1x256 b1 shapeCasts_S256_S1x256)
    (e4 : V c (Pipeline.arrRef spec4 4) = W2)
    (e5 : V c (Pipeline.arrRef spec4 5) = shapeCast S1x256 b2 shapeCasts_S256_S1x256)
    (e6 : V c (Pipeline.arrRef spec4 6) = qw)
    (e7 : V c (Pipeline.arrRef spec4 7) = shapeCast S1x1 qb shapeCasts_S1_S1x1) :
    (dat4 (F := Ideal) V c).arrAt 8 cfg4.N = Cert.Rst.readout h e W1 b1 W2 b2 qw qb :=
  (dat4 (F := Ideal) V c).arrAt_eq_of_cover 8 (Cert.Rst.readout h e W1 b1 W2 b2 qw qb)
    (fun t _ => Readout.flushed_eq V c t h e W1 b1 W2 b2 qw qb e0 e1 e2 e3 e4 e5 e6 e7) Readout.cover

end Cert.Reg
-- ==== Proof.RegFinal.lean ====
/-
  The last region of the kernel program, with the zero padding before it and the column slice after it.

  The region multiplies the [4096,256] array of session vectors by a table of 50176 rows of length 256, 512 rows at a
  time: grid point t reads rows 512·t … 512·t + 511 of the table and writes columns 512·t … 512·t + 511 of the
  [4096,50176] result, entry (g, j) of that block being Σ_k s(g,k) · table(512·t + j, k). The 98 column blocks tile the
  result, so the array the region leaves is, entry by entry, (g, v) ↦ Σ_k s(g,k) · table(v,k).

  The table is the embedding table followed by 176 padding rows, and the program keeps columns 0 … 49999 only. A kept
  column v reads table row v, which is the embedding table's own row v, so the padding rows never reach a kept entry
  (whatever the padding value is). The reference's product of s with the transposed embedding table is the same sum,
  Σ_k s(g,k) · emb(v,k).
-/
import proofs.«425236_j80513456930926_1_alg».proof.Proof.Gen.KernelIdeal.Frame
import proofs.«425236_j80513456930926_1_alg».proof.Proof.RefStages
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.Reg.Final

open Idealize.ShloMosaic Idealize.ShloMosaic.TcCoe Idealize.ShloMosaic.ValueIdx
open Idealize.ShloMosaic.Pipeline (Dat)
open Cert.KernelIdeal Cert.KernelIdeal.Gen

/-- Row g of `s` against row v of a table `e` of n rows: (g, v) ↦ Σ_k s(g,k) · e(v,k). -/
def rowDot {n : Nat} (s : (⟨2, ![4096, 256]⟩ : Shape).Idx → EReal) (e : (⟨2, ![n, 256]⟩ : Shape).Idx → EReal) :
    (⟨2, ![4096, n]⟩ : Shape).Idx → EReal :=
  fun i => ∑ k : Fin 256, s (ix2 (i 0) k) * e (ix2 (i 1) k)

theorem rowDot_apply {n : Nat} (s : (⟨2, ![4096, 256]⟩ : Shape).Idx → EReal) (e : (⟨2, ![n, 256]⟩ : Shape).Idx → EReal)
    (g : Fin 4096) (v : Fin n) : rowDot s e (ix2 g v) = ∑ k : Fin 256, s (ix2 g k) * e (ix2 v k) := rfl

/-! ## The body's product, entry by entry -/

/-- Left operand index of the body's product, row axis: the output's row. -/
theorem lhs6_0 (i : S4096x512.Idx) (q : dot_S4096x256_S512x256_S4096x512_1_1_0_0_n_n.contr.Idx) :
    (dot_S4096x256_S512x256_S4096x512_1_1_0_0_n_n.lhsIdx i q 0).val = (i 0).val := by
  unfold DotDims.lhsIdx
  rw [dif_neg (show ¬(0 : Fin S4096x256.rank) ∈ dot_S4096x256_S512x256_S4096x512_1_1_0_0_n_n.lhsBatch by decide),
    dif_pos (show (0 : Fin S4096x256.rank) ∈ dot_S4096x256_S512x256_S4096x512_1_1_0_0_n_n.lhsNonContracting by decide)]
  rfl
/-- Left operand index, column axis: the contracted coordinate. -/
theorem lhs6_1 (i : S4096x512.Idx) (q : dot_S4096x256_S512x256_S4096x512_1_1_0_0_n_n.contr.Idx) :
    (dot_S4096x256_S512x256_S4096x512_1_1_0_0_n_n.lhsIdx i q 1).val = (q ⟨0, by decide⟩).val :=
  dot_S4096x256_S512x256_S4096x512_1_1_0_0_n_n.lhsIdx_val_of_single rfl i q
/-- Right operand index, row axis: the output's column. -/
theorem rhs6_0 (i : S4096x512.Idx) (q : dot_S4096x256_S512x256_S4096x512_1_1_0_0_n_n.contr.Idx) :
    (dot_S4096x256_S512x256_S4096x512_1_1_0_0_n_n.rhsIdx i q 0).val = (i 1).val := by
  unfold DotDims.rhsIdx
  rw [dif_neg (show ¬(0 : Fin S512x256.rank) ∈ dot_S4096x256_S512x256_S4096x512_1_1_0_0_n_n.rhsBatch by decide),
    dif_pos (show (0 : Fin S512x256.rank) ∈ dot_S4096x256_S512x256_S4096x512_1_1_0_0_n_n.rhsNonContracting by decide)]
  rfl
/-- Right operand index, column axis: the contracted coordinate. -/
theorem rhs6_1 (i : S4096x512.Idx) (q : dot_S4096x256_S512x256_S4096x512_1_1_0_0_n_n.contr.Idx) :
    (dot_S4096x256_S512x256_S4096x512_1_1_0_0_n_n.rhsIdx i q 1).val = (q ⟨0, by decide⟩).val :=
  dot_S4096x256_S512x256_S4096x512_1_1_0_0_n_n.rhsIdx_val_of_single rfl i q

/-- The body's product is the product into a zero accumulator of its two blocks (the two shape casts change nothing). -/
theorem pay6_matmul (x0 : FVec Ideal S4096x256 .bf16) (x1 : FVec Ideal S512x256 .bf16) :
    k6_pay1 (F := Ideal) x0 x1
      = FloatOps.matmul dot_S4096x256_S512x256_S4096x512_1_1_0_0_n_n none x0 x1 (constant (F := Ideal) S4096x512 .f32 0x00000000#32) := by
  unfold k6_pay1
  simp only [shapeCast_self]

/-- Entry (g, j) of the block: Σ_k x0(g,k) · x1(j,k). -/
theorem pay6_apply (x0 : FVec Ideal S4096x256 .bf16) (x1 : FVec Ideal S512x256 .bf16) (g : Fin 4096) (j : Fin 512) :
    k6_pay1 (F := Ideal) x0 x1 (ix2 g j) = ∑ k : Fin 256, x0 (ix2 g k) * x1 (ix2 j k) := by
  rw [pay6_matmul, Ideal.matmul_constant_zero_apply,
    ← Equiv.sum_comp (contrEquiv1 dot_S4096x256_S512x256_S4096x512_1_1_0_0_n_n 256 rfl rfl).symm]
  refine Finset.sum_congr rfl fun k _ => ?_
  have hk := contrEquiv1_symm_val dot_S4096x256_S512x256_S4096x512_1_1_0_0_n_n 256 rfl rfl k
  have el : dot_S4096x256_S512x256_S4096x512_1_1_0_0_n_n.lhsIdx (ix2 g j)
      ((contrEquiv1 dot_S4096x256_S512x256_S4096x512_1_1_0_0_n_n 256 rfl rfl).symm k) = ix2 g k := funext fun a => Fin.ext (by
    match a with
    | ⟨0, _⟩ => exact lhs6_0 _ _
    | ⟨1, _⟩ => exact (lhs6_1 _ _).trans hk)
  have er : dot_S4096x256_S512x256_S4096x512_1_1_0_0_n_n.rhsIdx (ix2 g j)
      ((contrEquiv1 dot_S4096x256_S512x256_S4096x512_1_1_0_0_n_n 256 rfl rfl).symm k) = ix2 j k := funext fun a => Fin.ext (by
    match a with
    | ⟨0, _⟩ => exact rhs6_0 _ _
    | ⟨1, _⟩ => exact (rhs6_1 _ _).trans hk)
  rw [el, er]

/-- The body's product at an entry of the [4096,512] block: row g of the first block against row j of the second. -/
theorem pay6_eq (x0 : FVec Ideal S4096x256 .bf16) (x1 : FVec Ideal S512x256 .bf16) :
    k6_pay1 (F := Ideal) x0 x1 = rowDot x0 x1 := by
  funext i
  obtain ⟨g, j, rfl⟩ : ∃ (g : Fin 4096) (j : Fin 512), i = ix2 g j := ⟨i 0, i 1, eq_ix2 i⟩
  exact pay6_apply x0 x1 g j

/-- The printed index maps over the grid: the first window stays at block (0,0); the table's window is at row block t;
    the output's window at column block t. -/
theorem idx6 : ∀ t : Fin cfg6.N, win6_0.index t (0 : Fin 2) = 0 ∧ win6_0.index t (1 : Fin 2) = 0
    ∧ win6_1.index t (0 : Fin 2) = t.val ∧ win6_1.index t (1 : Fin 2) = 0
    ∧ win6_2.index t (0 : Fin 2) = 0 ∧ win6_2.index t (1 : Fin 2) = t.val :=
  (by decide +kernel : ∀ t : Fin grid6.N, _)

theorem hz6 : (![0, 0] : Fin 2 → Nat) = fun _ => 0 := funext fun a => by fin_cases a <;> rfl

/-- One entry of one point's block. If the first block is the first array, and the second block is rows
    512·T … 512·T + 511 of the table, then entry y of the blocks' product is the arrays' product at the entry with y's
    row and with column 512·T + y's column. -/
theorem point6 (A0 x0 : FVec Ideal S4096x256 .bf16) (A1 : FVec Ideal S50176x256 .bf16) (x1 : FVec Ideal S512x256 .bf16)
    (T : Nat) (hx0 : ∀ (g : Fin 4096) (k : Fin 256), x0 (ix2 g k) = A0 (ix2 g k))
    (hx1 : ∀ (j : Fin 512) (k : Fin 256) (v : Fin 50176), v.val = T * 512 + j.val → x1 (ix2 j k) = A1 (ix2 v k))
    (y : S4096x512.Idx) (i : S4096x50176.Idx) (hi0 : (i 0).val = (y 0).val) (hi1 : (i 1).val = T * 512 + (y 1).val) :
    rowDot x0 x1 y = rowDot A0 A1 i := by
  obtain ⟨g, j, rfl⟩ : ∃ (g : Fin 4096) (j : Fin 512), y = ix2 g j := ⟨y 0, y 1, eq_ix2 y⟩
  obtain ⟨g', v, rfl⟩ : ∃ (g' : Fin 4096) (v : Fin 50176), i = ix2 g' v := ⟨i 0, i 1, eq_ix2 i⟩
  obtain rfl : g' = g := Fin.ext hi0
  rw [rowDot_apply, rowDot_apply]
  exact Finset.sum_congr rfl fun k _ => by rw [hx0, hx1 j k v hi1]

section Region
variable (V : (c : Dev nD) → (b : Ref sig .tc) → Buf (Elt Ideal) ((c : Thread nD τ).loc b))

/-- What point t writes back is block t of the one function `rowDot A0 A1` of the two arrays the region finds. -/
theorem flushed6 (c : Dev nD) (A0 : FVec Ideal S4096x256 .bf16) (A1 : FVec Ideal S50176x256 .bf16)
    (h0 : V c (Pipeline.arrRef spec6 0) = A0) (h1 : V c (Pipeline.arrRef spec6 1) = A1) (t : Fin cfg6.N) :
    (dat6 (F := Ideal) V c).flushed 2 t = ((cfg6.win 2).blk t).view.read (Elt Ideal) (rowDot A0 A1) := by
  subst h0
  subst h1
  show (cfg6.win 2).cut (grid6.coords t) ((dat6 (F := Ideal) V c).after 2 t) = _
  rw [after6_2]
  unfold out6_2
  rw [View.canon_unit_zero hz6]
  simp only [View.ld_unit_zero (S := S4096x256) hz6, View.ld_unit_zero (S := S512x256) hz6]
  rw [pay6_eq]
  obtain ⟨e0, e1, e2, e3, e4, e5⟩ := idx6 t
  funext y
  refine point6 (V c (Pipeline.arrRef spec6 0)) (iblk6 V c 0 t) (V c (Pipeline.arrRef spec6 1)) (iblk6 V c 1 t) t.val
    ?_ ?_ y (((cfg6.win 2).blk t).view.emb y) ?_ ?_
  · intro g k
    show V c (Pipeline.arrRef spec6 0) (((cfg6.win 0).blk t).view.emb (ix2 g k)) = _
    refine congrArg _ (funext fun a => Fin.ext ?_)
    match a with
    | ⟨0, _⟩ => show win6_0.index t (0 : Fin 2) * 4096 + 1 * g.val = g.val; omega
    | ⟨1, _⟩ => show win6_0.index t (1 : Fin 2) * 256 + 1 * k.val = k.val; omega
  · intro j k v hv
    show V c (Pipeline.arrRef spec6 1) (((cfg6.win 1).blk t).view.emb (ix2 j k)) = _
    refine congrArg _ (funext fun a => Fin.ext ?_)
    match a with
    | ⟨0, _⟩ => show win6_1.index t (0 : Fin 2) * 512 + 1 * j.val = v.val; omega
    | ⟨1, _⟩ => show win6_1.index t (1 : Fin 2) * 256 + 1 * k.val = k.val; omega
  · show win6_2.index t (0 : Fin 2) * 4096 + 1 * (y 0).val = (y 0).val; omega
  · show win6_2.index t (1 : Fin 2) * 512 + 1 * (y 1).val = t.val * 512 + (y 1).val; omega

/-- An entry of the result is in point t's block iff each coordinate is in the block's range on its axis. -/
theorem mem_blk6 (t : Fin cfg6.N) (i : S4096x50176.Idx) :
    i ∈ ((cfg6.win 2).blk t).view.set ↔ ∀ a : Fin 2, win6_2.index t a * S4096x512.size a ≤ (i a).val
      ∧ (i a).val < win6_2.index t a * S4096x512.size a + S4096x512.size a := by
  show i ∈ ((View.whole main_v70).slice (win6_2.rect t)).set ↔ _
  rw [View.set_slice_whole, Rect.mem_set_unit]
  exact Iff.rfl

/-- Every entry of the [4096,50176] result lies in the column block of point (its column / 512). -/
theorem cover6 (i : S4096x50176.Idx) :
    ∃ t : Fin cfg6.N, (cfg6.win 2).flush t = true ∧ i ∈ ((cfg6.win 2).blk t).view.set := by
  have hi0 : (i 0).val < 4096 := (i 0).isLt
  have hi1 : (i 1).val < 50176 := (i 1).isLt
  have ht : (i 1).val / 512 < cfg6.N := by show _ < grid6.N; rw [N_6]; omega
  obtain ⟨t, htv⟩ : ∃ t : Fin cfg6.N, t.val = (i 1).val / 512 := ⟨⟨_, ht⟩, rfl⟩
  obtain ⟨e0, e1, e2, e3, e4, e5⟩ := idx6 t
  refine ⟨t, flush6_2 t, ?_⟩
  rw [mem_blk6]
  intro a
  match a with
  | ⟨0, _⟩ =>
    show win6_2.index t (0 : Fin 2) * 4096 ≤ (i 0).val ∧ (i 0).val < win6_2.index t (0 : Fin 2) * 4096 + 4096
    rw [e4]; omega
  | ⟨1, _⟩ =>
    show win6_2.index t (1 : Fin 2) * 512 ≤ (i 1).val ∧ (i 1).val < win6_2.index t (1 : Fin 2) * 512 + 512
    rw [e5, htv]; omega

/-- The array the region leaves: (g, v) ↦ Σ_k A0(g,k) · A1(v,k). -/
theorem final6 (c : Dev nD) (A0 : FVec Ideal S4096x256 .bf16) (A1 : FVec Ideal S50176x256 .bf16)
    (h0 : V c (Pipeline.arrRef spec6 0) = A0) (h1 : V c (Pipeline.arrRef spec6 1) = A1) :
    (dat6 (F := Ideal) V c).arrAt 2 cfg6.N = rowDot A0 A1 :=
  (dat6 (F := Ideal) V c).arrAt_eq_of_cover 2 (rowDot A0 A1) (fun t _ => flushed6 V c A0 A1 h0 h1 t) cover6

end Region

/-- The kept columns of the product with the padded table are the product with the table itself. -/
theorem slice_pad (s : FVec Ideal S4096x256 .f32) (emb : FVec Ideal S50000x256 .f32) (z : FVec Ideal S_ .bf16) :
    extractStridedSlice S4096x50000 ![0, 0]
        (rowDot s (pad S50176x256 ![0, 0] ![176, 0] ![0, 0] emb z pads_S50000x256_S50176x256_01760_000 h_S_))
        slices_S4096x50176_S4096x50000_0_0
      = rowDot s emb := by
  funext i
  obtain ⟨g, v, rfl⟩ : ∃ (g : Fin 4096) (v : Fin 50000), i = ix2 g v := ⟨i 0, i 1, eq_ix2 i⟩
  have hv : v.val < 50176 := by have := v.isLt; omega
  refine (slice2_axis1_apply 0 _ _ g v ⟨v.val, hv⟩ (Nat.zero_add _).symm).trans ?_
  rw [rowDot_apply, rowDot_apply]
  refine Finset.sum_congr rfl fun k _ => ?_
  congr 1
  refine pad_apply_of_inside _ _ _ _ _ _ _ (ix2 ⟨v.val, hv⟩ k) (ix2 v k) fun a => ?_
  match a with
  | ⟨0, _⟩ => show v.val = 0 + v.val * (0 + 1); omega
  | ⟨1, _⟩ => show k.val = 0 + k.val * (0 + 1); omega

section Reference
variable [Cert.ReferenceIdeal.Facts]

/-- Left operand index of the reference's product, row axis: the output's row. -/
theorem lhsR_0 (i : Cert.ReferenceIdeal.S4096x50000.Idx) (q : Cert.ReferenceIdeal.dot_S4096x256_S256x50000_S4096x50000_1_0_0_1_n_n.contr.Idx) :
    (Cert.ReferenceIdeal.dot_S4096x256_S256x50000_S4096x50000_1_0_0_1_n_n.lhsIdx i q 0).val = (i 0).val := by
  unfold DotDims.lhsIdx
  rw [dif_neg (show ¬(0 : Fin Cert.ReferenceIdeal.S4096x256.rank) ∈ Cert.ReferenceIdeal.dot_S4096x256_S256x50000_S4096x50000_1_0_0_1_n_n.lhsBatch from List.not_mem_nil),
    dif_pos (show (0 : Fin Cert.ReferenceIdeal.S4096x256.rank) ∈ Cert.ReferenceIdeal.dot_S4096x256_S256x50000_S4096x50000_1_0_0_1_n_n.lhsNonContracting from List.mem_singleton.mpr rfl)]
  rfl
/-- Left operand index, column axis: the contracted coordinate. -/
theorem lhsR_1 (i : Cert.ReferenceIdeal.S4096x50000.Idx) (q : Cert.ReferenceIdeal.dot_S4096x256_S256x50000_S4096x50000_1_0_0_1_n_n.contr.Idx) :
    (Cert.ReferenceIdeal.dot_S4096x256_S256x50000_S4096x50000_1_0_0_1_n_n.lhsIdx i q 1).val = (q ⟨0, Nat.one_pos⟩).val :=
  Cert.ReferenceIdeal.dot_S4096x256_S256x50000_S4096x50000_1_0_0_1_n_n.lhsIdx_val_of_single rfl i q
/-- Right operand index, row axis: the contracted coordinate. -/
theorem rhsR_0 (i : Cert.ReferenceIdeal.S4096x50000.Idx) (q : Cert.ReferenceIdeal.dot_S4096x256_S256x50000_S4096x50000_1_0_0_1_n_n.contr.Idx) :
    (Cert.ReferenceIdeal.dot_S4096x256_S256x50000_S4096x50000_1_0_0_1_n_n.rhsIdx i q 0).val = (q ⟨0, Nat.one_pos⟩).val :=
  Cert.ReferenceIdeal.dot_S4096x256_S256x50000_S4096x50000_1_0_0_1_n_n.rhsIdx_val_of_single rfl i q
/-- Right operand index, column axis: the output's column. -/
theorem rhsR_1 (i : Cert.ReferenceIdeal.S4096x50000.Idx) (q : Cert.ReferenceIdeal.dot_S4096x256_S256x50000_S4096x50000_1_0_0_1_n_n.contr.Idx) :
    (Cert.ReferenceIdeal.dot_S4096x256_S256x50000_S4096x50000_1_0_0_1_n_n.rhsIdx i q 1).val = (i 1).val := by
  unfold DotDims.rhsIdx
  rw [dif_neg (show ¬(1 : Fin Cert.ReferenceIdeal.S256x50000.rank) ∈ Cert.ReferenceIdeal.dot_S4096x256_S256x50000_S4096x50000_1_0_0_1_n_n.rhsBatch from List.not_mem_nil),
    dif_pos (show (1 : Fin Cert.ReferenceIdeal.S256x50000.rank) ∈ Cert.ReferenceIdeal.dot_S4096x256_S256x50000_S4096x50000_1_0_0_1_n_n.rhsNonContracting from List.mem_singleton.mpr rfl)]
  rfl

/-- The reference's product with the transposed table, entry by entry. -/
theorem scores_ref (s : Cert.Rst.A S4096x256) (emb : Cert.Rst.A S50000x256) :
    Cert.Rst.scores s emb = rowDot s emb := by
  funext i
  obtain ⟨g, v, rfl⟩ : ∃ (g : Fin 4096) (v : Fin 50000), i = ix2 g v := ⟨i 0, i 1, eq_ix2 i⟩
  unfold Cert.Rst.scores
  show FloatOps.dotGeneral Cert.ReferenceIdeal.dot_S4096x256_S256x50000_S4096x50000_1_0_0_1_n_n none _ s _ (ix2 g v) = _
  rw [Ideal.dotGeneral_apply, ← Equiv.sum_comp (contrEquiv1 Cert.ReferenceIdeal.dot_S4096x256_S256x50000_S4096x50000_1_0_0_1_n_n 256 rfl rfl).symm, rowDot_apply]
  refine Finset.sum_congr rfl fun k _ => ?_
  have hk := contrEquiv1_symm_val Cert.ReferenceIdeal.dot_S4096x256_S256x50000_S4096x50000_1_0_0_1_n_n 256 rfl rfl k
  have el : Cert.ReferenceIdeal.dot_S4096x256_S256x50000_S4096x50000_1_0_0_1_n_n.lhsIdx (ix2 g v) ((contrEquiv1 Cert.ReferenceIdeal.dot_S4096x256_S256x50000_S4096x50000_1_0_0_1_n_n 256 rfl rfl).symm k) = ix2 g k := funext fun a => Fin.ext (by
    match a with
    | ⟨0, _⟩ => exact lhsR_0 _ _
    | ⟨1, _⟩ => exact (lhsR_1 _ _).trans hk)
  have er : Cert.ReferenceIdeal.dot_S4096x256_S256x50000_S4096x50000_1_0_0_1_n_n.rhsIdx (ix2 g v) ((contrEquiv1 Cert.ReferenceIdeal.dot_S4096x256_S256x50000_S4096x50000_1_0_0_1_n_n 256 rfl rfl).symm k) = ix2 k v := funext fun a => Fin.ext (by
    match a with
    | ⟨0, _⟩ => exact (rhsR_0 _ _).trans hk
    | ⟨1, _⟩ => exact rhsR_1 _ _)
  rw [el, er, transpose_ix2_apply]

end Reference

/-- The sliced result of the last region, for any entry contents whose first window holds `s` and whose second holds
    the padded table. -/
theorem final6_sliced_dot (V : (c : Dev nD) → (b : Ref sig .tc) → Buf (Elt Ideal) ((c : Thread nD τ).loc b)) (c : Dev nD)
    (s : FVec Ideal S4096x256 .f32) (emb : FVec Ideal S50000x256 .f32) (z : FVec Ideal S_ .bf16)
    (e0 : V c (Pipeline.arrRef spec6 0) = s)
    (e1 : V c (Pipeline.arrRef spec6 1)
      = pad S50176x256 ![0, 0] ![176, 0] ![0, 0] emb z pads_S50000x256_S50176x256_01760_000 h_S_) :
    extractStridedSlice S4096x50000 ![0, 0] ((dat6 (F := Ideal) V c).arrAt 2 cfg6.N) slices_S4096x50176_S4096x50000_0_0
      = rowDot s emb := by
  rw [final6 V c s _ e0 e1]
  exact slice_pad s emb z

end Cert.Reg.Final

namespace Cert.Reg

open Idealize.ShloMosaic Idealize.ShloMosaic.TcCoe
open Cert.KernelIdeal Cert.KernelIdeal.Gen

/-- The last region's result with the padding columns cut off is the reference's last stage: for any entry contents
    whose first window holds `s` and whose second holds the table `emb` followed by 176 rows of any one value. -/
theorem final6_sliced [Cert.ReferenceIdeal.Facts]
    (V : (c : Dev nD) → (b : Ref sig .tc) → Buf (Elt Ideal) ((c : Thread nD τ).loc b)) (c : Dev nD)
    (s : Cert.Rst.A S4096x256) (emb : Cert.Rst.A S50000x256) (z : FVec Ideal S_ .bf16)
    (e0 : V c (Pipeline.arrRef spec6 0) = s)
    (e1 : V c (Pipeline.arrRef spec6 1)
      = pad S50176x256 ![0, 0] ![176, 0] ![0, 0] emb z pads_S50000x256_S50176x256_01760_000 h_S_) :
    extractStridedSlice S4096x50000 ![0, 0] ((dat6 (F := Ideal) V c).arrAt 2 cfg6.N) slices_S4096x50176_S4096x50000_0_0
      = Cert.Rst.scores s emb :=
  (Final.final6_sliced_dot V c s emb z e0 e1).trans (Final.scores_ref s emb).symm

end Cert.Reg

end
-- ==== Proof.CountBound.lean ====
/-
  The "last node of each graph" index vector and its range.

  From a batch vector b : [81920] of 32-bit words the program forms
    b0 = max(0, b)  (signed),   b1 = b0 + 4096 where b0 <ₛ 0, else b0,
    counts = the accumulating scatter of ones into zeros[4096] at the positions b1   (a histogram),
    cs     = the inclusive prefix sum of counts (a window of 4096 cells, 4095 cells of padding in front),
    last   = cs - 1.
  counts j is, as a word, the number of positions whose update lands on cell j, and each position lands on at most
  one cell, so the counts sum (as natural numbers) to at most 81920. A window sum reads distinct cells, so cs g is
  the word of a natural number ≤ 81920 < 2^31; hence last g, read signed, lies in [-1, 81919]. Nothing is asked of b.
-/
import proofs.«425236_j80513456930926_1_alg».proof.Proof.Basics
import proofs.«425236_j80513456930926_1_alg».proof.KernelIdeal
import Idealize.ShloMosaic.PureOps
import Mathlib.Data.BitVec
import Mathlib.Algebra.BigOperators.Fin
import Mathlib.Algebra.BigOperators.Group.Finset.Sigma
import Mathlib.Algebra.Order.BigOperators.Group.Finset

namespace Cert.Count

open Idealize.ShloMosaic

/-! ## Sums -/

/-- A left fold that adds one term per list element is the start value plus the list's sum. -/
theorem foldl_add_eq {ι M : Type} [AddCommMonoid M] (t : ι → M) (l : List ι) (v : M) :
    l.foldl (fun r n => r + t n) v = v + (l.map t).sum := by
  induction l generalizing v with
  | nil => simp
  | cons a l ih => rw [List.foldl_cons, ih, List.map_cons, List.sum_cons, add_assoc]

/-- A sum over `k` of a table `c` read at a partial, injective re-indexing is at most the table's whole sum. -/
theorem sum_dite_le {κ ι : Type} [Fintype κ] [Fintype ι] [DecidableEq ι] (P : κ → Prop) [DecidablePred P]
    (jdx : (k : κ) → P k → ι) (hinj : ∀ a b (ha : P a) (hb : P b), jdx a ha = jdx b hb → a = b) (c : ι → ℕ) :
    ∑ k, (if h : P k then c (jdx k h) else 0) ≤ ∑ i, c i := by
  classical
  have h1 : ∀ k, (if h : P k then c (jdx k h) else 0) = ∑ i, if (∃ h : P k, jdx k h = i) then c i else 0 := by
    intro k
    by_cases hk : P k
    · rw [dif_pos hk, Finset.sum_eq_single (jdx k hk), if_pos ⟨hk, rfl⟩]
      · intro b _ hb
        exact if_neg fun ⟨_, e⟩ => hb e.symm
      · intro hn
        exact absurd (Finset.mem_univ _) hn
    · rw [dif_neg hk]
      exact (Finset.sum_eq_zero fun i _ => if_neg fun ⟨h, _⟩ => hk h).symm
  simp only [h1]
  rw [Finset.sum_comm]
  refine Finset.sum_le_sum fun i _ => ?_
  rw [Finset.sum_ite, Finset.sum_const, Finset.sum_const_zero, add_zero, smul_eq_mul]
  have hc : (Finset.univ.filter fun k => ∃ h : P k, jdx k h = i).card ≤ 1 := by
    refine Finset.card_le_one.mpr fun a ha b hb => ?_
    obtain ⟨pa, ea⟩ := (Finset.mem_filter.mp ha).2
    obtain ⟨pb, eb⟩ := (Finset.mem_filter.mp hb).2
    exact hinj a b pa pb (ea.trans eb.symm)
  calc _ ≤ 1 * c i := Nat.mul_le_mul_right _ hc
    _ = c i := one_mul _

/-! ## The accumulating scatter read at one entry -/

/-- An integer accumulating scatter at entry `i`: what was there plus, over the updates in row-major order, the
    update where its result index is `i` and zero elsewhere (an update whose index leaves the operand is dropped). -/
theorem scatter_addi_apply {s si u : Shape} {w : Nat} (d : ScatterDims s si u) (x : s.Idx → BitVec 32)
    (idx : IVec si w) (upd : u.Idx → BitVec 32) (i : s.Idx) :
    Host.scatter d IntOp.addi x idx upd i
      = x i + ∑ n : Fin u.numel,
          (if d.resultIdx? (u.rowMajor.symm n) idx = some i then upd (u.rowMajor.symm n) else 0) := by
  unfold Host.scatter
  rw [Fin.sum_univ_def]
  generalize List.finRange u.numel = l
  induction l generalizing x with
  | nil => simp
  | cons n l ih =>
    rw [List.foldl_cons, ih, List.map_cons, List.sum_cons, ← add_assoc]
    congr 1
    cases hr : d.resultIdx? (u.rowMajor.symm n) idx with
    | none => simp
    | some i0 =>
      by_cases h : i = i0
      · subst h; simp [IntOp.addi]
      · have h' : ¬ i0 = i := fun e => h e.symm
        simp [h, h']

/-- How many updates land on entry `i`. -/
def hits {s si u : Shape} {w : Nat} (d : ScatterDims s si u) (idx : IVec si w) (i : s.Idx) : ℕ :=
  ∑ n : Fin u.numel, if d.resultIdx? (u.rowMajor.symm n) idx = some i then 1 else 0

/-- Ones accumulated into zeros: each entry is its number of hits, as a word. -/
theorem scatter_ones {s si u : Shape} {w : Nat} (d : ScatterDims s si u) (idx : IVec si w) (i : s.Idx) :
    Host.scatter d IntOp.addi (fun _ => 0#32) idx (fun _ => 1#32) i = ((hits d idx i : ℕ) : BitVec 32) := by
  rw [scatter_addi_apply, hits, Nat.cast_sum, BitVec.zero_add]
  refine Finset.sum_congr rfl fun n _ => ?_
  split <;> simp

/-- Each update lands on at most one entry: the hits over all entries number at most the updates. -/
theorem sum_hits_le {s si u : Shape} {w : Nat} (d : ScatterDims s si u) (idx : IVec si w) :
    ∑ i : s.Idx, hits d idx i ≤ u.numel := by
  unfold hits
  rw [Finset.sum_comm]
  calc ∑ n : Fin u.numel, ∑ i : s.Idx, (if d.resultIdx? (u.rowMajor.symm n) idx = some i then 1 else 0)
      ≤ ∑ _n : Fin u.numel, 1 := Finset.sum_le_sum fun n _ => by
        cases hr : d.resultIdx? (u.rowMajor.symm n) idx with
        | none => simp
        | some i0 => simp [Finset.sum_ite_eq]
    _ = u.numel := by simp

/-! ## A window sum of counts -/

/-- A left fold adding, per position `n`, a table entry read at a partial injective re-indexing (zero where the
    position is outside), over a table of casts of natural numbers `c`: the cast of a natural number no larger
    than `c`'s whole sum. -/
theorem foldl_dite_bound {m : ℕ} {ι : Type} [Fintype ι] [DecidableEq ι] (P : Fin m → Prop)
    {inst : ∀ k, Decidable (P k)} (jdx : (k : Fin m) → P k → ι)
    (hinj : ∀ a b (ha : P a) (hb : P b), jdx a ha = jdx b hb → a = b)
    (c : ι → ℕ) (x : ι → BitVec 32) (hx : ∀ i, x i = ((c i : ℕ) : BitVec 32)) (v : BitVec 32) (hv : v = 0) :
    ∃ M : ℕ, M ≤ ∑ i, c i ∧
      (List.finRange m).foldl
        (fun r n => IntOp.addi r (@dite _ (P n) (inst n) (fun hn => x (jdx n hn)) (fun _ => v))) v
        = ((M : ℕ) : BitVec 32) := by
  subst hv
  refine ⟨∑ n, (@dite _ (P n) (inst n) (fun hn => c (jdx n hn)) (fun _ => 0)),
    @sum_dite_le _ _ _ _ _ P inst jdx hinj c, ?_⟩
  have e : ∀ (l : List (Fin m)) (v : BitVec 32),
      l.foldl (fun r n => IntOp.addi r (@dite _ (P n) (inst n) (fun hn => x (jdx n hn)) (fun _ => 0))) v
        = l.foldl (fun r n => r + (@dite _ (P n) (inst n) (fun hn => x (jdx n hn)) (fun _ => 0))) v :=
    fun _ _ => rfl
  rw [e, foldl_add_eq, zero_add, ← Fin.sum_univ_def, Nat.cast_sum]
  refine Finset.sum_congr rfl fun n _ => ?_
  by_cases hn : P n
  · rw [dif_pos hn, dif_pos hn, hx]
  · rw [dif_neg hn, dif_neg hn, Nat.cast_zero]

/-- A window sum (any window, stride and padding), from zero, of a table of words that are the casts of natural
    numbers `c`: at every result index it is the cast of a natural number no larger than `c`'s whole sum — the
    window's positions inside the operand are distinct entries of the table. -/
theorem reduceWindow_addi_bound {s t u : Shape} (window strides lo hi : Fin s.rank → Nat) (c : s.Idx → ℕ)
    (x : s.Idx → BitVec 32) (hx : ∀ i, x i = ((c i : ℕ) : BitVec 32))
    (init : u.Idx → BitVec 32) (h : s.ReduceWindows window strides lo hi t) (hu : 0 < u.numel)
    (hinit : init (Shape.Idx.first hu) = 0) (j : t.Idx) :
    ∃ M : ℕ, M ≤ ∑ i, c i ∧
      Host.reduceWindow IntOp.addi window strides lo hi x init h hu j = ((M : ℕ) : BitVec 32) := by
  unfold Host.reduceWindow
  dsimp only
  refine foldl_dite_bound
    (fun n => ∀ a : Fin s.rank,
      lo a ≤ (j (a.cast h.1.symm)).val * strides a + ((Shape.rowMajor ⟨s.rank, window⟩).symm n a).val ∧
      (j (a.cast h.1.symm)).val * strides a + ((Shape.rowMajor ⟨s.rank, window⟩).symm n a).val - lo a < s.size a)
    (fun n hin a =>
      ⟨(j (a.cast h.1.symm)).val * strides a + ((Shape.rowMajor ⟨s.rank, window⟩).symm n a).val - lo a, (hin a).2⟩)
    ?_ c x hx _ hinit
  -- distinct window positions inside the operand are distinct operand entries
  intro a b ha hb e
  apply (Shape.rowMajor (⟨s.rank, window⟩ : Shape)).symm.injective
  funext ax
  apply Fin.ext
  have e1 := congrArg (fun f => (f ax).val) e
  dsimp only at e1
  have h1 := (ha ax).1
  have h2 := (hb ax).1
  omega

/-! ## Words -/

/-- The cast of a natural number at most 81920, less one, read signed, lies in [-1, 81919]. -/
theorem toInt_cast_sub_one (M : ℕ) (hM : M ≤ 81920) :
    -81920 ≤ (((M : ℕ) : BitVec 32) - 1#32).toInt ∧ (((M : ℕ) : BitVec 32) - 1#32).toInt < 81920 := by
  rw [BitVec.natCast_eq_ofNat]
  have h1 : (BitVec.ofNat 32 M).toNat ≤ 81920 := by rw [BitVec.toNat_ofNat]; omega
  generalize BitVec.ofNat 32 M = b at h1 ⊢
  have h2 : (1#32 : BitVec 32).toNat = 1 := rfl
  rw [BitVec.toInt_eq_toNat_cond, BitVec.toNat_sub, h2]
  split <;> omega

/-! ## The program's chain -/

section Chain

open Cert.KernelIdeal
open Cert.KernelIdeal.Facts₀

variable [Facts₀]

/-- The batch vector clipped below at zero: the signed maximum with a broadcast zero. -/
def clip0 (batch : IVec S81920 32) : IVec S81920 32 :=
  maxsi (broadcastInDim S81920 ![] bcast_S_S81920 (id (constantI S_ 32 0#32))) batch

/-- The clipped vector with a negative entry counted from the end of the 4096 axis. -/
def wrapped (batch : IVec S81920 32) : IVec S81920 32 :=
  select (cmpi .slt (clip0 batch) (broadcastInDim S81920 ![] bcast_S_S81920 (constantI S_ 32 0#32)))
    (addi (clip0 batch) (broadcastInDim S81920 ![] bcast_S_S81920 (constantI S_ 32 4096#32)))
    (clip0 batch)

/-- The histogram of the wrapped vector over 4096 cells: ones accumulated into zeros. -/
def counts (batch : IVec S81920 32) : IVec S4096 32 :=
  Host.scatter scatter_S4096_S81920x1_S81920_n_0_0_1 IntOp.addi
    (broadcastInDim S4096 ![] bcast_S_S4096 (constantI S_ 32 0#32))
    (broadcastInDim S81920x1 ![0] bcast_S81920_S81920x1_0 (wrapped batch))
    (broadcastInDim S81920 ![] bcast_S_S81920 (constantI S_ 32 1#32))

/-- The inclusive prefix sum of the histogram. -/
def cumul (batch : IVec S81920 32) : IVec S4096 32 :=
  Host.reduceWindow IntOp.addi ![4096] ![1] ![4095] ![0] (counts batch)
    (broadcastInDim S_ ![] bcast_S_S_ (constantI S_ 32 0#32)) reduceWindows_S4096_S4096_w4096s1p4095_0 h_S_

/-- The index of the last node of each graph: the prefix sum less one. -/
def lastIdx (batch : IVec S81920 32) : IVec S4096 32 :=
  subi (cumul batch) (broadcastInDim S4096 ![] bcast_S_S4096 (constantI S_ 32 1#32))

/-- The extent of the batch axis. -/
theorem numel_S81920 : S81920.numel = 81920 := by decide

/-- Every entry of the last-node index vector, read signed, is a legal position of an axis of extent 81920
    (it lies in [-1, 81919]), whatever the batch vector holds. -/
theorem lastIdx_inRange (batch : IVec S81920 32) : Cert.Ix.InRange 81920 (lastIdx batch) := by
  intro g
  show -81920 ≤ (lastIdx batch g).toInt ∧ (lastIdx batch g).toInt < 81920
  -- the histogram's cells are the casts of the hit counts
  have hcounts : ∀ i, counts batch i
      = ((hits scatter_S4096_S81920x1_S81920_n_0_0_1
            (broadcastInDim S81920x1 ![0] bcast_S81920_S81920x1_0 (wrapped batch)) i : ℕ) : BitVec 32) :=
    fun i => scatter_ones _ _ i
  -- the prefix sum at g is the cast of a natural number bounded by all the hits
  obtain ⟨M, hM, hcs⟩ := reduceWindow_addi_bound ![4096] ![1] ![4095] ![0] _ (counts batch) hcounts
    (broadcastInDim S_ ![] bcast_S_S_ (constantI S_ 32 0#32)) reduceWindows_S4096_S4096_w4096s1p4095_0 h_S_ rfl g
  have hcs' : cumul batch g = ((M : ℕ) : BitVec 32) := hcs
  have hle : M ≤ 81920 := hM.trans ((sum_hits_le _ _).trans (le_of_eq numel_S81920))
  have hl : lastIdx batch g = cumul batch g - 1#32 := rfl
  rw [hl, hcs']
  exact toInt_cast_sub_one M hle

end Chain

end Cert.Count
-- ==== Proof.KernelB.lean ====
/-
  The second half of the kernel program's walk: from the node states after the second GRU step to the scores.

  Between the boundary after the fourth region and the result the program forms, on the host, the last node of every
  graph (graph ids clipped at zero, a histogram of them, its running sum, minus one), reads the node states at those
  positions and copies each graph's row to all of its nodes (two guarded table reads; the positions are in range, so
  the guards change nothing), then in a region the readout weights, on the host the per-graph sums of the weighted rows
  put beside the last-node rows, in a region the affine map, on the host the embedding table padded below with zero
  rows, in a region the product with the padded table, and on the host the cut back to the table's true height.

  Each host stretch is read once over arbitrary buffer contents: which buffers it writes (every other buffer keeps its
  contents) and what each result buffer holds as the stretch's operations applied to the buffers it reads. The walk
  then follows, boundary by boundary, the buffers the next stretch or region reads, and each boundary's value is the
  reference's stage function of the values before it. The result is the tail of the reference's composition applied to
  the node states, whatever they are.
-/
import proofs.«425236_j80513456930926_1_alg».proof.Proof.Gen.KernelIdeal.Frame
import proofs.«425236_j80513456930926_1_alg».proof.Proof.KernelBTab
import proofs.«425236_j80513456930926_1_alg».proof.Proof.Basics
import proofs.«425236_j80513456930926_1_alg».proof.Proof.RefStages
import proofs.«425236_j80513456930926_1_alg».proof.Proof.RegReadout
import proofs.«425236_j80513456930926_1_alg».proof.Proof.RegProj
import proofs.«425236_j80513456930926_1_alg».proof.Proof.RegFinal
import proofs.«425236_j80513456930926_1_alg».proof.Proof.MaskTake
import proofs.«425236_j80513456930926_1_alg».proof.Proof.CountBound
import Idealize.ShloMosaic.Lib.StableHlo.Run
import Idealize.ShloMosaic.PureOps.Ideal

noncomputable section

namespace Cert.KernelIdeal.Walk

open Idealize.ShloMosaic Idealize.ShloMosaic.TcCoe Cert.KernelIdeal Cert.KernelIdeal.Gen

variable [Cert.ReferenceIdeal.Facts]

/-- Everything after the second GRU step, as one function of the node states and the arguments it reads: the
    last-node rows, their per-node copies, the readout weights, the per-graph sums joined to the last-node rows,
    the affine map, the scores. -/
def tail (h2 : Cert.Rst.A Cert.ReferenceIdeal.S81920x256) (b : Cert.Rst.I Cert.ReferenceIdeal.S81920)
    (emb : Cert.Rst.A Cert.ReferenceIdeal.S50000x256)
    (W1 : Cert.Rst.A Cert.ReferenceIdeal.S256x256) (b1 : Cert.Rst.A Cert.ReferenceIdeal.S256)
    (W2 : Cert.Rst.A Cert.ReferenceIdeal.S256x256) (b2 : Cert.Rst.A Cert.ReferenceIdeal.S256)
    (qw : Cert.Rst.A Cert.ReferenceIdeal.S1x256) (qb : Cert.Rst.A Cert.ReferenceIdeal.S1)
    (W3 : Cert.Rst.A Cert.ReferenceIdeal.S256x512) (b3 : Cert.Rst.A Cert.ReferenceIdeal.S256) :
    Cert.Rst.A Cert.ReferenceIdeal.S4096x50000 :=
  Cert.Rst.scores (Cert.Rst.sh (Cert.Rst.segcat (Cert.Rst.vn h2 (Cert.Rst.lastIdx b))
    (Cert.Rst.readout h2 (Cert.Rst.vne (Cert.Rst.vn h2 (Cert.Rst.lastIdx b)) b) W1 b1 W2 b2 qw qb) b) W3 b3) emb

/-- The reference's whole composition is the tail applied to the node states after the two GRU steps. -/
theorem out_eq_tail (x : Cert.Rst.I Cert.ReferenceIdeal.S81920) (ei : Cert.Rst.I Cert.ReferenceIdeal.S2x163840) (b : Cert.Rst.I Cert.ReferenceIdeal.S81920)
    (emb : Cert.Rst.A Cert.ReferenceIdeal.S50000x256) (g : Cert.Rst.A Cert.ReferenceIdeal.S2x256x256) (wih whh : Cert.Rst.A Cert.ReferenceIdeal.S768x256)
    (bih bhh : Cert.Rst.A Cert.ReferenceIdeal.S768) (W1 : Cert.Rst.A Cert.ReferenceIdeal.S256x256) (b1 : Cert.Rst.A Cert.ReferenceIdeal.S256)
    (W2 : Cert.Rst.A Cert.ReferenceIdeal.S256x256) (b2 : Cert.Rst.A Cert.ReferenceIdeal.S256) (qw : Cert.Rst.A Cert.ReferenceIdeal.S1x256) (qb : Cert.Rst.A Cert.ReferenceIdeal.S1)
    (W3 : Cert.Rst.A Cert.ReferenceIdeal.S256x512) (b3 : Cert.Rst.A Cert.ReferenceIdeal.S256) :
    Cert.Rst.out x ei b emb g wih whh bih bhh W1 b1 W2 b2 qw qb W3 b3
      = tail (Cert.Rst.gru (Cert.Rst.gru (Cert.Rst.h0 emb x) (Cert.Rst.agg (Cert.Rst.proj (Cert.Rst.h0 emb x) (Cert.Rst.gw0 g)) (Cert.Rst.src ei) (Cert.Rst.dst ei)) wih whh bih bhh) (Cert.Rst.agg (Cert.Rst.proj (Cert.Rst.gru (Cert.Rst.h0 emb x) (Cert.Rst.agg (Cert.Rst.proj (Cert.Rst.h0 emb x) (Cert.Rst.gw0 g)) (Cert.Rst.src ei) (Cert.Rst.dst ei)) wih whh bih bhh) (Cert.Rst.gw1 g)) (Cert.Rst.src ei) (Cert.Rst.dst ei)) wih whh bih bhh) b emb W1 b1 W2 b2 qw qb W3 b3 := rfl

/-! ## What each host stretch computes, over any contents `V` of the buffers

Each statement reads one result buffer of one stretch as the stretch's own operations applied to the contents of the
buffers it reads. -/

section Values

variable (V : Valuation τ sig (Elt Ideal))

/-- The zero histogram cells. -/
theorem ops4_v39 : StableHlo.after hostOps4 V (Proc.devRef .tc main_v39)
    = broadcastInDim S4096 ![] bcast_S_S4096 (constantI S_ 32 0#32) := by
  simp only [hostOps4]; after_results
/-- The zero the batch vector is clipped at. -/
theorem ops4_c6 : StableHlo.after hostOps4 V (Proc.devRef .tc main_c_6) = constantI S_ 32 0#32 := by
  simp only [hostOps4]; after_results
/-- The clipped batch vector. -/
theorem ops4_1_v40 : StableHlo.after hostOps4_1 V (Proc.devRef .tc main_v40)
    = maxsi (broadcastInDim S81920 ![] bcast_S_S81920 (id (V (Proc.devRef .tc main_c_6)))) (V (Proc.devRef .tc main_arg2)) := by
  simp only [hostOps4_1]; after_results; simp only [cast_eq]
/-- The histogram: ones accumulated at the wrapped clipped positions. -/
theorem ops4_2_v48 : StableHlo.after hostOps4_2 V (Proc.devRef .tc main_v48)
    = Host.scatter scatter_S4096_S81920x1_S81920_n_0_0_1 IntOp.addi (V (Proc.devRef .tc main_v39))
        (broadcastInDim S81920x1 ![0] bcast_S81920_S81920x1_0
          (select (cmpi .slt (V (Proc.devRef .tc main_v40)) (broadcastInDim S81920 ![] bcast_S_S81920 (constantI S_ 32 0#32)))
            (addi (V (Proc.devRef .tc main_v40)) (broadcastInDim S81920 ![] bcast_S_S81920 (constantI S_ 32 4096#32)))
            (V (Proc.devRef .tc main_v40))))
        (broadcastInDim S81920 ![] bcast_S_S81920 (constantI S_ 32 1#32)) := by
  simp only [hostOps4_2]; after_results_simp
/-- The running sum of the histogram. -/
theorem ops4_3_v49 : StableHlo.after hostOps4_3 V (Proc.devRef .tc main_v49)
    = Host.reduceWindow IntOp.addi ![4096] ![1] ![4095] ![0] (V (Proc.devRef .tc main_v48))
        (broadcastInDim S_ ![] bcast_S_S_ (constantI S_ 32 0#32)) reduceWindows_S4096_S4096_w4096s1p4095_0 h_S_ := by
  simp only [hostOps4_3]; after_results; simp only [cast_eq]
/-- The running sum less one. -/
theorem ops4_4_v51 : StableHlo.after hostOps4_4 V (Proc.devRef .tc main_v51)
    = subi (V (Proc.devRef .tc main_v49)) (broadcastInDim S4096 ![] bcast_S_S4096 (constantI S_ 32 1#32)) := by
  simp only [hostOps4_4]; after_results
/-- The guarded read of the node states at the last-node positions. -/
theorem ops4_5_v52 : StableHlo.after hostOps4_5 V (Proc.devRef .tc main_v52)
    = Cert.Masks.take3 (V (Proc.devRef .tc main_v38)) (V (Proc.devRef .tc main_v51)) := by
  simp only [hostOps4_5]; after_results_simp; simp only [cast_eq]
  unfold Cert.Masks.take3
  rfl
/-- The guarded read of the last-node rows at every node's graph id. -/
theorem ops4_6_v53 : StableHlo.after hostOps4_6 V (Proc.devRef .tc main_v53)
    = Cert.Masks.take5 (V (Proc.devRef .tc main_v52)) (V (Proc.devRef .tc main_arg2)) := by
  simp only [hostOps4_6]; after_results_simp; simp only [cast_eq]
  unfold Cert.Masks.take5
  rfl
/-- The two readout matrices: a change of float format is the identity on extended reals. -/
theorem ops4_7_v54 : StableHlo.after hostOps4_7 V (Proc.devRef .tc main_v54) = V (Proc.devRef .tc main_arg9) := by
  simp only [hostOps4_7]; after_results; rfl
theorem ops4_7_v55 : StableHlo.after hostOps4_7 V (Proc.devRef .tc main_v55) = V (Proc.devRef .tc main_arg11) := by
  simp only [hostOps4_7]; after_results; rfl
/-- The two readout biases as one-row matrices, and the scalar offset as a one-by-one matrix. -/
theorem ops4_7_v56 : StableHlo.after hostOps4_7 V (Proc.devRef .tc main_v56)
    = shapeCast S1x256 (V (Proc.devRef .tc main_arg10) : FVec Ideal S256 .f32) shapeCasts_S256_S1x256 := by
  simp only [hostOps4_7]; after_results; rfl
theorem ops4_7_v57 : StableHlo.after hostOps4_7 V (Proc.devRef .tc main_v57)
    = shapeCast S1x256 (V (Proc.devRef .tc main_arg12) : FVec Ideal S256 .f32) shapeCasts_S256_S1x256 := by
  simp only [hostOps4_7]; after_results; rfl
theorem ops4_7_v58 : StableHlo.after hostOps4_7 V (Proc.devRef .tc main_v58)
    = shapeCast S1x1 (V (Proc.devRef .tc main_arg14) : FVec Ideal S1 .f32) shapeCasts_S1_S1x1 := by
  simp only [hostOps4_7]; after_results; rfl
/-- The per-graph sums of the weighted rows, to the right of the last-node rows. -/
theorem ops5_v63 : StableHlo.after hostOps5 V (Proc.devRef .tc main_v63)
    = Cert.Rst.segcat (V (Proc.devRef .tc main_v52)) (V (Proc.devRef .tc main_v59)) (V (Proc.devRef .tc main_arg2)) := by
  simp only [hostOps5]; after_results; rfl
theorem ops5_v64 : StableHlo.after hostOps5 V (Proc.devRef .tc main_v64) = V (Proc.devRef .tc main_arg15) := by
  simp only [hostOps5]; after_results; rfl
theorem ops5_v65 : StableHlo.after hostOps5 V (Proc.devRef .tc main_v65)
    = shapeCast S1x256 (V (Proc.devRef .tc main_arg16) : FVec Ideal S256 .f32) shapeCasts_S256_S1x256 := by
  simp only [hostOps5]; after_results; rfl
/-- The embedding table in the narrow format (the identity), and the zero the padding is made of. -/
theorem ops6_v67 : StableHlo.after hostOps6 V (Proc.devRef .tc main_v67) = V (Proc.devRef .tc main_arg3) := by
  simp only [hostOps6]; after_results; rfl
theorem ops6_c12 : StableHlo.after hostOps6 V (Proc.devRef .tc main_c_12) = constantI S_ 32 0#32 := by
  simp only [hostOps6]; after_results
/-- The embedding table with 176 rows of padding below. -/
theorem ops6_1_v68 (emb : FVec Ideal S50000x256 .bf16) (z0 : IVec S_ 32)
    (h67 : V (Proc.devRef .tc main_v67) = emb) (hc : V (Proc.devRef .tc main_c_12) = z0) :
    StableHlo.after hostOps6_1 V (Proc.devRef .tc main_v68)
      = pad S50176x256 ![0, 0] ![176, 0] ![0, 0] emb (sitofp (F := Ideal) .bf16 z0) pads_S50000x256_S50176x256_01760_000 h_S_ := by
  subst h67 hc
  simp only [hostOps6_1]; after_results; simp only [cast_eq]
/-- The affine map's result in the narrow format (the identity). -/
theorem ops6_2_v69 : StableHlo.after hostOps6_2 V (Proc.devRef .tc main_v69) = V (Proc.devRef .tc main_v66) := by
  simp only [hostOps6_2]; after_results; rfl
/-- The result: the first 50000 columns of the last region's output. -/
theorem ops7_v71 : StableHlo.after hostOps7 V (Proc.devRef .tc main_v71)
    = extractStridedSlice S4096x50000 ![0, 0] (V (Proc.devRef .tc main_v70) : FVec Ideal S4096x50176 .f32) slices_S4096x50176_S4096x50000_0_0 := by
  simp only [hostOps7]; after_results

end Values

/-! ## The stretches' results in the reference's stage functions

The same statements with the contents a stretch reads named: the result is the reference's stage of those. The two
guarded reads lose their guard here, the positions being in range. -/

section Stages

variable (V : Valuation τ sig (Elt Ideal))

theorem st4_1 (b : IVec S81920 32) (hc : V (Proc.devRef .tc main_c_6) = constantI S_ 32 0#32)
    (ha : V (Proc.devRef .tc main_arg2) = b) :
    StableHlo.after hostOps4_1 V (Proc.devRef .tc main_v40) = Cert.Count.clip0 b := by
  subst ha
  rw [ops4_1_v40, hc]; rfl

theorem st4_2 (b : IVec S81920 32)
    (h39 : V (Proc.devRef .tc main_v39) = broadcastInDim S4096 ![] bcast_S_S4096 (constantI S_ 32 0#32))
    (h40 : V (Proc.devRef .tc main_v40) = Cert.Count.clip0 b) :
    StableHlo.after hostOps4_2 V (Proc.devRef .tc main_v48) = Cert.Count.counts b := by
  rw [ops4_2_v48, h39, h40]; rfl

theorem st4_3 (b : IVec S81920 32) (h48 : V (Proc.devRef .tc main_v48) = Cert.Count.counts b) :
    StableHlo.after hostOps4_3 V (Proc.devRef .tc main_v49) = Cert.Count.cumul b := by
  rw [ops4_3_v49, h48]; rfl

theorem st4_4 (b : IVec S81920 32) (h49 : V (Proc.devRef .tc main_v49) = Cert.Count.cumul b) :
    StableHlo.after hostOps4_4 V (Proc.devRef .tc main_v51) = Cert.Rst.lastIdx b := by
  rw [ops4_4_v51, h49]; rfl

/-- The last-node rows: the positions are in range whatever the batch vector, so the guarded read is the plain one. -/
theorem st4_5 (h : FVec Ideal S81920x256 .f32) (b : IVec S81920 32)
    (h38 : V (Proc.devRef .tc main_v38) = h) (h51 : V (Proc.devRef .tc main_v51) = Cert.Rst.lastIdx b) :
    StableHlo.after hostOps4_5 V (Proc.devRef .tc main_v52) = Cert.Rst.vn h (Cert.Rst.lastIdx b) := by
  subst h38
  rw [ops4_5_v52, h51]
  exact Cert.Masks.take3_eq _ _ (Cert.Count.lastIdx_inRange b)

/-- Their per-node copies: the graph ids are in range by hypothesis. -/
theorem st4_6 (v : FVec Ideal S4096x256 .f32) (b : IVec S81920 32)
    (h52 : V (Proc.devRef .tc main_v52) = v) (ha : V (Proc.devRef .tc main_arg2) = b) (hb : Cert.Ix.InRange 4096 b) :
    StableHlo.after hostOps4_6 V (Proc.devRef .tc main_v53) = Cert.Rst.vne v b := by
  subst h52 ha
  rw [ops4_6_v53]
  exact Cert.Masks.take5_eq _ _ hb

end Stages

section Stages2

variable (V : Valuation τ sig (Elt Ideal))

theorem st4_7_v54 (W1 : FVec Ideal S256x256 .f32) (h : V (Proc.devRef .tc main_arg9) = W1) :
    StableHlo.after hostOps4_7 V (Proc.devRef .tc main_v54) = W1 := by
  subst h; exact ops4_7_v54 V
theorem st4_7_v55 (W2 : FVec Ideal S256x256 .f32) (h : V (Proc.devRef .tc main_arg11) = W2) :
    StableHlo.after hostOps4_7 V (Proc.devRef .tc main_v55) = W2 := by
  subst h; exact ops4_7_v55 V
theorem st4_7_v56 (b1 : FVec Ideal S256 .f32) (h : V (Proc.devRef .tc main_arg10) = b1) :
    StableHlo.after hostOps4_7 V (Proc.devRef .tc main_v56) = shapeCast S1x256 b1 shapeCasts_S256_S1x256 := by
  subst h; exact ops4_7_v56 V
theorem st4_7_v57 (b2 : FVec Ideal S256 .f32) (h : V (Proc.devRef .tc main_arg12) = b2) :
    StableHlo.after hostOps4_7 V (Proc.devRef .tc main_v57) = shapeCast S1x256 b2 shapeCasts_S256_S1x256 := by
  subst h; exact ops4_7_v57 V
theorem st4_7_v58 (qb : FVec Ideal S1 .f32) (h : V (Proc.devRef .tc main_arg14) = qb) :
    StableHlo.after hostOps4_7 V (Proc.devRef .tc main_v58) = shapeCast S1x1 qb shapeCasts_S1_S1x1 := by
  subst h; exact ops4_7_v58 V
theorem st5_v63 (v : FVec Ideal S4096x256 .f32) (wt : FVec Ideal S81920x256 .f32) (b : IVec S81920 32)
    (h52 : V (Proc.devRef .tc main_v52) = v) (h59 : V (Proc.devRef .tc main_v59) = wt) (ha : V (Proc.devRef .tc main_arg2) = b) :
    StableHlo.after hostOps5 V (Proc.devRef .tc main_v63) = Cert.Rst.segcat v wt b := by
  subst h52 h59 ha; exact ops5_v63 V
theorem st5_v64 (W3 : FVec Ideal S256x512 .f32) (h : V (Proc.devRef .tc main_arg15) = W3) :
    StableHlo.after hostOps5 V (Proc.devRef .tc main_v64) = W3 := by
  subst h; exact ops5_v64 V
theorem st5_v65 (b3 : FVec Ideal S256 .f32) (h : V (Proc.devRef .tc main_arg16) = b3) :
    StableHlo.after hostOps5 V (Proc.devRef .tc main_v65) = shapeCast S1x256 b3 shapeCasts_S256_S1x256 := by
  subst h; exact ops5_v65 V
theorem st6_v67 (emb : FVec Ideal S50000x256 .f32) (h : V (Proc.devRef .tc main_arg3) = emb) :
    StableHlo.after hostOps6 V (Proc.devRef .tc main_v67) = emb := by
  subst h; exact ops6_v67 V
theorem st6_2_v69 (s : FVec Ideal S4096x256 .f32) (h : V (Proc.devRef .tc main_v66) = s) :
    StableHlo.after hostOps6_2 V (Proc.devRef .tc main_v69) = s := by
  subst h; exact ops6_2_v69 V
theorem st7_v71 (x : FVec Ideal S4096x50176 .f32) (h : V (Proc.devRef .tc main_v70) = x) :
    StableHlo.after hostOps7 V (Proc.devRef .tc main_v71)
      = extractStridedSlice S4096x50000 ![0, 0] x slices_S4096x50176_S4096x50000_0_0 := by
  subst h; exact ops7_v71 V

end Stages2

/-! ## The walk: the buffers from the boundary after the fourth region to the result -/

section Handover

variable (m : (ℓ : Loc nD τ sig) → Buf (Elt Ideal) ℓ) (ρ : Dev nD → PrngReg) (c : Dev nD)

/-- What the first half of the walk hands over at the boundary after the fourth region: the node states, and each
    argument this half reads still at its launch contents. -/
structure Entry (h2 : Cert.Rst.A Cert.ReferenceIdeal.S81920x256) : Prop where
  h : W12 m ρ c (Proc.devRef .tc main_v38) = h2
  a2 : W12 m ρ c (Proc.devRef .tc main_arg2) = m ((c : Thread nD τ).loc main_arg2)
  a3 : W12 m ρ c (Proc.devRef .tc main_arg3) = m ((c : Thread nD τ).loc main_arg3)
  a9 : W12 m ρ c (Proc.devRef .tc main_arg9) = m ((c : Thread nD τ).loc main_arg9)
  a10 : W12 m ρ c (Proc.devRef .tc main_arg10) = m ((c : Thread nD τ).loc main_arg10)
  a11 : W12 m ρ c (Proc.devRef .tc main_arg11) = m ((c : Thread nD τ).loc main_arg11)
  a12 : W12 m ρ c (Proc.devRef .tc main_arg12) = m ((c : Thread nD τ).loc main_arg12)
  a13 : W12 m ρ c (Proc.devRef .tc main_arg13) = m ((c : Thread nD τ).loc main_arg13)
  a14 : W12 m ρ c (Proc.devRef .tc main_arg14) = m ((c : Thread nD τ).loc main_arg14)
  a15 : W12 m ρ c (Proc.devRef .tc main_arg15) = m ((c : Thread nD τ).loc main_arg15)
  a16 : W12 m ρ c (Proc.devRef .tc main_arg16) = m ((c : Thread nD τ).loc main_arg16)

/-- The same hand-over given as one conjunction, in the order of the fields. -/
theorem Entry.ofAnd {h2 : Cert.Rst.A Cert.ReferenceIdeal.S81920x256}
    (e : W12 m ρ c (Proc.devRef .tc main_v38) = h2
      ∧ W12 m ρ c (Proc.devRef .tc main_arg2) = m ((c : Thread nD τ).loc main_arg2)
      ∧ W12 m ρ c (Proc.devRef .tc main_arg3) = m ((c : Thread nD τ).loc main_arg3)
      ∧ W12 m ρ c (Proc.devRef .tc main_arg9) = m ((c : Thread nD τ).loc main_arg9)
      ∧ W12 m ρ c (Proc.devRef .tc main_arg10) = m ((c : Thread nD τ).loc main_arg10)
      ∧ W12 m ρ c (Proc.devRef .tc main_arg11) = m ((c : Thread nD τ).loc main_arg11)
      ∧ W12 m ρ c (Proc.devRef .tc main_arg12) = m ((c : Thread nD τ).loc main_arg12)
      ∧ W12 m ρ c (Proc.devRef .tc main_arg13) = m ((c : Thread nD τ).loc main_arg13)
      ∧ W12 m ρ c (Proc.devRef .tc main_arg14) = m ((c : Thread nD τ).loc main_arg14)
      ∧ W12 m ρ c (Proc.devRef .tc main_arg15) = m ((c : Thread nD τ).loc main_arg15)
      ∧ W12 m ρ c (Proc.devRef .tc main_arg16) = m ((c : Thread nD τ).loc main_arg16)) :
    Entry m ρ c h2 :=
  ⟨e.1, e.2.1, e.2.2.1, e.2.2.2.1, e.2.2.2.2.1, e.2.2.2.2.2.1, e.2.2.2.2.2.2.1, e.2.2.2.2.2.2.2.1, e.2.2.2.2.2.2.2.2.1,
    e.2.2.2.2.2.2.2.2.2.1, e.2.2.2.2.2.2.2.2.2.2⟩

end Handover

section Walk

-- the notations below hold a projection, which the eager check of a notation's identifiers does not read
set_option quotPrecheck false

variable {m : (ℓ : Loc nD τ sig) → Buf (Elt Ideal) ℓ} {ρ : Dev nD → PrngReg} {c : Dev nD}
  {h2 : Cert.Rst.A Cert.ReferenceIdeal.S81920x256}

/-! The launch contents of the argument arrays on the device. -/
local notation "𝔞0" => (m ((c : Thread nD τ).loc main_arg0))
local notation "𝔞1" => (m ((c : Thread nD τ).loc main_arg1))
local notation "𝔞2" => (m ((c : Thread nD τ).loc main_arg2))
local notation "𝔞3" => (m ((c : Thread nD τ).loc main_arg3))
local notation "𝔞4" => (m ((c : Thread nD τ).loc main_arg4))
local notation "𝔞5" => (m ((c : Thread nD τ).loc main_arg5))
local notation "𝔞6" => (m ((c : Thread nD τ).loc main_arg6))
local notation "𝔞7" => (m ((c : Thread nD τ).loc main_arg7))
local notation "𝔞8" => (m ((c : Thread nD τ).loc main_arg8))
local notation "𝔞9" => (m ((c : Thread nD τ).loc main_arg9))
local notation "𝔞10" => (m ((c : Thread nD τ).loc main_arg10))
local notation "𝔞11" => (m ((c : Thread nD τ).loc main_arg11))
local notation "𝔞12" => (m ((c : Thread nD τ).loc main_arg12))
local notation "𝔞13" => (m ((c : Thread nD τ).loc main_arg13))
local notation "𝔞14" => (m ((c : Thread nD τ).loc main_arg14))
local notation "𝔞15" => (m ((c : Thread nD τ).loc main_arg15))
local notation "𝔞16" => (m ((c : Thread nD τ).loc main_arg16))

/-! The stages of the handed-over node states `h2`: the last-node rows, their per-node copies, the weighted rows, the
    joined rows, the affine map. -/
local notation "𝔳" => (Cert.Rst.vn h2 (Cert.Rst.lastIdx 𝔞2))
local notation "𝔢" => (Cert.Rst.vne 𝔳 𝔞2)
local notation "𝔴" => (Cert.Rst.readout h2 𝔢 𝔞9 𝔞10 𝔞11 𝔞12 𝔞13 𝔞14)
local notation "𝔠" => (Cert.Rst.segcat 𝔳 𝔴 𝔞2)
local notation "𝔰" => (Cert.Rst.sh 𝔠 𝔞15 𝔞16)

/-- The last-node positions after the bincount, the running sum and the subtraction. -/
theorem W17_v51 (E : Entry m ρ c h2) :
    W17 m ρ c (Proc.devRef .tc main_v51) = Cert.Rst.lastIdx 𝔞2 :=
  st4_4 (W16 m ρ c) 𝔞2 (st4_3 (W15 m ρ c) 𝔞2 (st4_2 (W14 m ρ c) 𝔞2
    ((keep4_1 (W13 m ρ c) main_v39 (by decide)).trans (ops4_v39 (W12 m ρ c)))
    (st4_1 (W13 m ρ c) 𝔞2 (ops4_c6 (W12 m ρ c)) ((keep4 (W12 m ρ c) main_arg2 (by decide)).trans E.a2))))

/-- The last-node rows. -/
theorem W18_v52 (E : Entry m ρ c h2) :
    W18 m ρ c (Proc.devRef .tc main_v52) = Cert.Rst.vn h2 (Cert.Rst.lastIdx 𝔞2) :=
  st4_5 (W17 m ρ c) h2 𝔞2 ((W17_v38_of_W12 m ρ c).trans E.h) (W17_v51 E)

/-- Their per-node copies. -/
theorem W19_v53 (E : Entry m ρ c h2) (hb : Cert.Ix.InRange 4096 (𝔞2 : Cert.Rst.I Cert.ReferenceIdeal.S81920)) :
    W19 m ρ c (Proc.devRef .tc main_v53) = Cert.Rst.vne 𝔳 𝔞2 :=
  st4_6 (W18 m ρ c) 𝔳 𝔞2 (W18_v52 E) ((W18_arg2_of_W12 m ρ c).trans E.a2) hb

/-- The last-node rows when the fifth region is entered. -/
theorem W20_v52 (E : Entry m ρ c h2) :
    W20 m ρ c (Proc.devRef .tc main_v52) = Cert.Rst.vn h2 (Cert.Rst.lastIdx 𝔞2) :=
  (W20_v52_of_W18 m ρ c).trans (W18_v52 E)

/-- Their per-node copies when the fifth region is entered. -/
theorem W20_v53 (E : Entry m ρ c h2) (hb : Cert.Ix.InRange 4096 (𝔞2 : Cert.Rst.I Cert.ReferenceIdeal.S81920)) :
    W20 m ρ c (Proc.devRef .tc main_v53) = Cert.Rst.vne 𝔳 𝔞2 :=
  (W20_v53_of_W19 m ρ c).trans (W19_v53 E hb)

/-- The readout weights at the fifth region's exit. -/
theorem W21_v59 (E : Entry m ρ c h2) (hb : Cert.Ix.InRange 4096 (𝔞2 : Cert.Rst.I Cert.ReferenceIdeal.S81920)) :
    W21 m ρ c (Proc.devRef .tc main_v59) = Cert.Rst.readout h2 𝔢 𝔞9 𝔞10 𝔞11 𝔞12 𝔞13 𝔞14 :=
  (W21_arr m ρ c 8).trans (Cert.Reg.readout4_whole (V20 m ρ) c h2 𝔢 𝔞9 𝔞10 𝔞11 𝔞12 𝔞13 𝔞14
    ((W20_v38_of_W12 m ρ c).trans E.h)
    (W20_v53 E hb)
    (st4_7_v54 (W19 m ρ c) 𝔞9 ((W19_arg9_of_W12 m ρ c).trans E.a9))
    (st4_7_v56 (W19 m ρ c) 𝔞10 ((W19_arg10_of_W12 m ρ c).trans E.a10))
    (st4_7_v55 (W19 m ρ c) 𝔞11 ((W19_arg11_of_W12 m ρ c).trans E.a11))
    (st4_7_v57 (W19 m ρ c) 𝔞12 ((W19_arg12_of_W12 m ρ c).trans E.a12))
    ((W20_arg13_of_W12 m ρ c).trans E.a13)
    (st4_7_v58 (W19 m ρ c) 𝔞14 ((W19_arg14_of_W12 m ρ c).trans E.a14)))

/-- The per-graph sums joined to the last-node rows when the sixth region is entered. -/
theorem W22_v63 (E : Entry m ρ c h2) (hb : Cert.Ix.InRange 4096 (𝔞2 : Cert.Rst.I Cert.ReferenceIdeal.S81920)) :
    W22 m ρ c (Proc.devRef .tc main_v63) = Cert.Rst.segcat 𝔳 𝔴 𝔞2 :=
  st5_v63 (W21 m ρ c) 𝔳 𝔴 𝔞2
    ((W21_v52_of_W18 m ρ c).trans (W18_v52 E)) (W21_v59 E hb) ((W21_arg2_of_W12 m ρ c).trans E.a2)

/-- The affine map of the joined rows at the sixth region's exit. -/
theorem W23_v66 (E : Entry m ρ c h2) (hb : Cert.Ix.InRange 4096 (𝔞2 : Cert.Rst.I Cert.ReferenceIdeal.S81920)) :
    W23 m ρ c (Proc.devRef .tc main_v66) = Cert.Rst.sh 𝔠 𝔞15 𝔞16 :=
  (W23_arr m ρ c 3).trans (Cert.Reg.sh5_whole (V22 m ρ) c 𝔠 𝔞15 𝔞16
    (W22_v63 E hb)
    (st5_v64 (W21 m ρ c) 𝔞15 ((W21_arg15_of_W12 m ρ c).trans E.a15))
    (st5_v65 (W21 m ρ c) 𝔞16 ((W21_arg16_of_W12 m ρ c).trans E.a16)))

/-- The padded embedding table when the last region is entered. -/
theorem W26_v68 (E : Entry m ρ c h2) :
    W26 m ρ c (Proc.devRef .tc main_v68)
      = pad S50176x256 ![0, 0] ![176, 0] ![0, 0] (𝔞3 : FVec Ideal S50000x256 .bf16)
          (sitofp (F := Ideal) .bf16 (constantI S_ 32 0#32)) pads_S50000x256_S50176x256_01760_000 h_S_ :=
  (keep6_2 (W25 m ρ c) main_v68 (by decide)).trans
    (ops6_1_v68 (W24 m ρ c) 𝔞3 (constantI S_ 32 0#32)
      (st6_v67 (W23 m ρ c) 𝔞3 ((W23_arg3_of_W12 m ρ c).trans E.a3)) (ops6_c12 (W23 m ρ c)))

/-- The affine map's result when the last region is entered. -/
theorem W26_v69 (E : Entry m ρ c h2) (hb : Cert.Ix.InRange 4096 (𝔞2 : Cert.Rst.I Cert.ReferenceIdeal.S81920)) :
    W26 m ρ c (Proc.devRef .tc main_v69) = Cert.Rst.sh 𝔠 𝔞15 𝔞16 :=
  st6_2_v69 (W25 m ρ c) 𝔰 ((W25_v66_of_W23 m ρ c).trans (W23_v66 E hb))

/-- The result buffer at the end of the run is the tail of the computation applied to the node states. -/
theorem W28_v71 (E : Entry m ρ c h2) (hb : Cert.Ix.InRange 4096 (𝔞2 : Cert.Rst.I Cert.ReferenceIdeal.S81920)) :
    W28 m ρ c (Proc.devRef .tc main_v71)
      = tail h2 𝔞2 𝔞3 𝔞9 𝔞10 𝔞11 𝔞12 𝔞13 𝔞14 𝔞15 𝔞16 :=
  (st7_v71 (W27 m ρ c) _ (W27_arr m ρ c 2)).trans
    (Cert.Reg.final6_sliced (V26 m ρ) c 𝔰 𝔞3 (sitofp (F := Ideal) .bf16 (constantI S_ 32 0#32))
      (W26_v69 E hb) (W26_v68 E))

/-! The reference's node states of the launch arguments: embedded, after one GRU step, after two. -/
local notation "𝔥0" => (Cert.Rst.h0 𝔞3 𝔞0)
local notation "𝔥1" => (Cert.Rst.gru 𝔥0 (Cert.Rst.agg (Cert.Rst.proj 𝔥0 (Cert.Rst.gw0 𝔞4)) (Cert.Rst.src 𝔞1) (Cert.Rst.dst 𝔞1)) 𝔞5 𝔞6 𝔞7 𝔞8)
local notation "𝔥2" => (Cert.Rst.gru 𝔥1 (Cert.Rst.agg (Cert.Rst.proj 𝔥1 (Cert.Rst.gw1 𝔞4)) (Cert.Rst.src 𝔞1) (Cert.Rst.dst 𝔞1)) 𝔞5 𝔞6 𝔞7 𝔞8)

/-- The result buffer at the end of the run is the reference's whole composition of the launch arguments, once the
    node states handed over are the reference's own after its two GRU steps. -/
theorem W28_v71_out (E : Entry m ρ c 𝔥2) (hb : Cert.Ix.InRange 4096 (𝔞2 : Cert.Rst.I Cert.ReferenceIdeal.S81920)) :
    W28 m ρ c (Proc.devRef .tc main_v71)
      = Cert.Rst.out 𝔞0 𝔞1 𝔞2 𝔞3 𝔞4 𝔞5 𝔞6 𝔞7 𝔞8 𝔞9 𝔞10 𝔞11 𝔞12 𝔞13 𝔞14 𝔞15 𝔞16 :=
  (W28_v71 E hb).trans (out_eq_tail 𝔞0 𝔞1 𝔞2 𝔞3 𝔞4 𝔞5 𝔞6 𝔞7 𝔞8 𝔞9 𝔞10 𝔞11 𝔞12 𝔞13 𝔞14 𝔞15 𝔞16).symm

end Walk

end Cert.KernelIdeal.Walk

end
-- ==== Proof.KernelValue.lean ====
/-
  The kernel program's result, as a function of its arguments: under the precondition (which puts the node ids, the edge
  sources and the graph ids in the range of the tables they index) the buffer the run ends with is the reference's own
  composition of stages applied to the launch contents of the seventeen arguments.
-/
import proofs.«425236_j80513456930926_1_alg».proof.Proof.KernelA
import proofs.«425236_j80513456930926_1_alg».proof.Proof.KernelB
import proofs.«425236_j80513456930926_1_alg».proof.Proof.MaskRanges

noncomputable section

namespace Cert.KernelIdeal.Walk

open Idealize.ShloMosaic Idealize.ShloMosaic.TcCoe
open Idealize.SL.Sem
open Cert.KernelIdeal Cert.KernelIdeal.Gen

variable [Cert.ReferenceIdeal.Facts] [Cert.Pre_finite_inputs.Facts]
variable (m : (ℓ : Loc nD τ sig) → Buf (Elt Ideal) ℓ) (ρ : Dev nD → PrngReg)

/-- The last boundary of the kernel program's run holds, in the result buffer, the composition of the reference's stages
    over the arguments: the precondition gives the three index ranges, the walk up to the second recurrent cell gives
    the node states, and the walk from there gives the scores. -/
theorem W28_out (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = fun _ => 1#1) :
    W28 (F := Ideal) m ρ c (Proc.devRef .tc main_v71)
      = Cert.Rst.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨hx, hs, hb⟩ := Cert.Masks.ranges_of_pre _ _ _ _ _ _ _ _ _ _ _ _ _ _ _ _ _ hpre
  have hx' : Cert.Ix.InRange 50000 (xm1 m c) := Cert.Masks.xm1_inRange _ hx
  have hs' : Cert.Ix.InRange 81920 (srcv m c) := hs
  have E : Entry m ρ c (h2v m c) :=
    ⟨W12_v38 m ρ c hx' hs', W12_main_arg2 m ρ c, W12_main_arg3 m ρ c, W12_main_arg9 m ρ c, W12_main_arg10 m ρ c,
      W12_main_arg11 m ρ c, W12_main_arg12 m ρ c, W12_main_arg13 m ρ c, W12_main_arg14 m ρ c, W12_main_arg15 m ρ c,
      W12_main_arg16 m ρ c⟩
  rw [W28_v71 E hb]
  rfl

end Cert.KernelIdeal.Walk

end
-- ==== Proof.RefLists.lean ====
/-
  Facts about a concatenation of two lists of the reference's host operations from facts about the two pieces: a
  property of every element, running the concatenation (the second piece from where the first ends), and what is written.
-/
import proofs.«425236_j80513456930926_1_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

theorem mem_append_of {α : Type} {p : α → Prop} {l₁ l₂ : List α} (h₁ : ∀ x ∈ l₁, p x) (h₂ : ∀ x ∈ l₂, p x) : ∀ x ∈ l₁ ++ l₂, p x := by
  intro x hx
  rcases List.mem_append.mp hx with h | h
  · exact h₁ x h
  · exact h₂ x h

/-- Running a concatenation is running its second piece from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at *
  intro op hop
  rcases List.mem_append.mp hop with h | h
  · refine (h₁ op h).trans fun x hx => ?_
    rw [List.map_append, List.toFinset_append, Finset.mem_union]; exact Or.inl hx
  · refine (h₂ op h).trans fun x hx => ?_
    rw [List.map_append, List.toFinset_append, Finset.mem_union]; exact Or.inr hx

end Cert.ReferenceIdeal.RefRun

end
-- ==== Proof.RefRun.lean ====
/-
  The reference program's run: the program is the straight line of its 227 host operations; every weakly fair execution
  terminates with each buffer at the fold of the operations' results over the launch contents; a buffer that is no
  operation's result ends as it began; and the result buffer after the run is the composition of the named stage
  functions over the arguments (the stretches run one after the other: a stretch's result is its stage function of the
  contents before the stretch, a buffer a stretch does not write keeps its contents).
-/
import proofs.«425236_j80513456930926_1_alg».proof.Proof.Gen.ReferenceIdeal
import proofs.«425236_j80513456930926_1_alg».proof.Proof.RefStages
import proofs.«425236_j80513456930926_1_alg».proof.Proof.RefOps
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

theorem part0_eq (c : Dev nD) : main_part0 (F := F) c = seq ops0 := rfl
theorem part1_eq (c : Dev nD) : main_part1 (F := F) c = seq ops1 := rfl
-- the outlined functions' operations carry transports along type equations that are identities; the window folds and scatters stay folded while the two spellings are compared
attribute [local irreducible] Host.reduceWindow Host.scatter Host.gather in
set_option maxRecDepth 8192 in
theorem part2_eq (c : Dev nD) : main_part2 (F := F) c = seq ops2 := rfl
theorem part3_eq (c : Dev nD) : main_part3 (F := F) c = seq ops3 := rfl

/-- The reference program is the straight line of its operations. -/
theorem main_eq (c : Dev nD) : main (F := F) c = seq ops := by
  rw [seq_append ops0 (ops1 ++ (ops2 ++ ops3)), seq_append ops1 (ops2 ++ ops3), seq_append ops2 ops3,
    ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- A buffer that is no operation's result ends as it began. -/
theorem kept (V : Valuation τ sig (Elt F)) (r : Ref sig .tc) (h : r ∉ wAll) :
    after (ops (F := F)) V (Proc.devRef .tc r) = V (Proc.devRef .tc r) := after_of_writes_sub ops V ops_writes h

/-- From any memory with zero counters every weakly fair execution of the reference terminates, and every device buffer ends at
    the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The whole run as the stretches run one after the other. -/
theorem after_ops (V : Valuation τ sig (Elt F)) :
    after (ops (F := F)) V = after (sQ (F := F)) (after (sP (F := F)) (after (sO (F := F)) (after (sN (F := F)) (after (sM2 (F := F)) (after (sM1 (F := F)) (after (sL (F := F)) (after (sK (F := F)) (after (sJ2 (F := F)) (after (sJ1 (F := F)) (after (sH (F := F)) (after (sG (F := F)) (after (sF (F := F)) (after (sE2 (F := F)) (after (sE1 (F := F)) (after (sD (F := F)) (after (sC (F := F)) (after (sB (F := F)) (after (sA (F := F)) V)))))))))))))))))) := by
  simp only [after_append]

/-- The result buffer after the run is the composition of the stages over the arguments' contents before it. -/
theorem rterm_val (V : Valuation τ sig (Elt Ideal)) :
    after (ops (F := Ideal)) V (Proc.devRef .tc main_v186) = Cert.Rst.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]
  simp (disch := decide) only [keepA, keepB, keepC, keepD, keepE1, keepE2, keepF, keepG, keepH, keepJ1, keepJ2, keepK, keepL, keepM1, keepM2, keepN, keepO, keepP, keepQ,
    res_h0', res_src', res_dst', res_gw0', res_proj0', res_agg0', res_gru0', res_gw1', res_proj1', res_agg1', res_gru1', res_lastIdx', res_vn', res_vne', res_readout', res_segcat', res_sh', res_scores']
  rfl

/-- The reference's result in terms of the launch memory. -/
theorem rterm (m : (ℓ : Loc nD τ sig) → Buf (Elt Ideal) ℓ) (d : Dev nD) :
    after (ops (F := Ideal)) (launchContents m d) (Proc.devRef .tc main_v186)
      = Cert.Rst.out (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) :=
  rterm_val (launchContents m d)

end Cert.ReferenceIdeal.RefRun

end
-- ==== Proof.lean ====
/-
  The certificate's claim: the three programs run to the end without a fault and keep their arguments; the idealized
  kernel program is the printed one read at the ideal instance (no rewrite was applied, so there is nothing to preserve);
  and, from memories that agree on the arguments and satisfy the precondition (every float finite; the node ids, the edge
  sources and the graph ids legal positions of the tables they index), the idealized kernel program and the idealized
  reference end with the same scores, entry by entry, as extended reals: both results are the reference's composition
  of stages applied to the arguments.
-/
import proofs.«425236_j80513456930926_1_alg».proof.Defs
import proofs.«425236_j80513456930926_1_alg».proof.Proof.Gen.Kernel
import proofs.«425236_j80513456930926_1_alg».proof.Proof.Gen.Kernel.Frame
import proofs.«425236_j80513456930926_1_alg».proof.Proof.Gen.KernelIdeal
import proofs.«425236_j80513456930926_1_alg».proof.Proof.Gen.KernelIdeal.Frame
import proofs.«425236_j80513456930926_1_alg».proof.Proof.Gen.ReferenceIdeal
import proofs.«425236_j80513456930926_1_alg».proof.Proof.Gen.Pre_finite_inputs
import proofs.«425236_j80513456930926_1_alg».proof.Proof.KernelRun
import proofs.«425236_j80513456930926_1_alg».proof.Proof.KernelValue
import proofs.«425236_j80513456930926_1_alg».proof.Proof.RefRun
import Idealize.ShloMosaic.Adequacy
import Idealize.ShloMosaic.Init

noncomputable section

namespace Cert.Proof

open Idealize.ShloMosaic Idealize.SL.Sem

/-- The printed kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference is a straight line of host operations: it runs, and no operation writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RefRun.arg0_kept m c),
      (h c Cert.ReferenceIdeal.main_arg1).trans (Cert.ReferenceIdeal.RefRun.arg1_kept m c),
      (h c Cert.ReferenceIdeal.main_arg2).trans (Cert.ReferenceIdeal.RefRun.arg2_kept m c),
      (h c Cert.ReferenceIdeal.main_arg3).trans (Cert.ReferenceIdeal.RefRun.arg3_kept m c),
      (h c Cert.ReferenceIdeal.main_arg4).trans (Cert.ReferenceIdeal.RefRun.arg4_kept m c),
      (h c Cert.ReferenceIdeal.main_arg5).trans (Cert.ReferenceIdeal.RefRun.arg5_kept m c),
      (h c Cert.ReferenceIdeal.main_arg6).trans (Cert.ReferenceIdeal.RefRun.arg6_kept m c),
      (h c Cert.ReferenceIdeal.main_arg7).trans (Cert.ReferenceIdeal.RefRun.arg7_kept m c),
      (h c Cert.ReferenceIdeal.main_arg8).trans (Cert.ReferenceIdeal.RefRun.arg8_kept m c),
      (h c Cert.ReferenceIdeal.main_arg9).trans (Cert.ReferenceIdeal.RefRun.arg9_kept m c),
      (h c Cert.ReferenceIdeal.main_arg10).trans (Cert.ReferenceIdeal.RefRun.arg10_kept m c),
      (h c Cert.ReferenceIdeal.main_arg11).trans (Cert.ReferenceIdeal.RefRun.arg11_kept m c),
      (h c Cert.ReferenceIdeal.main_arg12).trans (Cert.ReferenceIdeal.RefRun.arg12_kept m c),
      (h c Cert.ReferenceIdeal.main_arg13).trans (Cert.ReferenceIdeal.RefRun.arg13_kept m c),
      (h c Cert.ReferenceIdeal.main_arg14).trans (Cert.ReferenceIdeal.RefRun.arg14_kept m c),
      (h c Cert.ReferenceIdeal.main_arg15).trans (Cert.ReferenceIdeal.RefRun.arg15_kept m c),
      (h c Cert.ReferenceIdeal.main_arg16).trans (Cert.ReferenceIdeal.RefRun.arg16_kept m c)⟩)
    (Cert.ReferenceIdeal.RefRun.run (F := Ideal) m ρ)

/-- Both idealized programs end with the reference's composition of stages over the arguments: the kernel program by the
    walk through its regions and host stretches under the precondition's index ranges, the reference by its own run. -/
theorem algebraic : Cert.algebraic_KernelIdeal_ReferenceIdeal := by
  intro m ρ m' ρ' hpre hagree
  refine ⟨fun c => Cert.Rst.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16)), ?_, ?_⟩
  · refine (θ_run Cert.KernelIdeal.defs _ _).mono (fun _ h c => ⟨(h c).1.trans ?_, (h c).2⟩)
      (Cert.KernelIdeal.GenRun.value_run (F := Ideal) m ρ)
    exact Cert.KernelIdeal.Walk.W28_out m ρ c (hpre c)
  · refine (θ_run Cert.ReferenceIdeal.defs _ _).mono
      (fun _ h c => ⟨(h c Cert.ReferenceIdeal.main_v186).trans ?_,
        (h c Cert.ReferenceIdeal.main_arg0).trans (Cert.ReferenceIdeal.RefRun.arg0_kept m' c),
        (h c Cert.ReferenceIdeal.main_arg1).trans (Cert.ReferenceIdeal.RefRun.arg1_kept m' c),
        (h c Cert.ReferenceIdeal.main_arg2).trans (Cert.ReferenceIdeal.RefRun.arg2_kept m' c),
        (h c Cert.ReferenceIdeal.main_arg3).trans (Cert.ReferenceIdeal.RefRun.arg3_kept m' c),
        (h c Cert.ReferenceIdeal.main_arg4).trans (Cert.ReferenceIdeal.RefRun.arg4_kept m' c),
        (h c Cert.ReferenceIdeal.main_arg5).trans (Cert.ReferenceIdeal.RefRun.arg5_kept m' c),
        (h c Cert.ReferenceIdeal.main_arg6).trans (Cert.ReferenceIdeal.RefRun.arg6_kept m' c),
        (h c Cert.ReferenceIdeal.main_arg7).trans (Cert.ReferenceIdeal.RefRun.arg7_kept m' c),
        (h c Cert.ReferenceIdeal.main_arg8).trans (Cert.ReferenceIdeal.RefRun.arg8_kept m' c),
        (h c Cert.ReferenceIdeal.main_arg9).trans (Cert.ReferenceIdeal.RefRun.arg9_kept m' c),
        (h c Cert.ReferenceIdeal.main_arg10).trans (Cert.ReferenceIdeal.RefRun.arg10_kept m' c),
        (h c Cert.ReferenceIdeal.main_arg11).trans (Cert.ReferenceIdeal.RefRun.arg11_kept m' c),
        (h c Cert.ReferenceIdeal.main_arg12).trans (Cert.ReferenceIdeal.RefRun.arg12_kept m' c),
        (h c Cert.ReferenceIdeal.main_arg13).trans (Cert.ReferenceIdeal.RefRun.arg13_kept m' c),
        (h c Cert.ReferenceIdeal.main_arg14).trans (Cert.ReferenceIdeal.RefRun.arg14_kept m' c),
        (h c Cert.ReferenceIdeal.main_arg15).trans (Cert.ReferenceIdeal.RefRun.arg15_kept m' c),
        (h c Cert.ReferenceIdeal.main_arg16).trans (Cert.ReferenceIdeal.RefRun.arg16_kept m' c)⟩)
      (Cert.ReferenceIdeal.RefRun.run (F := Ideal) m' ρ')
    rw [Cert.ReferenceIdeal.RefRun.rterm m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
